-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x128 : Shape := ⟨2, ![512, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S16384x512 .f32) (main_arg1 : FVec F S16384x16384 .f32) (main_arg2 : FVec F S512x128 .f32) (main_arg3 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Kernel.lean ====
abbrev S16384x512 : Shape := ⟨2, ![16384, 512]⟩
abbrev S16384x16384 : Shape := ⟨2, ![16384, 16384]⟩
abbrev S512x128 : Shape := ⟨2, ![512, 128]⟩
abbrev S16384x128 : Shape := ⟨2, ![16384, 128]⟩
abbrev S2048x512 : Shape := ⟨2, ![2048, 512]⟩
abbrev S2048x128 : Shape := ⟨2, ![2048, 128]⟩
abbrev S1024x2048 : Shape := ⟨2, ![1024, 2048]⟩
abbrev S1024x128 : Shape := ⟨2, ![1024, 128]⟩

abbrev nBuf : Space → Nat
  | .hbm => 8
  | .vmem => 28
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S16384x512, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x128, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x128, .f32⟩
  | .local _ .vmem, ⟨5, _⟩ => ⟨S2048x128, .f32⟩
  | .local _ .vmem, ⟨6, _⟩ => ⟨S2048x128, .f32⟩
  | .local _ .vmem, ⟨7, _⟩ => ⟨S1024x2048, .f32⟩
  | .local _ .vmem, ⟨8, _⟩ => ⟨S1024x2048, .f32⟩
  | .local _ .vmem, ⟨9, _⟩ => ⟨S2048x128, .f32⟩
  | .local _ .vmem, ⟨10, _⟩ => ⟨S2048x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x2048, .f32⟩
  | .local _ .vmem, ⟨15, _⟩ => ⟨S1024x2048, .f32⟩
  | .local _ .vmem, ⟨16, _⟩ => ⟨S2048x128, .f32⟩
  | .local _ .vmem, ⟨17, _⟩ => ⟨S2048x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x2048, .f32⟩
  | .local _ .vmem, ⟨22, _⟩ => ⟨S1024x2048, .f32⟩
  | .local _ .vmem, ⟨23, _⟩ => ⟨S2048x128, .f32⟩
  | .local _ .vmem, ⟨24, _⟩ => ⟨S2048x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![16, 8], ![false, false]⟩

def k3_cond2 (i : grid3.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  shapeCasts_S2048x128_S2048x128 : S2048x128.ShapeCasts S2048x128
  dot_S2048x512_S512x128_S2048x128_1_0_0_1_n_n_wf : DotDims.WF S2048x512 S512x128 S2048x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S16384x128.size a
  hwx1_2 : ∀ i : grid1.Coords, EltTy.bits .f32 = 32 ∨ (Rect.block (s := S16384x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S16384x16384.size a
  hwx2_0 : ∀ i : grid2.Coords, EltTy.bits .f32 = 32 ∨ (Rect.block (s := S16384x16384) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .f32 = 32 ∨ (Rect.block (s := S16384x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S16384x128.size a
  hwx2_2 : ∀ i : grid2.Coords, EltTy.bits .f32 = 32 ∨ (Rect.block (s := S16384x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S16384x16384.size a
  hwx3_0 : ∀ i : grid3.Coords, EltTy.bits .f32 = 32 ∨ (Rect.block (s := S16384x16384) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S16384x128.size a
  hwx3_1 : ∀ i : grid3.Coords, EltTy.bits .f32 = 32 ∨ (Rect.block (s := S16384x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S16384x128.size a
  hwx3_2 : ∀ i : grid3.Coords, EltTy.bits .f32 = 32 ∨ (Rect.block (s := S16384x128) S1024x128.size (cc3_transform_2 i) (hinb3_2 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg1) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x128 : Shape := ⟨2, ![512, 128]⟩
abbrev S_ : Shape := ⟨0, ![]⟩
abbrev S16384x128 : Shape := ⟨2, ![16384, 128]⟩

abbrev nBuf : Space → Nat
  | .hbm => 15
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S16384x512, .f32⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S_, .f32⟩
  | .hbm, ⟨13, _⟩ => ⟨S16384x128, .f32⟩
  | .hbm, ⟨14, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  bcast_S_S16384x512 : S_.BroadcastsInDim S16384x512 (![] : Fin 0 → Fin S16384x512.rank)
  bcast_S_S16384x128 : S_.BroadcastsInDim S16384x128 (![] : Fin 0 → Fin S16384x128.rank)
  dot_S16384x512_S512x128_S16384x128_1_0_0_1_n_n_wf : DotDims.WF S16384x512 S512x128 S16384x128 [1] [0] [0] [1] [] []
  dot_S16384x16384_S16384x128_S16384x128_1_0_0_1_n_n_wf : DotDims.WF S16384x16384 S16384x128 S16384x128 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.KLin.lean ====
/-
  The first of the four kernel regions: feat₀ = ((x ∘ mask) · c) @ W, computed one block of 2048 rows per grid
  point (8 points). Each point reads rows [2048 t, 2048 t + 2048) of x and of the mask and the whole of W, and
  writes the same rows of the result: the three inputs are only read, the output block is stored whole, nothing
  is kept from one point to the next. Stated for any float family and at any contents `V` of the core's buffers
  when the region is entered.
-/
import proofs.«172064_j31550829756529_1_alg».proof.Proof.Gen.Kernel.Launch
import proofs.«172064_j31550829756529_1_alg».proof.Proof.Gen.Kernel.Skeleton
import proofs.«172064_j31550829756529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents is decided coordinate by coordinate
set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`: rows [2048 t, 2048 t + 2048) of x (w = 0) and of the mask (w = 1), all of W (w = 2). -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, whether the point fetched it or an earlier one did
    (W's block index never moves, so it is fetched once). -/
theorem found_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_mask {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_w {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The rectangles the body reads and writes: each is its buffer whole. -/
abbrev rX : Rect S2048x512 := Rect.unit (s := S2048x512) ![0, 0] S2048x512.size inb_S2048x512_S2048x512_0_0
abbrev rW : Rect S512x128 := Rect.unit (s := S512x128) ![0, 0] S512x128.size inb_S512x128_S512x128_0_0
abbrev rO : Rect S2048x128 := Rect.unit (s := S2048x128) ![0, 0] S2048x128.size inb_S2048x128_S2048x128_0_0

/-- What one point leaves in the output block: its one store, of the product of the scaled, masked rows with W. -/
def lin (x0 x1 : Vec F S2048x512 .f32) (x2 : Vec F S512x128 .f32) : Vec F S2048x128 .f32 :=
  View.canon [⟨rO, k0_pay1 (View.ld x0 rX) (View.ld x1 rX) (View.ld x2 rW)⟩]

/-- That store covers the block. -/
theorem lin_cover (p0 : Vec F S2048x128 .f32) (y : S2048x128.Idx) :
    ∃ pc ∈ ([⟨rO, p0⟩] : List (View.Piece (Elt F) S2048x128 .f32)), y ∈ pc.1.set :=
  View.cover_of_tiled [⟨rO, p0⟩] S2048x128.size (by rfl) y

set_option maxHeartbeats 1000000 in
/-- The body on whole buffers: the three inputs at `x0 x1 x2` and the output at anything run to the inputs as they
    were and the output at `lin x0 x1 x2`. -/
theorem sound_kernel (c : Dev nD) (E : Set ℕ) (i : grid0.Coords)
    (arg1 : Memref sig .tc .vmem S2048x512 .f32) (harg1 : arg1.IsWhole) (arg2 : Memref sig .tc .vmem S2048x512 .f32) (harg2 : arg2.IsWhole)
    (arg3 : Memref sig .tc .vmem S512x128 .f32) (harg3 : arg3.IsWhole) (arg4 : Memref sig .tc .vmem S2048x128 .f32) (harg4 : arg4.IsWhole)
    (x0 x1 : Vec F S2048x512 .f32) (x2 : Vec F S512x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (lin x0 x1 x2)) -∗ K ⟨⟩))
      ⊢ wp frame (wpE (defs₀ (F := F)) Variants.none c none) E (cc0__dropout_linear_kernel i arg1 harg1 arg2 harg2 arg3 harg3 arg4 harg4) K := by
  simp only [cc0__dropout_linear_kernel_eq_skeleton]; unfold cc0__dropout_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lin_cover _)

/-- The region's proof data: the arrays as the region finds them; after each point the inputs' buffers at their
    blocks and the output's at `lin` of them; nothing kept between points; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => lin (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]
theorem after_x (c : Dev nD) (t : Fin cfg0.N) : (dat V c).after 0 t = blk V c 0 t := by dsimp only [dat]
theorem after_mask (c : Dev nD) (t : Fin cfg0.N) : (dat V c).after 1 t = blk V c 1 t := by dsimp only [dat]
theorem after_w (c : Dev nD) (t : Fin cfg0.N) : (dat V c).after 2 t = blk V c 2 t := by dsimp only [dat]
/-- The output block after point `t`. -/
theorem after_out (c : Dev nD) (t : Fin cfg0.N) : (dat V c).after 3 t = lin (blk V c 0 t) (blk V c 1 t) (blk V c 2 t) := by dsimp only [dat]

theorem before_x (c : Dev nD) (t : Fin cfg0.N) (d) : (dat V c).before 0 t d = blk V c 0 t :=
  found_x V (dat V c) (A_eq V c 0) (after_x V c) t d
theorem before_mask (c : Dev nD) (t : Fin cfg0.N) (d) : (dat V c).before 1 t d = blk V c 1 t :=
  found_mask V (dat V c) (A_eq V c 1) (after_mask V c) t d
theorem before_w (c : Dev nD) (t : Fin cfg0.N) (d) : (dat V c).before 2 t d = blk V c 2 t :=
  found_w V (dat V c) (A_eq V c 2) (after_w V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `sound_kernel` applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_mask, before_w]
  rw [show (dat V c).Φ t.succ = (dat V c).Φ t.castSucc from rfl,
    show (dat V c).owesAt () t.succ = (dat V c).owesAt () t.castSucc from rfl,
    after_x, after_mask, after_w, after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Lin

end
-- ==== Proof.KDif1Runs.lean ====
/-
  One diffusion step: out = S @ feat over the extended reals, for S of 16384 × 16384 and feat of 16384 × 128.
  The grid has 16 × 8 points; point t = 8 i + k reads the block of S in rows [1024 i, 1024 i + 1024) and
  columns [2048 k, 2048 k + 2048) and the rows [2048 k, 2048 k + 2048) of feat. A scratch accumulator of
  1024 × 128 is kept from point to point: at k = 0 it is set to zero first; at every k the product of the two
  blocks is added to it; at k = 7 it is copied into the output block, which is written back as rows
  [1024 i, 1024 i + 1024) of the result. At the other points the output block is left alone and not written back.
  Stated for any float family and at any contents `V` of the core's buffers when the region is entered.
-/
import proofs.«172064_j31550829756529_1_alg».proof.Proof.Gen.Kernel.Launch
import proofs.«172064_j31550829756529_1_alg».proof.Proof.Gen.Kernel.Skeleton
import proofs.«172064_j31550829756529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents is decided coordinate by coordinate
set_option maxRecDepth 16384

noncomputable section

namespace Cert.Kernel.Dif1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input blocks -/

/-- Window `w`'s block at point `t`: the block (i, k) of S (w = 0), the row block k of feat (w = 1). -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point (both are fetched at every point). -/
theorem found_s {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_f {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, in closed form over the grid -/

/-- "k = 0": the accumulator is reset. -/
abbrev cond_first (i : grid1.Coords) : Prop := (Scalar.cmpi .ne (Scalar.extui (Scalar.cmpi .eq (BitVec.ofNat 32 (i 1).val) 0#32)) 0#32) = 1#1
theorem first_iff : ∀ t : Fin cfg1.N, cond_first (grid1.coords t) ↔ t.val % 8 = 0 :=
  (by decide +kernel : ∀ t : Fin grid1.N, cond_first (grid1.coords t) ↔ t.val % 8 = 0)
/-- "k = 7": the accumulator is written out. -/
abbrev cond_last (i : grid1.Coords) : Prop := k1_cond2 i = 1#1
theorem last_iff : ∀ t : Fin cfg1.N, cond_last (grid1.coords t) ↔ t.val % 8 = 7 :=
  (by decide +kernel : ∀ t : Fin grid1.N, cond_last (grid1.coords t) ↔ t.val % 8 = 7)

/-- The inputs are never idle; the output block is idle, and not written back, exactly away from k = 7. -/
theorem live_s : ∀ t : Fin cfg1.N, cfg1.idle 0 (grid1.coords t) = false := by decide +kernel
theorem live_f : ∀ t : Fin cfg1.N, cfg1.idle 1 (grid1.coords t) = false := by decide +kernel
theorem idle_o : ∀ t : Fin cfg1.N, ¬cond_last (grid1.coords t) → cfg1.idle 2 (grid1.coords t) = true := by decide +kernel
theorem noflush_o : ∀ t : Fin cfg1.N, ¬cond_last (grid1.coords t) → (cfg1.win 2).flush t = false := by decide +kernel
theorem live_o : ∀ t : Fin cfg1.N, cond_last (grid1.coords t) → cfg1.idle 2 (grid1.coords t) = false := by decide +kernel

/-! ## The buffers the body is called with -/

abbrev ms_s (t : Fin cfg1.N) : Memref sig .tc .vmem S1024x2048 .f32 := win1_0.stage (cfg1.slots t 0)
abbrev hs_s (t : Fin cfg1.N) : (ms_s t).IsWhole := hstage1_0 ((cfg1.slots t 0).cast nbuf1_0)
abbrev ms_f (t : Fin cfg1.N) : Memref sig .tc .vmem S2048x128 .f32 := win1_1.stage (cfg1.slots t 1)
abbrev hs_f (t : Fin cfg1.N) : (ms_f t).IsWhole := hstage1_1 ((cfg1.slots t 1).cast nbuf1_1)
abbrev ms_o (t : Fin cfg1.N) : Memref sig .tc .vmem S1024x128 .f32 := win1_2.stage (cfg1.slots t 2)
abbrev hs_o (t : Fin cfg1.N) : (ms_o t).IsWhole := hstage1_2 ((cfg1.slots t 2).cast nbuf1_2)
/-- The accumulator: a whole scoped buffer of the kernel's own. -/
abbrev scr : Memref sig .tc .vmem S1024x128 .f32 := Memref.whole cc1_scratch0
/-- Views through which the accumulator's and the output block's contents are stated. -/
abbrev VS : View sig .tc .vmem S1024x128 .f32 := scr.view
abbrev VO : View sig .tc .vmem S1024x128 .f32 := (Memref.whole cc1_stg2_0 : Memref sig .tc .vmem S1024x128 .f32).view

/-- The core's scoped buffers outside this region's staging: the accumulator, and the rest unopened. -/
theorem scoped_split (c : Dev nD) :
    (Pipeline.scopedRest (Ix := Unit) (Name := ℕ) (U := UR sig nD τ) (Lvl := ℕ) (Val := Elt F) spec1 c : sProp 𝕄)
      = iprop((∃ d, owns (c : Thread nD τ) scr fullShare d)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [scr, owns_whole]; try rfl

/-- What rides beside the accumulator in the invariant: the other scoped buffers and the generator register. -/
abbrev beside (c : Dev nD) : sProp 𝕄 :=
  iprop(Pipeline.scopedRestBut (Ix := Unit) (Name := ℕ) (U := UR sig nD τ) (Lvl := ℕ) (Val := Elt F) spec1 c [cc1_scratch0] ∗ ∃ r, prngReg c r)

theorem PhiA_eq (c : Dev nD) :
    (Pipeline.ΦA spec1 c : sProp 𝕄) = iprop(iprop((∃ d, owns (c : Thread nD τ) scr fullShare d)
          ∗ Pipeline.scopedRestBut (Ix := Unit) (Name := ℕ) (U := UR sig nD τ) (Lvl := ℕ) (Val := Elt F) spec1 c [cc1_scratch0]) ∗ ∃ r, prngReg c r) := by
  unfold Pipeline.ΦA; rw [scoped_split]

/-! ## The body in each of its three cases, on any whole buffers -/

set_option maxHeartbeats 1000000 in
/-- k = 0: from the inputs at `x0 x1`, the output block at `xi` (handed back untouched) and the accumulator at
    anything, the body ends with the accumulator written by the pieces `LS` (the zero store, then the sum). -/
noncomputable def run_first (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1_kernel i arg2 harg2 arg3 harg3 arg4 harg4 arg5 harg5) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- 0 < k < 7: the accumulator at `xs` ends written by the pieces `LS` (the sum added). -/
noncomputable def run_mid (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1_kernel i arg2 harg2 arg3 harg3 arg4 harg4 arg5 harg5) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- k = 7: the accumulator at `xs` ends written by `LS`, and the output block, at anything, by `LO`
    (the accumulator read back). -/
noncomputable def run_last (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Dif1

end
-- ==== Proof.KDif1.lean ====
/-
  One diffusion step, continued: what the accumulator and the output block hold after each grid point, the
  invariant that carries the accumulator from point to point, and the body's obligation at every point.
  After point t = 8 i + k the accumulator holds the sum, over the column blocks 0 … k of row block i, of the
  products of the blocks of S and of feat (starting again from zero at each k = 0); the output block is written at
  k = 7 only.
-/
import proofs.«172064_j31550829756529_1_alg».proof.Proof.KDif1Runs

set_option maxRecDepth 16384

noncomputable section

namespace Cert.Kernel.Dif1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its stores cover the buffer, so the buffer is their read-back -/

theorem cover_first (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) (y : S1024x128.Idx) :
    ∃ pc ∈ (run_first c i arg2 harg2 arg3 harg3 arg4 harg4 arg5 harg5 hc0 hc1 x0 x1).1, y ∈ pc.1.set :=
  View.cover_of_tiledL (run_first c i arg2 harg2 arg3 harg3 arg4 harg4 arg5 harg5 hc0 hc1 x0 x1).1 S1024x128.size (by sl_kernel_rfl) y
/-- The accumulator after a point with k = 0. -/
def acc_first (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) : Vec F S1024x128 .f32 :=
  VS.read (Elt F) (VS.writes (Elt F) VS.junk (run_first c i arg2 harg2 arg3 harg3 arg4 harg4 arg5 harg5 hc0 hc1 x0 x1).1)

theorem cover_mid (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) (y : S1024x128.Idx) :
    ∃ pc ∈ (run_mid c i arg2 harg2 arg3 harg3 arg4 harg4 arg5 harg5 hc0 hc1 x0 x1 xs).1, y ∈ pc.1.set :=
  View.cover_of_tiledL (run_mid c i arg2 harg2 arg3 harg3 arg4 harg4 arg5 harg5 hc0 hc1 x0 x1 xs).1 S1024x128.size (by sl_kernel_rfl) y
/-- The accumulator after a point with 0 < k < 7, over what the point before left. -/
def acc_mid (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) : Vec F S1024x128 .f32 :=
  VS.read (Elt F) (VS.writes (Elt F) VS.junk (run_mid c i arg2 harg2 arg3 harg3 arg4 harg4 arg5 harg5 hc0 hc1 x0 x1 xs).1)

theorem cover_last_acc (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).2.1, y ∈ pc.1.set :=
  View.cover_of_tiledL (run_last c i arg2 harg2 arg3 harg3 arg4 harg4 arg5 harg5 hc0 hc1 x0 x1 xs).2.1 S1024x128.size (by sl_kernel_rfl) y
/-- The accumulator after a point with k = 7. -/
def acc_last (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VS.read (Elt F) (VS.writes (Elt F) VS.junk (run_last c i arg2 harg2 arg3 harg3 arg4 harg4 arg5 harg5 hc0 hc1 x0 x1 xs).2.1)
theorem cover_last_out (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).1, y ∈ pc.1.set :=
  View.cover_of_tiledL (run_last c i arg2 harg2 arg3 harg3 arg4 harg4 arg5 harg5 hc0 hc1 x0 x1 xs).1 S1024x128.size (by sl_kernel_rfl) y
/-- The output block after a point with k = 7. -/
def out_last (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VO.read (Elt F) (VO.writes (Elt F) VO.junk (run_last c i arg2 harg2 arg3 harg3 arg4 harg4 arg5 harg5 hc0 hc1 x0 x1 xs).1)

/-! ## The state point by point -/

/-- One point's effect on (output block, accumulator), given the accumulator the point before left: by the
    case k = t mod 8 puts the point in. Where the output block is not stored (k < 7) its component repeats the
    accumulator: nothing reads it there. -/
def step (c : Dev nD) (t : Fin cfg1.N) (prev : Vec F S1024x128 .f32) : Vec F S1024x128 .f32 × Vec F S1024x128 .f32 :=
  if h0 : t.val % 8 = 0 then
    (acc_first c (grid1.coords t) (ms_s t) (hs_s t) (ms_f t) (hs_f t) (ms_o t) (hs_o t) scr (Memref.isWhole_whole _) ((first_iff t).mpr h0) (fun h => by have := (last_iff t).mp h; omega) (blk V c 0 t) (blk V c 1 t),
     acc_first c (grid1.coords t) (ms_s t) (hs_s t) (ms_f t) (hs_f t) (ms_o t) (hs_o t) scr (Memref.isWhole_whole _) ((first_iff t).mpr h0) (fun h => by have := (last_iff t).mp h; omega) (blk V c 0 t) (blk V c 1 t))
  else if h1 : t.val % 8 = 7 then
    (out_last c (grid1.coords t) (ms_s t) (hs_s t) (ms_f t) (hs_f t) (ms_o t) (hs_o t) scr (Memref.isWhole_whole _) (fun h => h0 ((first_iff t).mp h)) ((last_iff t).mpr h1) (blk V c 0 t) (blk V c 1 t) prev,
     acc_last c (grid1.coords t) (ms_s t) (hs_s t) (ms_f t) (hs_f t) (ms_o t) (hs_o t) scr (Memref.isWhole_whole _) (fun h => h0 ((first_iff t).mp h)) ((last_iff t).mpr h1) (blk V c 0 t) (blk V c 1 t) prev)
  else
    (acc_mid c (grid1.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
     acc_mid c (grid1.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev)

/-- (output block, accumulator) after the point at position `n`. -/
def stateAt (c : Dev nD) : (n : ℕ) → n < cfg1.N → Vec F S1024x128 .f32 × Vec F S1024x128 .f32
  | 0, hn => step V c ⟨0, hn⟩ (VS.read (Elt F) VS.junk)
  | n + 1, hn => step V c ⟨n + 1, hn⟩ (stateAt c n (Nat.lt_of_succ_lt hn)).2

/-- The accumulator a point finds: what the point before left (at the very first point, anything). -/
def prevAcc (c : Dev nD) (t : Fin cfg1.N) : Vec F S1024x128 .f32 :=
  if h : t.val = 0 then VS.read (Elt F) VS.junk else (stateAt V c (t.val - 1) (Nat.lt_of_le_of_lt (Nat.sub_le _ _) t.isLt)).2

theorem stateAt_eq (c : Dev nD) (t : Fin cfg1.N) : stateAt V c t.val t.isLt = step V c t (prevAcc V c t) := by
  obtain ⟨n, hn⟩ := t
  cases n with
  | zero => rfl
  | succ n => rfl

theorem prevAcc_pos (c : Dev nD) (t : Fin cfg1.N) (h : t.val ≠ 0) :
    prevAcc V c t = (stateAt V c (t.val - 1) (Nat.lt_of_le_of_lt (Nat.sub_le _ _) t.isLt)).2 := dif_neg h

theorem step_first (c : Dev nD) (t : Fin cfg1.N) (prev : Vec F S1024x128 .f32) (h0 : t.val % 8 = 0) :
    step V c t prev =
      (acc_first c (grid1.coords t) (ms_s t) (hs_s t) (ms_f t) (hs_f t) (ms_o t) (hs_o t) scr (Memref.isWhole_whole _) ((first_iff t).mpr h0) (fun h => by have := (last_iff t).mp h; omega) (blk V c 0 t) (blk V c 1 t),
       acc_first c (grid1.coords t) (ms_s t) (hs_s t) (ms_f t) (hs_f t) (ms_o t) (hs_o t) scr (Memref.isWhole_whole _) ((first_iff t).mpr h0) (fun h => by have := (last_iff t).mp h; omega) (blk V c 0 t) (blk V c 1 t)) := dif_pos h0
theorem step_last (c : Dev nD) (t : Fin cfg1.N) (prev : Vec F S1024x128 .f32) (h0 : ¬t.val % 8 = 0) (h1 : t.val % 8 = 7) :
    step V c t prev =
      (out_last c (grid1.coords t) (ms_s t) (hs_s t) (ms_f t) (hs_f t) (ms_o t) (hs_o t) scr (Memref.isWhole_whole _) (fun h => h0 ((first_iff t).mp h)) ((last_iff t).mpr h1) (blk V c 0 t) (blk V c 1 t) prev,
       acc_last c (grid1.coords t) (ms_s t) (hs_s t) (ms_f t) (hs_f t) (ms_o t) (hs_o t) scr (Memref.isWhole_whole _) (fun h => h0 ((first_iff t).mp h)) ((last_iff t).mpr h1) (blk V c 0 t) (blk V c 1 t) prev) :=
  (dif_neg h0).trans (dif_pos h1)
theorem step_mid (c : Dev nD) (t : Fin cfg1.N) (prev : Vec F S1024x128 .f32) (h0 : ¬t.val % 8 = 0) (h1 : ¬t.val % 8 = 7) :
    step V c t prev =
      (acc_mid c (grid1.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
       acc_mid c (grid1.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev) :=
  (dif_neg h0).trans (dif_neg h1)

/-! ## The invariant and the proof data -/

/-- Before position `n`: at the region's entry every scoped buffer at anything; afterwards the accumulator at what
    the point before left, the other scoped buffers and the generator register beside it. -/
def Phi (c : Dev nD) : (n : ℕ) → n ≤ cfg1.N → sProp 𝕄
  | 0, _ => Pipeline.ΦA spec1 c
  | n + 1, hn => iprop(owns (c : Thread nD τ) scr fullShare (stateAt V c n hn).2 ∗ beside c)

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = iprop(owns (c : Thread nD τ) scr fullShare (stateAt V c n hn).2 ∗ beside c) := rfl
theorem Phi_pos (c : Dev nD) (n : ℕ) (h : n ≤ cfg1.N) (hz : n ≠ 0) :
    Phi V c n h = iprop(owns (c : Thread nD τ) scr fullShare (stateAt V c (n - 1) (by omega)).2 ∗ beside c) := by
  cases n with
  | zero => exact absurd rfl hz
  | succ n => rfl

/-- The region's proof data: the arrays as the region finds them; after each point the inputs' buffers at their
    blocks and the output's at `stateAt`'s first component; the invariant `Phi`; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => (stateAt V c t.val t.isLt).1
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) : (dat V c).Φ t.castSucc = Phi V c t.val (Nat.le_of_lt t.isLt) := by
  dsimp only [dat]; simp only [Fin.coe_castSucc]
theorem after_s (c : Dev nD) (t : Fin cfg1.N) : (dat V c).after 0 t = blk V c 0 t := by dsimp only [dat]
theorem after_f (c : Dev nD) (t : Fin cfg1.N) : (dat V c).after 1 t = blk V c 1 t := by dsimp only [dat]
/-- The output block after point `t`. -/
theorem after_o (c : Dev nD) (t : Fin cfg1.N) : (dat V c).after 2 t = (stateAt V c t.val t.isLt).1 := by dsimp only [dat]
theorem before_s (c : Dev nD) (t : Fin cfg1.N) (d) : (dat V c).before 0 t d = blk V c 0 t :=
  found_s V (dat V c) (A_eq V c 0) (after_s V c) t d
theorem before_f (c : Dev nD) (t : Fin cfg1.N) (d) : (dat V c).before 1 t d = blk V c 1 t :=
  found_f V (dat V c) (A_eq V c 1) (after_f V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_s t) fullShare ((dat V c).before 0 t d))
    ∗ (∃ d, owns (c : Thread nD τ) (ms_f t) fullShare ((dat V c).before 1 t d))
    ∗ (∃ d, owns (c : Thread nD τ) (ms_o t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point: the inputs' buffers hold their blocks; k = t mod 8 says which case the point is in; the
    invariant hands the body the accumulator at what the point before left (at anything before the first point) and
    takes it back at this point's contents; the output block is handed back untouched unless k = 7. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_s, before_f]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_s t) fullShare ((dat V c).after 0 t) from by
    unfold Dat.leavesExact; rw [live_s t], after_s]
  rw [show (dat V c).leavesExact 1 t = owns (c : Thread nD τ) (ms_f t) fullShare ((dat V c).after 1 t) from by
    unfold Dat.leavesExact; rw [live_f t], after_f]
  have hN : t.val < 128 := lt_of_lt_of_eq t.isLt (show cfg1.N = 128 from N_1)
  rw [stateAt_eq V c t]
  by_cases h0 : t.val % 8 = 0
  · have hl : ¬cond_last (grid1.coords t) := fun h => by have := (last_iff t).mp h; omega
    rw [Dat.leavesExact_idle (dat V c) 2 t (idle_o t hl) (noflush_o t hl)]
    rw [step_first V c t _ h0]
    unfold acc_first; (try dsimp only)
    by_cases hz : t.val = 0
    · rw [Phi_castSucc V c t, Phi_zero V c _ _ hz, PhiA_eq]
      iintro ⟨⟨⟨HS, Hb⟩, Hg⟩, Ho, ⟨%d0, H0⟩, ⟨%d1, H1⟩, ⟨%d2, H2⟩⟩
      iapply ((run_first c (grid1.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
    · rw [Phi_castSucc V c t, Phi_pos V c _ _ hz]
      iintro ⟨⟨HS, Hb, Hg⟩, Ho, ⟨%d0, H0⟩, ⟨%d1, H1⟩, ⟨%d2, H2⟩⟩
      iapply ((run_first c (grid1.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
  · have hz : t.val ≠ 0 := fun h => h0 (by rw [h])
    rw [prevAcc_pos V c t hz]
    by_cases h1 : t.val % 8 = 7
    · rw [show (dat V c).leavesExact 2 t = owns (c : Thread nD τ) (ms_o t) fullShare ((dat V c).after 2 t) from by
        unfold Dat.leavesExact; rw [live_o t ((last_iff t).mpr h1)], after_o, stateAt_eq V c t, prevAcc_pos V c t hz]
      rw [step_last V c t _ h0 h1]
      unfold out_last acc_last; (try dsimp only)
      rw [Phi_castSucc V c t, Phi_pos V c _ _ hz]
      iintro ⟨⟨HS, Hb, Hg⟩, Ho, ⟨%d0, H0⟩, ⟨%d1, H1⟩, ⟨%d2, H2⟩⟩
      iapply ((run_last c (grid1.coords t) _ _ _ _ _ _ _ _ (fun h => h0 ((first_iff t).mp h)) ((last_iff t).mpr h1) (blk V c 0 t) (blk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hb Hg]
      · isplitl [HS]
        · unfold owns; iexists _; isplitr
          swap; · iexact HS
          ipureintro; exact View.read_writes_of_cover _ _ _ _ _ (cover_last_acc c _ _ _ _ _ _ _ _ _ _ _ _ _ _)
        isplitl [Hb]; · iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _)
    · have hl : ¬cond_last (grid1.coords t) := fun h => h1 ((last_iff t).mp h)
      rw [Dat.leavesExact_idle (dat V c) 2 t (idle_o t hl) (noflush_o t hl)]
      rw [step_mid V c t _ h0 h1]
      unfold acc_mid; (try dsimp only)
      rw [Phi_castSucc V c t, Phi_pos V c _ _ hz]
      iintro ⟨⟨HS, Hb, Hg⟩, Ho, ⟨%d0, H0⟩, ⟨%d1, H1⟩, ⟨%d2, H2⟩⟩
      iapply ((run_mid c (grid1.coords t) _ _ _ _ _ _ _ _ (fun h => h0 ((first_iff t).mp h)) hl (blk V c 0 t) (blk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_mid c _ _ _ _ _ _ _ _ _ _ _ _ _ _)
        isplitl [Hb]; · iexact Hb
        iexact Hg
      isplitl [Ho]; · iexact Ho
      isplitl [H0]; · iexact H0
      isplitl [H1]; · iexact H1
      iexists _; iexact H2

/-- The body obligation, at every point. -/
theorem body_obligation (c : Dev nD) : BodyObligation (dat (F := F) V c) (defs₀ (F := F)) Variants.none () Set.univ := fun t => by
  rw [bigSep_W1, bigSep_W1]
  exact sound_body V c t

/-- What the region's entry hands the kernel is the invariant before the first point. -/
theorem Phi_in (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After the last point the invariant gives every scoped buffer back at some contents. -/
theorem Phi_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    Phi_pos V c _ _ (by rw [Fin.val_last]; have : cfg1.N = 128 := N_1; omega), PhiA_eq]
  iintro ⟨HS, Hb, Hg⟩
  isplitl [HS Hb]
  · isplitl [HS]; · iexists _; iexact HS
    iexact Hb
  iexact Hg

end Cert.Kernel.Dif1

end
-- ==== Proof.KDif2Runs.lean ====
/-
  One diffusion step: out = S @ feat over the extended reals, for S of 16384 × 16384 and feat of 16384 × 128.
  The grid has 16 × 8 points; point t = 8 i + k reads the block of S in rows [1024 i, 1024 i + 1024) and
  columns [2048 k, 2048 k + 2048) and the rows [2048 k, 2048 k + 2048) of feat. A scratch accumulator of
  1024 × 128 is kept from point to point: at k = 0 it is set to zero first; at every k the product of the two
  blocks is added to it; at k = 7 it is copied into the output block, which is written back as rows
  [1024 i, 1024 i + 1024) of the result. At the other points the output block is left alone and not written back.
  Stated for any float family and at any contents `V` of the core's buffers when the region is entered.
-/
import proofs.«172064_j31550829756529_1_alg».proof.Proof.Gen.Kernel.Launch
import proofs.«172064_j31550829756529_1_alg».proof.Proof.Gen.Kernel.Skeleton
import proofs.«172064_j31550829756529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents is decided coordinate by coordinate
set_option maxRecDepth 16384

noncomputable section

namespace Cert.Kernel.Dif2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input blocks -/

/-- Window `w`'s block at point `t`: the block (i, k) of S (w = 0), the row block k of feat (w = 1). -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point (both are fetched at every point). -/
theorem found_s {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_f {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, in closed form over the grid -/

/-- "k = 0": the accumulator is reset. -/
abbrev cond_first (i : grid2.Coords) : Prop := (Scalar.cmpi .ne (Scalar.extui (Scalar.cmpi .eq (BitVec.ofNat 32 (i 1).val) 0#32)) 0#32) = 1#1
theorem first_iff : ∀ t : Fin cfg2.N, cond_first (grid2.coords t) ↔ t.val % 8 = 0 :=
  (by decide +kernel : ∀ t : Fin grid2.N, cond_first (grid2.coords t) ↔ t.val % 8 = 0)
/-- "k = 7": the accumulator is written out. -/
abbrev cond_last (i : grid2.Coords) : Prop := k2_cond2 i = 1#1
theorem last_iff : ∀ t : Fin cfg2.N, cond_last (grid2.coords t) ↔ t.val % 8 = 7 :=
  (by decide +kernel : ∀ t : Fin grid2.N, cond_last (grid2.coords t) ↔ t.val % 8 = 7)

/-- The inputs are never idle; the output block is idle, and not written back, exactly away from k = 7. -/
theorem live_s : ∀ t : Fin cfg2.N, cfg2.idle 0 (grid2.coords t) = false := by decide +kernel
theorem live_f : ∀ t : Fin cfg2.N, cfg2.idle 1 (grid2.coords t) = false := by decide +kernel
theorem idle_o : ∀ t : Fin cfg2.N, ¬cond_last (grid2.coords t) → cfg2.idle 2 (grid2.coords t) = true := by decide +kernel
theorem noflush_o : ∀ t : Fin cfg2.N, ¬cond_last (grid2.coords t) → (cfg2.win 2).flush t = false := by decide +kernel
theorem live_o : ∀ t : Fin cfg2.N, cond_last (grid2.coords t) → cfg2.idle 2 (grid2.coords t) = false := by decide +kernel

/-! ## The buffers the body is called with -/

abbrev ms_s (t : Fin cfg2.N) : Memref sig .tc .vmem S1024x2048 .f32 := win2_0.stage (cfg2.slots t 0)
abbrev hs_s (t : Fin cfg2.N) : (ms_s t).IsWhole := hstage2_0 ((cfg2.slots t 0).cast nbuf2_0)
abbrev ms_f (t : Fin cfg2.N) : Memref sig .tc .vmem S2048x128 .f32 := win2_1.stage (cfg2.slots t 1)
abbrev hs_f (t : Fin cfg2.N) : (ms_f t).IsWhole := hstage2_1 ((cfg2.slots t 1).cast nbuf2_1)
abbrev ms_o (t : Fin cfg2.N) : Memref sig .tc .vmem S1024x128 .f32 := win2_2.stage (cfg2.slots t 2)
abbrev hs_o (t : Fin cfg2.N) : (ms_o t).IsWhole := hstage2_2 ((cfg2.slots t 2).cast nbuf2_2)
/-- The accumulator: a whole scoped buffer of the kernel's own. -/
abbrev scr : Memref sig .tc .vmem S1024x128 .f32 := Memref.whole cc2_scratch0
/-- Views through which the accumulator's and the output block's contents are stated. -/
abbrev VS : View sig .tc .vmem S1024x128 .f32 := scr.view
abbrev VO : View sig .tc .vmem S1024x128 .f32 := (Memref.whole cc2_stg2_0 : Memref sig .tc .vmem S1024x128 .f32).view

/-- The core's scoped buffers outside this region's staging: the accumulator, and the rest unopened. -/
theorem scoped_split (c : Dev nD) :
    (Pipeline.scopedRest (Ix := Unit) (Name := ℕ) (U := UR sig nD τ) (Lvl := ℕ) (Val := Elt F) spec2 c : sProp 𝕄)
      = iprop((∃ d, owns (c : Thread nD τ) scr fullShare d)
          ∗ Pipeline.scopedRestBut (Ix := Unit) (Name := ℕ) (U := UR sig nD τ) (Lvl := ℕ) (Val := Elt F) spec2 c [cc2_scratch0]) := by
  rw [Pipeline.scopedRest_split_of_list spec2 c [cc2_scratch0] (by decide) (by decide)]
  simp only [scr, owns_whole]; try rfl

/-- What rides beside the accumulator in the invariant: the other scoped buffers and the generator register. -/
abbrev beside (c : Dev nD) : sProp 𝕄 :=
  iprop(Pipeline.scopedRestBut (Ix := Unit) (Name := ℕ) (U := UR sig nD τ) (Lvl := ℕ) (Val := Elt F) spec2 c [cc2_scratch0] ∗ ∃ r, prngReg c r)

theorem PhiA_eq (c : Dev nD) :
    (Pipeline.ΦA spec2 c : sProp 𝕄) = iprop(iprop((∃ d, owns (c : Thread nD τ) scr fullShare d)
          ∗ Pipeline.scopedRestBut (Ix := Unit) (Name := ℕ) (U := UR sig nD τ) (Lvl := ℕ) (Val := Elt F) spec2 c [cc2_scratch0]) ∗ ∃ r, prngReg c r) := by
  unfold Pipeline.ΦA; rw [scoped_split]

/-! ## The body in each of its three cases, on any whole buffers -/

set_option maxHeartbeats 1000000 in
/-- k = 0: from the inputs at `x0 x1`, the output block at `xi` (handed back untouched) and the accumulator at
    anything, the body ends with the accumulator written by the pieces `LS` (the zero store, then the sum). -/
noncomputable def run_first (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2_kernel i arg2 harg2 arg3 harg3 arg4 harg4 arg5 harg5) K } := by
  refine ⟨?_, fun xi E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- 0 < k < 7: the accumulator at `xs` ends written by the pieces `LS` (the sum added). -/
noncomputable def run_mid (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2_kernel i arg2 harg2 arg3 harg3 arg4 harg4 arg5 harg5) K } := by
  refine ⟨?_, fun xi E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- k = 7: the accumulator at `xs` ends written by `LS`, and the output block, at anything, by `LO`
    (the accumulator read back). -/
noncomputable def run_last (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Dif2

end
-- ==== Proof.KDif2.lean ====
/-
  One diffusion step, continued: what the accumulator and the output block hold after each grid point, the
  invariant that carries the accumulator from point to point, and the body's obligation at every point.
  After point t = 8 i + k the accumulator holds the sum, over the column blocks 0 … k of row block i, of the
  products of the blocks of S and of feat (starting again from zero at each k = 0); the output block is written at
  k = 7 only.
-/
import proofs.«172064_j31550829756529_1_alg».proof.Proof.KDif2Runs

set_option maxRecDepth 16384

noncomputable section

namespace Cert.Kernel.Dif2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its stores cover the buffer, so the buffer is their read-back -/

theorem cover_first (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) (y : S1024x128.Idx) :
    ∃ pc ∈ (run_first c i arg2 harg2 arg3 harg3 arg4 harg4 arg5 harg5 hc0 hc1 x0 x1).1, y ∈ pc.1.set :=
  View.cover_of_tiledL (run_first c i arg2 harg2 arg3 harg3 arg4 harg4 arg5 harg5 hc0 hc1 x0 x1).1 S1024x128.size (by sl_kernel_rfl) y
/-- The accumulator after a point with k = 0. -/
def acc_first (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) : Vec F S1024x128 .f32 :=
  VS.read (Elt F) (VS.writes (Elt F) VS.junk (run_first c i arg2 harg2 arg3 harg3 arg4 harg4 arg5 harg5 hc0 hc1 x0 x1).1)

theorem cover_mid (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) (y : S1024x128.Idx) :
    ∃ pc ∈ (run_mid c i arg2 harg2 arg3 harg3 arg4 harg4 arg5 harg5 hc0 hc1 x0 x1 xs).1, y ∈ pc.1.set :=
  View.cover_of_tiledL (run_mid c i arg2 harg2 arg3 harg3 arg4 harg4 arg5 harg5 hc0 hc1 x0 x1 xs).1 S1024x128.size (by sl_kernel_rfl) y
/-- The accumulator after a point with 0 < k < 7, over what the point before left. -/
def acc_mid (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) : Vec F S1024x128 .f32 :=
  VS.read (Elt F) (VS.writes (Elt F) VS.junk (run_mid c i arg2 harg2 arg3 harg3 arg4 harg4 arg5 harg5 hc0 hc1 x0 x1 xs).1)

theorem cover_last_acc (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).2.1, y ∈ pc.1.set :=
  View.cover_of_tiledL (run_last c i arg2 harg2 arg3 harg3 arg4 harg4 arg5 harg5 hc0 hc1 x0 x1 xs).2.1 S1024x128.size (by sl_kernel_rfl) y
/-- The accumulator after a point with k = 7. -/
def acc_last (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VS.read (Elt F) (VS.writes (Elt F) VS.junk (run_last c i arg2 harg2 arg3 harg3 arg4 harg4 arg5 harg5 hc0 hc1 x0 x1 xs).2.1)
theorem cover_last_out (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).1, y ∈ pc.1.set :=
  View.cover_of_tiledL (run_last c i arg2 harg2 arg3 harg3 arg4 harg4 arg5 harg5 hc0 hc1 x0 x1 xs).1 S1024x128.size (by sl_kernel_rfl) y
/-- The output block after a point with k = 7. -/
def out_last (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VO.read (Elt F) (VO.writes (Elt F) VO.junk (run_last c i arg2 harg2 arg3 harg3 arg4 harg4 arg5 harg5 hc0 hc1 x0 x1 xs).1)

/-! ## The state point by point -/

/-- One point's effect on (output block, accumulator), given the accumulator the point before left: by the
    case k = t mod 8 puts the point in. Where the output block is not stored (k < 7) its component repeats the
    accumulator: nothing reads it there. -/
def step (c : Dev nD) (t : Fin cfg2.N) (prev : Vec F S1024x128 .f32) : Vec F S1024x128 .f32 × Vec F S1024x128 .f32 :=
  if h0 : t.val % 8 = 0 then
    (acc_first c (grid2.coords t) (ms_s t) (hs_s t) (ms_f t) (hs_f t) (ms_o t) (hs_o t) scr (Memref.isWhole_whole _) ((first_iff t).mpr h0) (fun h => by have := (last_iff t).mp h; omega) (blk V c 0 t) (blk V c 1 t),
     acc_first c (grid2.coords t) (ms_s t) (hs_s t) (ms_f t) (hs_f t) (ms_o t) (hs_o t) scr (Memref.isWhole_whole _) ((first_iff t).mpr h0) (fun h => by have := (last_iff t).mp h; omega) (blk V c 0 t) (blk V c 1 t))
  else if h1 : t.val % 8 = 7 then
    (out_last c (grid2.coords t) (ms_s t) (hs_s t) (ms_f t) (hs_f t) (ms_o t) (hs_o t) scr (Memref.isWhole_whole _) (fun h => h0 ((first_iff t).mp h)) ((last_iff t).mpr h1) (blk V c 0 t) (blk V c 1 t) prev,
     acc_last c (grid2.coords t) (ms_s t) (hs_s t) (ms_f t) (hs_f t) (ms_o t) (hs_o t) scr (Memref.isWhole_whole _) (fun h => h0 ((first_iff t).mp h)) ((last_iff t).mpr h1) (blk V c 0 t) (blk V c 1 t) prev)
  else
    (acc_mid c (grid2.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
     acc_mid c (grid2.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev)

/-- (output block, accumulator) after the point at position `n`. -/
def stateAt (c : Dev nD) : (n : ℕ) → n < cfg2.N → Vec F S1024x128 .f32 × Vec F S1024x128 .f32
  | 0, hn => step V c ⟨0, hn⟩ (VS.read (Elt F) VS.junk)
  | n + 1, hn => step V c ⟨n + 1, hn⟩ (stateAt c n (Nat.lt_of_succ_lt hn)).2

/-- The accumulator a point finds: what the point before left (at the very first point, anything). -/
def prevAcc (c : Dev nD) (t : Fin cfg2.N) : Vec F S1024x128 .f32 :=
  if h : t.val = 0 then VS.read (Elt F) VS.junk else (stateAt V c (t.val - 1) (Nat.lt_of_le_of_lt (Nat.sub_le _ _) t.isLt)).2

theorem stateAt_eq (c : Dev nD) (t : Fin cfg2.N) : stateAt V c t.val t.isLt = step V c t (prevAcc V c t) := by
  obtain ⟨n, hn⟩ := t
  cases n with
  | zero => rfl
  | succ n => rfl

theorem prevAcc_pos (c : Dev nD) (t : Fin cfg2.N) (h : t.val ≠ 0) :
    prevAcc V c t = (stateAt V c (t.val - 1) (Nat.lt_of_le_of_lt (Nat.sub_le _ _) t.isLt)).2 := dif_neg h

theorem step_first (c : Dev nD) (t : Fin cfg2.N) (prev : Vec F S1024x128 .f32) (h0 : t.val % 8 = 0) :
    step V c t prev =
      (acc_first c (grid2.coords t) (ms_s t) (hs_s t) (ms_f t) (hs_f t) (ms_o t) (hs_o t) scr (Memref.isWhole_whole _) ((first_iff t).mpr h0) (fun h => by have := (last_iff t).mp h; omega) (blk V c 0 t) (blk V c 1 t),
       acc_first c (grid2.coords t) (ms_s t) (hs_s t) (ms_f t) (hs_f t) (ms_o t) (hs_o t) scr (Memref.isWhole_whole _) ((first_iff t).mpr h0) (fun h => by have := (last_iff t).mp h; omega) (blk V c 0 t) (blk V c 1 t)) := dif_pos h0
theorem step_last (c : Dev nD) (t : Fin cfg2.N) (prev : Vec F S1024x128 .f32) (h0 : ¬t.val % 8 = 0) (h1 : t.val % 8 = 7) :
    step V c t prev =
      (out_last c (grid2.coords t) (ms_s t) (hs_s t) (ms_f t) (hs_f t) (ms_o t) (hs_o t) scr (Memref.isWhole_whole _) (fun h => h0 ((first_iff t).mp h)) ((last_iff t).mpr h1) (blk V c 0 t) (blk V c 1 t) prev,
       acc_last c (grid2.coords t) (ms_s t) (hs_s t) (ms_f t) (hs_f t) (ms_o t) (hs_o t) scr (Memref.isWhole_whole _) (fun h => h0 ((first_iff t).mp h)) ((last_iff t).mpr h1) (blk V c 0 t) (blk V c 1 t) prev) :=
  (dif_neg h0).trans (dif_pos h1)
theorem step_mid (c : Dev nD) (t : Fin cfg2.N) (prev : Vec F S1024x128 .f32) (h0 : ¬t.val % 8 = 0) (h1 : ¬t.val % 8 = 7) :
    step V c t prev =
      (acc_mid c (grid2.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
       acc_mid c (grid2.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev) :=
  (dif_neg h0).trans (dif_neg h1)

/-! ## The invariant and the proof data -/

/-- Before position `n`: at the region's entry every scoped buffer at anything; afterwards the accumulator at what
    the point before left, the other scoped buffers and the generator register beside it. -/
def Phi (c : Dev nD) : (n : ℕ) → n ≤ cfg2.N → sProp 𝕄
  | 0, _ => Pipeline.ΦA spec2 c
  | n + 1, hn => iprop(owns (c : Thread nD τ) scr fullShare (stateAt V c n hn).2 ∗ beside c)

theorem Phi_zero (c : Dev nD) (n : ℕ) (h : n ≤ cfg2.N) (hz : n = 0) : Phi V c n h = Pipeline.ΦA spec2 c := by
  subst hz; rfl
theorem Phi_succ (c : Dev nD) (n : ℕ) (hn : n < cfg2.N) :
    Phi V c (n + 1) hn = iprop(owns (c : Thread nD τ) scr fullShare (stateAt V c n hn).2 ∗ beside c) := rfl
theorem Phi_pos (c : Dev nD) (n : ℕ) (h : n ≤ cfg2.N) (hz : n ≠ 0) :
    Phi V c n h = iprop(owns (c : Thread nD τ) scr fullShare (stateAt V c (n - 1) (by omega)).2 ∗ beside c) := by
  cases n with
  | zero => exact absurd rfl hz
  | succ n => rfl

/-- The region's proof data: the arrays as the region finds them; after each point the inputs' buffers at their
    blocks and the output's at `stateAt`'s first component; the invariant `Phi`; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => (stateAt V c t.val t.isLt).1
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]
theorem Phi_castSucc (c : Dev nD) (t : Fin cfg2.N) : (dat V c).Φ t.castSucc = Phi V c t.val (Nat.le_of_lt t.isLt) := by
  dsimp only [dat]; simp only [Fin.coe_castSucc]
theorem after_s (c : Dev nD) (t : Fin cfg2.N) : (dat V c).after 0 t = blk V c 0 t := by dsimp only [dat]
theorem after_f (c : Dev nD) (t : Fin cfg2.N) : (dat V c).after 1 t = blk V c 1 t := by dsimp only [dat]
/-- The output block after point `t`. -/
theorem after_o (c : Dev nD) (t : Fin cfg2.N) : (dat V c).after 2 t = (stateAt V c t.val t.isLt).1 := by dsimp only [dat]
theorem before_s (c : Dev nD) (t : Fin cfg2.N) (d) : (dat V c).before 0 t d = blk V c 0 t :=
  found_s V (dat V c) (A_eq V c 0) (after_s V c) t d
theorem before_f (c : Dev nD) (t : Fin cfg2.N) (d) : (dat V c).before 1 t d = blk V c 1 t :=
  found_f V (dat V c) (A_eq V c 1) (after_f V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms_s t) fullShare ((dat V c).before 0 t d))
    ∗ (∃ d, owns (c : Thread nD τ) (ms_f t) fullShare ((dat V c).before 1 t d))
    ∗ (∃ d, owns (c : Thread nD τ) (ms_o t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point: the inputs' buffers hold their blocks; k = t mod 8 says which case the point is in; the
    invariant hands the body the accumulator at what the point before left (at anything before the first point) and
    takes it back at this point's contents; the output block is handed back untouched unless k = 7. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_s, before_f]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_s t) fullShare ((dat V c).after 0 t) from by
    unfold Dat.leavesExact; rw [live_s t], after_s]
  rw [show (dat V c).leavesExact 1 t = owns (c : Thread nD τ) (ms_f t) fullShare ((dat V c).after 1 t) from by
    unfold Dat.leavesExact; rw [live_f t], after_f]
  have hN : t.val < 128 := lt_of_lt_of_eq t.isLt (show cfg2.N = 128 from N_2)
  rw [stateAt_eq V c t]
  by_cases h0 : t.val % 8 = 0
  · have hl : ¬cond_last (grid2.coords t) := fun h => by have := (last_iff t).mp h; omega
    rw [Dat.leavesExact_idle (dat V c) 2 t (idle_o t hl) (noflush_o t hl)]
    rw [step_first V c t _ h0]
    unfold acc_first; (try dsimp only)
    by_cases hz : t.val = 0
    · rw [Phi_castSucc V c t, Phi_zero V c _ _ hz, PhiA_eq]
      iintro ⟨⟨⟨HS, Hb⟩, Hg⟩, Ho, ⟨%d0, H0⟩, ⟨%d1, H1⟩, ⟨%d2, H2⟩⟩
      iapply ((run_first c (grid2.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
    · rw [Phi_castSucc V c t, Phi_pos V c _ _ hz]
      iintro ⟨⟨HS, Hb, Hg⟩, Ho, ⟨%d0, H0⟩, ⟨%d1, H1⟩, ⟨%d2, H2⟩⟩
      iapply ((run_first c (grid2.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
  · have hz : t.val ≠ 0 := fun h => h0 (by rw [h])
    rw [prevAcc_pos V c t hz]
    by_cases h1 : t.val % 8 = 7
    · rw [show (dat V c).leavesExact 2 t = owns (c : Thread nD τ) (ms_o t) fullShare ((dat V c).after 2 t) from by
        unfold Dat.leavesExact; rw [live_o t ((last_iff t).mpr h1)], after_o, stateAt_eq V c t, prevAcc_pos V c t hz]
      rw [step_last V c t _ h0 h1]
      unfold out_last acc_last; (try dsimp only)
      rw [Phi_castSucc V c t, Phi_pos V c _ _ hz]
      iintro ⟨⟨HS, Hb, Hg⟩, Ho, ⟨%d0, H0⟩, ⟨%d1, H1⟩, ⟨%d2, H2⟩⟩
      iapply ((run_last c (grid2.coords t) _ _ _ _ _ _ _ _ (fun h => h0 ((first_iff t).mp h)) ((last_iff t).mpr h1) (blk V c 0 t) (blk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hb Hg]
      · isplitl [HS]
        · unfold owns; iexists _; isplitr
          swap; · iexact HS
          ipureintro; exact View.read_writes_of_cover _ _ _ _ _ (cover_last_acc c _ _ _ _ _ _ _ _ _ _ _ _ _ _)
        isplitl [Hb]; · iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _)
    · have hl : ¬cond_last (grid2.coords t) := fun h => h1 ((last_iff t).mp h)
      rw [Dat.leavesExact_idle (dat V c) 2 t (idle_o t hl) (noflush_o t hl)]
      rw [step_mid V c t _ h0 h1]
      unfold acc_mid; (try dsimp only)
      rw [Phi_castSucc V c t, Phi_pos V c _ _ hz]
      iintro ⟨⟨HS, Hb, Hg⟩, Ho, ⟨%d0, H0⟩, ⟨%d1, H1⟩, ⟨%d2, H2⟩⟩
      iapply ((run_mid c (grid2.coords t) _ _ _ _ _ _ _ _ (fun h => h0 ((first_iff t).mp h)) hl (blk V c 0 t) (blk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_mid c _ _ _ _ _ _ _ _ _ _ _ _ _ _)
        isplitl [Hb]; · iexact Hb
        iexact Hg
      isplitl [Ho]; · iexact Ho
      isplitl [H0]; · iexact H0
      isplitl [H1]; · iexact H1
      iexists _; iexact H2

/-- The body obligation, at every point. -/
theorem body_obligation (c : Dev nD) : BodyObligation (dat (F := F) V c) (defs₀ (F := F)) Variants.none () Set.univ := fun t => by
  rw [bigSep_W2, bigSep_W2]
  exact sound_body V c t

/-- What the region's entry hands the kernel is the invariant before the first point. -/
theorem Phi_in (c : Dev nD) : Pipeline.ΦA spec2 c ⊢ (dat V c).Φ 0 := by
  rw [show (dat V c).Φ 0 = Phi V c 0 (Nat.zero_le _) from rfl, Phi_zero V c 0 _ rfl]
  try exact Idealize.SL.BI.Entails.refl _

/-- After the last point the invariant gives every scoped buffer back at some contents. -/
theorem Phi_out (c : Dev nD) : (dat V c).Φ (Fin.last cfg2.N) ⊢ Pipeline.ΦA spec2 c := by
  rw [show (dat V c).Φ (Fin.last cfg2.N) = Phi V c (Fin.last cfg2.N).val (Nat.le_of_lt_succ (Fin.last cfg2.N).isLt) from rfl,
    Phi_pos V c _ _ (by rw [Fin.val_last]; have : cfg2.N = 128 := N_2; omega), PhiA_eq]
  iintro ⟨HS, Hb, Hg⟩
  isplitl [HS Hb]
  · isplitl [HS]; · iexists _; iexact HS
    iexact Hb
  iexact Hg

end Cert.Kernel.Dif2

end
-- ==== Proof.KDif3Runs.lean ====
/-
  One diffusion step: out = S @ feat over the extended reals, for S of 16384 × 16384 and feat of 16384 × 128.
  The grid has 16 × 8 points; point t = 8 i + k reads the block of S in rows [1024 i, 1024 i + 1024) and
  columns [2048 k, 2048 k + 2048) and the rows [2048 k, 2048 k + 2048) of feat. A scratch accumulator of
  1024 × 128 is kept from point to point: at k = 0 it is set to zero first; at every k the product of the two
  blocks is added to it; at k = 7 it is copied into the output block, which is written back as rows
  [1024 i, 1024 i + 1024) of the result. At the other points the output block is left alone and not written back.
  Stated for any float family and at any contents `V` of the core's buffers when the region is entered.
-/
import proofs.«172064_j31550829756529_1_alg».proof.Proof.Gen.Kernel.Launch
import proofs.«172064_j31550829756529_1_alg».proof.Proof.Gen.Kernel.Skeleton
import proofs.«172064_j31550829756529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents is decided coordinate by coordinate
set_option maxRecDepth 16384

noncomputable section

namespace Cert.Kernel.Dif3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input blocks -/

/-- Window `w`'s block at point `t`: the block (i, k) of S (w = 0), the row block k of feat (w = 1). -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds its block at every point (both are fetched at every point). -/
theorem found_s {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_f {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, in closed form over the grid -/

/-- "k = 0": the accumulator is reset. -/
abbrev cond_first (i : grid3.Coords) : Prop := (Scalar.cmpi .ne (Scalar.extui (Scalar.cmpi .eq (BitVec.ofNat 32 (i 1).val) 0#32)) 0#32) = 1#1
theorem first_iff : ∀ t : Fin cfg3.N, cond_first (grid3.coords t) ↔ t.val % 8 = 0 :=
  (by decide +kernel : ∀ t : Fin grid3.N, cond_first (grid3.coords t) ↔ t.val % 8 = 0)
/-- "k = 7": the accumulator is written out. -/
abbrev cond_last (i : grid3.Coords) : Prop := k3_cond2 i = 1#1
theorem last_iff : ∀ t : Fin cfg3.N, cond_last (grid3.coords t) ↔ t.val % 8 = 7 :=
  (by decide +kernel : ∀ t : Fin grid3.N, cond_last (grid3.coords t) ↔ t.val % 8 = 7)

/-- The inputs are never idle; the output block is idle, and not written back, exactly away from k = 7. -/
theorem live_s : ∀ t : Fin cfg3.N, cfg3.idle 0 (grid3.coords t) = false := by decide +kernel
theorem live_f : ∀ t : Fin cfg3.N, cfg3.idle 1 (grid3.coords t) = false := by decide +kernel
theorem idle_o : ∀ t : Fin cfg3.N, ¬cond_last (grid3.coords t) → cfg3.idle 2 (grid3.coords t) = true := by decide +kernel
theorem noflush_o : ∀ t : Fin cfg3.N, ¬cond_last (grid3.coords t) → (cfg3.win 2).flush t = false := by decide +kernel
theorem live_o : ∀ t : Fin cfg3.N, cond_last (grid3.coords t) → cfg3.idle 2 (grid3.coords t) = false := by decide +kernel

/-! ## The buffers the body is called with -/

abbrev ms_s (t : Fin cfg3.N) : Memref sig .tc .vmem S1024x2048 .f32 := win3_0.stage (cfg3.slots t 0)
abbrev hs_s (t : Fin cfg3.N) : (ms_s t).IsWhole := hstage3_0 ((cfg3.slots t 0).cast nbuf3_0)
abbrev ms_f (t : Fin cfg3.N) : Memref sig .tc .vmem S2048x128 .f32 := win3_1.stage (cfg3.slots t 1)
abbrev hs_f (t : Fin cfg3.N) : (ms_f t).IsWhole := hstage3_1 ((cfg3.slots t 1).cast nbuf3_1)
abbrev ms_o (t : Fin cfg3.N) : Memref sig .tc .vmem S1024x128 .f32 := win3_2.stage (cfg3.slots t 2)
abbrev hs_o (t : Fin cfg3.N) : (ms_o t).IsWhole := hstage3_2 ((cfg3.slots t 2).cast nbuf3_2)
/-- The accumulator: a whole scoped buffer of the kernel's own. -/
abbrev scr : Memref sig .tc .vmem S1024x128 .f32 := Memref.whole cc3_scratch0
/-- Views through which the accumulator's and the output block's contents are stated. -/
abbrev VS : View sig .tc .vmem S1024x128 .f32 := scr.view
abbrev VO : View sig .tc .vmem S1024x128 .f32 := (Memref.whole cc3_stg2_0 : Memref sig .tc .vmem S1024x128 .f32).view

/-- The core's scoped buffers outside this region's staging: the accumulator, and the rest unopened. -/
theorem scoped_split (c : Dev nD) :
    (Pipeline.scopedRest (Ix := Unit) (Name := ℕ) (U := UR sig nD τ) (Lvl := ℕ) (Val := Elt F) spec3 c : sProp 𝕄)
      = iprop((∃ d, owns (c : Thread nD τ) scr fullShare d)
          ∗ Pipeline.scopedRestBut (Ix := Unit) (Name := ℕ) (U := UR sig nD τ) (Lvl := ℕ) (Val := Elt F) spec3 c [cc3_scratch0]) := by
  rw [Pipeline.scopedRest_split_of_list spec3 c [cc3_scratch0] (by decide) (by decide)]
  simp only [scr, owns_whole]; try rfl

/-- What rides beside the accumulator in the invariant: the other scoped buffers and the generator register. -/
abbrev beside (c : Dev nD) : sProp 𝕄 :=
  iprop(Pipeline.scopedRestBut (Ix := Unit) (Name := ℕ) (U := UR sig nD τ) (Lvl := ℕ) (Val := Elt F) spec3 c [cc3_scratch0] ∗ ∃ r, prngReg c r)

theorem PhiA_eq (c : Dev nD) :
    (Pipeline.ΦA spec3 c : sProp 𝕄) = iprop(iprop((∃ d, owns (c : Thread nD τ) scr fullShare d)
          ∗ Pipeline.scopedRestBut (Ix := Unit) (Name := ℕ) (U := UR sig nD τ) (Lvl := ℕ) (Val := Elt F) spec3 c [cc3_scratch0]) ∗ ∃ r, prngReg c r) := by
  unfold Pipeline.ΦA; rw [scoped_split]

/-! ## The body in each of its three cases, on any whole buffers -/

set_option maxHeartbeats 1000000 in
/-- k = 0: from the inputs at `x0 x1`, the output block at `xi` (handed back untouched) and the accumulator at
    anything, the body ends with the accumulator written by the pieces `LS` (the zero store, then the sum). -/
noncomputable def run_first (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc3_kernel i arg2 harg2 arg3 harg3 arg4 harg4 arg5 harg5) K } := by
  refine ⟨?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- 0 < k < 7: the accumulator at `xs` ends written by the pieces `LS` (the sum added). -/
noncomputable def run_mid (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc3_kernel i arg2 harg2 arg3 harg3 arg4 harg4 arg5 harg5) K } := by
  refine ⟨?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- k = 7: the accumulator at `xs` ends written by `LS`, and the output block, at anything, by `LO`
    (the accumulator read back). -/
noncomputable def run_last (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc3_kernel i arg2 harg2 arg3 harg3 arg4 harg4 arg5 harg5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Dif3

end
-- ==== Proof.KDif3.lean ====
/-
  One diffusion step, continued: what the accumulator and the output block hold after each grid point, the
  invariant that carries the accumulator from point to point, and the body's obligation at every point.
  After point t = 8 i + k the accumulator holds the sum, over the column blocks 0 … k of row block i, of the
  products of the blocks of S and of feat (starting again from zero at each k = 0); the output block is written at
  k = 7 only.
-/
import proofs.«172064_j31550829756529_1_alg».proof.Proof.KDif3Runs

set_option maxRecDepth 16384

noncomputable section

namespace Cert.Kernel.Dif3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its stores cover the buffer, so the buffer is their read-back -/

theorem cover_first (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) (y : S1024x128.Idx) :
    ∃ pc ∈ (run_first c i arg2 harg2 arg3 harg3 arg4 harg4 arg5 harg5 hc0 hc1 x0 x1).1, y ∈ pc.1.set :=
  View.cover_of_tiledL (run_first c i arg2 harg2 arg3 harg3 arg4 harg4 arg5 harg5 hc0 hc1 x0 x1).1 S1024x128.size (by sl_kernel_rfl) y
/-- The accumulator after a point with k = 0. -/
def acc_first (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) : Vec F S1024x128 .f32 :=
  VS.read (Elt F) (VS.writes (Elt F) VS.junk (run_first c i arg2 harg2 arg3 harg3 arg4 harg4 arg5 harg5 hc0 hc1 x0 x1).1)

theorem cover_mid (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) (y : S1024x128.Idx) :
    ∃ pc ∈ (run_mid c i arg2 harg2 arg3 harg3 arg4 harg4 arg5 harg5 hc0 hc1 x0 x1 xs).1, y ∈ pc.1.set :=
  View.cover_of_tiledL (run_mid c i arg2 harg2 arg3 harg3 arg4 harg4 arg5 harg5 hc0 hc1 x0 x1 xs).1 S1024x128.size (by sl_kernel_rfl) y
/-- The accumulator after a point with 0 < k < 7, over what the point before left. -/
def acc_mid (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) : Vec F S1024x128 .f32 :=
  VS.read (Elt F) (VS.writes (Elt F) VS.junk (run_mid c i arg2 harg2 arg3 harg3 arg4 harg4 arg5 harg5 hc0 hc1 x0 x1 xs).1)

theorem cover_last_acc (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).2.1, y ∈ pc.1.set :=
  View.cover_of_tiledL (run_last c i arg2 harg2 arg3 harg3 arg4 harg4 arg5 harg5 hc0 hc1 x0 x1 xs).2.1 S1024x128.size (by sl_kernel_rfl) y
/-- The accumulator after a point with k = 7. -/
def acc_last (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VS.read (Elt F) (VS.writes (Elt F) VS.junk (run_last c i arg2 harg2 arg3 harg3 arg4 harg4 arg5 harg5 hc0 hc1 x0 x1 xs).2.1)
theorem cover_last_out (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).1, y ∈ pc.1.set :=
  View.cover_of_tiledL (run_last c i arg2 harg2 arg3 harg3 arg4 harg4 arg5 harg5 hc0 hc1 x0 x1 xs).1 S1024x128.size (by sl_kernel_rfl) y
/-- The output block after a point with k = 7. -/
def out_last (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VO.read (Elt F) (VO.writes (Elt F) VO.junk (run_last c i arg2 harg2 arg3 harg3 arg4 harg4 arg5 harg5 hc0 hc1 x0 x1 xs).1)

/-! ## The state point by point -/

/-- One point's effect on (output block, accumulator), given the accumulator the point before left: by the
    case k = t mod 8 puts the point in. Where the output block is not stored (k < 7) its component repeats the
    accumulator: nothing reads it there. -/
def step (c : Dev nD) (t : Fin cfg3.N) (prev : Vec F S1024x128 .f32) : Vec F S1024x128 .f32 × Vec F S1024x128 .f32 :=
  if h0 : t.val % 8 = 0 then
    (acc_first c (grid3.coords t) (ms_s t) (hs_s t) (ms_f t) (hs_f t) (ms_o t) (hs_o t) scr (Memref.isWhole_whole _) ((first_iff t).mpr h0) (fun h => by have := (last_iff t).mp h; omega) (blk V c 0 t) (blk V c 1 t),
     acc_first c (grid3.coords t) (ms_s t) (hs_s t) (ms_f t) (hs_f t) (ms_o t) (hs_o t) scr (Memref.isWhole_whole _) ((first_iff t).mpr h0) (fun h => by have := (last_iff t).mp h; omega) (blk V c 0 t) (blk V c 1 t))
  else if h1 : t.val % 8 = 7 then
    (out_last c (grid3.coords t) (ms_s t) (hs_s t) (ms_f t) (hs_f t) (ms_o t) (hs_o t) scr (Memref.isWhole_whole _) (fun h => h0 ((first_iff t).mp h)) ((last_iff t).mpr h1) (blk V c 0 t) (blk V c 1 t) prev,
     acc_last c (grid3.coords t) (ms_s t) (hs_s t) (ms_f t) (hs_f t) (ms_o t) (hs_o t) scr (Memref.isWhole_whole _) (fun h => h0 ((first_iff t).mp h)) ((last_iff t).mpr h1) (blk V c 0 t) (blk V c 1 t) prev)
  else
    (acc_mid c (grid3.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
     acc_mid c (grid3.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev)

/-- (output block, accumulator) after the point at position `n`. -/
def stateAt (c : Dev nD) : (n : ℕ) → n < cfg3.N → Vec F S1024x128 .f32 × Vec F S1024x128 .f32
  | 0, hn => step V c ⟨0, hn⟩ (VS.read (Elt F) VS.junk)
  | n + 1, hn => step V c ⟨n + 1, hn⟩ (stateAt c n (Nat.lt_of_succ_lt hn)).2

/-- The accumulator a point finds: what the point before left (at the very first point, anything). -/
def prevAcc (c : Dev nD) (t : Fin cfg3.N) : Vec F S1024x128 .f32 :=
  if h : t.val = 0 then VS.read (Elt F) VS.junk else (stateAt V c (t.val - 1) (Nat.lt_of_le_of_lt (Nat.sub_le _ _) t.isLt)).2

theorem stateAt_eq (c : Dev nD) (t : Fin cfg3.N) : stateAt V c t.val t.isLt = step V c t (prevAcc V c t) := by
  obtain ⟨n, hn⟩ := t
  cases n with
  | zero => rfl
  | succ n => rfl

theorem prevAcc_pos (c : Dev nD) (t : Fin cfg3.N) (h : t.val ≠ 0) :
    prevAcc V c t = (stateAt V c (t.val - 1) (Nat.lt_of_le_of_lt (Nat.sub_le _ _) t.isLt)).2 := dif_neg h

theorem step_first (c : Dev nD) (t : Fin cfg3.N) (prev : Vec F S1024x128 .f32) (h0 : t.val % 8 = 0) :
    step V c t prev =
      (acc_first c (grid3.coords t) (ms_s t) (hs_s t) (ms_f t) (hs_f t) (ms_o t) (hs_o t) scr (Memref.isWhole_whole _) ((first_iff t).mpr h0) (fun h => by have := (last_iff t).mp h; omega) (blk V c 0 t) (blk V c 1 t),
       acc_first c (grid3.coords t) (ms_s t) (hs_s t) (ms_f t) (hs_f t) (ms_o t) (hs_o t) scr (Memref.isWhole_whole _) ((first_iff t).mpr h0) (fun h => by have := (last_iff t).mp h; omega) (blk V c 0 t) (blk V c 1 t)) := dif_pos h0
theorem step_last (c : Dev nD) (t : Fin cfg3.N) (prev : Vec F S1024x128 .f32) (h0 : ¬t.val % 8 = 0) (h1 : t.val % 8 = 7) :
    step V c t prev =
      (out_last c (grid3.coords t) (ms_s t) (hs_s t) (ms_f t) (hs_f t) (ms_o t) (hs_o t) scr (Memref.isWhole_whole _) (fun h => h0 ((first_iff t).mp h)) ((last_iff t).mpr h1) (blk V c 0 t) (blk V c 1 t) prev,
       acc_last c (grid3.coords t) (ms_s t) (hs_s t) (ms_f t) (hs_f t) (ms_o t) (hs_o t) scr (Memref.isWhole_whole _) (fun h => h0 ((first_iff t).mp h)) ((last_iff t).mpr h1) (blk V c 0 t) (blk V c 1 t) prev) :=
  (dif_neg h0).trans (dif_pos h1)
theorem step_mid (c : Dev nD) (t : Fin cfg3.N) (prev : Vec F S1024x128 .f32) (h0 : ¬t.val % 8 = 0) (h1 : ¬t.val % 8 = 7) :
    step V c t prev =
      (acc_mid c (grid3.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
       acc_mid c (grid3.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev) :=
  (dif_neg h0).trans (dif_neg h1)

/-! ## The invariant and the proof data -/

/-- Before position `n`: at the region's entry every scoped buffer at anything; afterwards the accumulator at what
    the point before left, the other scoped buffers and the generator register beside it. -/
def Phi (c : Dev nD) : (n : ℕ) → n ≤ cfg3.N → sProp 𝕄
  | 0, _ => Pipeline.ΦA spec3 c
  | n + 1, hn => iprop(owns (c : Thread nD τ) scr fullShare (stateAt V c n hn).2 ∗ beside c)

theorem Phi_zero (c : Dev nD) (n : ℕ) (h : n ≤ cfg3.N) (hz : n = 0) : Phi V c n h = Pipeline.ΦA spec3 c := by
  subst hz; rfl
theorem Phi_succ (c : Dev nD) (n : ℕ) (hn : n < cfg3.N) :
    Phi V c (n + 1) hn = iprop(owns (c : Thread nD τ) scr fullShare (stateAt V c n hn).2 ∗ beside c) := rfl
theorem Phi_pos (c : Dev nD) (n : ℕ) (h : n ≤ cfg3.N) (hz : n ≠ 0) :
    Phi V c n h = iprop(owns (c : Thread nD τ) scr fullShare (stateAt V c (n - 1) (by omega)).2 ∗ beside c) := by
  cases n with
  | zero => exact absurd rfl hz
  | succ n => rfl

/-- The region's proof data: the arrays as the region finds them; after each point the inputs' buffers at their
    blocks and the output's at `stateAt`'s first component; the invariant `Phi`; nothing owed. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => (stateAt V c t.val t.isLt).1
  Φ t := Phi V c t.val (Nat.le_of_lt_succ t.isLt)
  q _ := fullShare
  owed _ := 0

theorem A_eq (c : Dev nD) (w : Fin cfg3.W) : (dat V c).A w = V c (Pipeline.arrRef spec3 w) := by
  dsimp only [dat]
theorem Phi_castSucc (c : Dev nD) (t : Fin cfg3.N) : (dat V c).Φ t.castSucc = Phi V c t.val (Nat.le_of_lt t.isLt) := by
  dsimp only [dat]; simp only [Fin.coe_castSucc]
theorem after_s (c : Dev nD) (t : Fin cfg3.N) : (dat V c).after 0 t = blk V c 0 t := by dsimp only [dat]
theorem after_f (c : Dev nD) (t : Fin cfg3.N) : (dat V c).after 1 t = blk V c 1 t := by dsimp only [dat]
/-- The output block after point `t`. -/
theorem after_o (c : Dev nD) (t : Fin cfg3.N) : (dat V c).after 2 t = (stateAt V c t.val t.isLt).1 := by dsimp only [dat]
theorem before_s (c : Dev nD) (t : Fin cfg3.N) (d) : (dat V c).before 0 t d = blk V c 0 t :=
  found_s V (dat V c) (A_eq V c 0) (after_s V c) t d
theorem before_f (c : Dev nD) (t : Fin cfg3.N) (d) : (dat V c).before 1 t d = blk V c 1 t :=
  found_f V (dat V c) (A_eq V c 1) (after_f V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (ms_s t) fullShare ((dat V c).before 0 t d))
    ∗ (∃ d, owns (c : Thread nD τ) (ms_f t) fullShare ((dat V c).before 1 t d))
    ∗ (∃ d, owns (c : Thread nD τ) (ms_o t) fullShare ((dat V c).before 2 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point: the inputs' buffers hold their blocks; k = t mod 8 says which case the point is in; the
    invariant hands the body the accumulator at what the point before left (at anything before the first point) and
    takes it back at this point's contents; the output block is handed back untouched unless k = 7. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_s, before_f]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_s t) fullShare ((dat V c).after 0 t) from by
    unfold Dat.leavesExact; rw [live_s t], after_s]
  rw [show (dat V c).leavesExact 1 t = owns (c : Thread nD τ) (ms_f t) fullShare ((dat V c).after 1 t) from by
    unfold Dat.leavesExact; rw [live_f t], after_f]
  have hN : t.val < 128 := lt_of_lt_of_eq t.isLt (show cfg3.N = 128 from N_3)
  rw [stateAt_eq V c t]
  by_cases h0 : t.val % 8 = 0
  · have hl : ¬cond_last (grid3.coords t) := fun h => by have := (last_iff t).mp h; omega
    rw [Dat.leavesExact_idle (dat V c) 2 t (idle_o t hl) (noflush_o t hl)]
    rw [step_first V c t _ h0]
    unfold acc_first; (try dsimp only)
    by_cases hz : t.val = 0
    · rw [Phi_castSucc V c t, Phi_zero V c _ _ hz, PhiA_eq]
      iintro ⟨⟨⟨HS, Hb⟩, Hg⟩, Ho, ⟨%d0, H0⟩, ⟨%d1, H1⟩, ⟨%d2, H2⟩⟩
      iapply ((run_first c (grid3.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
    · rw [Phi_castSucc V c t, Phi_pos V c _ _ hz]
      iintro ⟨⟨HS, Hb, Hg⟩, Ho, ⟨%d0, H0⟩, ⟨%d1, H1⟩, ⟨%d2, H2⟩⟩
      iapply ((run_first c (grid3.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
  · have hz : t.val ≠ 0 := fun h => h0 (by rw [h])
    rw [prevAcc_pos V c t hz]
    by_cases h1 : t.val % 8 = 7
    · rw [show (dat V c).leavesExact 2 t = owns (c : Thread nD τ) (ms_o t) fullShare ((dat V c).after 2 t) from by
        unfold Dat.leavesExact; rw [live_o t ((last_iff t).mpr h1)], after_o, stateAt_eq V c t, prevAcc_pos V c t hz]
      rw [step_last V c t _ h0 h1]
      unfold out_last acc_last; (try dsimp only)
      rw [Phi_castSucc V c t, Phi_pos V c _ _ hz]
      iintro ⟨⟨HS, Hb, Hg⟩, Ho, ⟨%d0, H0⟩, ⟨%d1, H1⟩, ⟨%d2, H2⟩⟩
      iapply ((run_last c (grid3.coords t) _ _ _ _ _ _ _ _ (fun h => h0 ((first_iff t).mp h)) ((last_iff t).mpr h1) (blk V c 0 t) (blk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hb Hg]
      · isplitl [HS]
        · unfold owns; iexists _; isplitr
          swap; · iexact HS
          ipureintro; exact View.read_writes_of_cover _ _ _ _ _ (cover_last_acc c _ _ _ _ _ _ _ _ _ _ _ _ _ _)
        isplitl [Hb]; · iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _)
    · have hl : ¬cond_last (grid3.coords t) := fun h => h1 ((last_iff t).mp h)
      rw [Dat.leavesExact_idle (dat V c) 2 t (idle_o t hl) (noflush_o t hl)]
      rw [step_mid V c t _ h0 h1]
      unfold acc_mid; (try dsimp only)
      rw [Phi_castSucc V c t, Phi_pos V c _ _ hz]
      iintro ⟨⟨HS, Hb, Hg⟩, Ho, ⟨%d0, H0⟩, ⟨%d1, H1⟩, ⟨%d2, H2⟩⟩
      iapply ((run_mid c (grid3.coords t) _ _ _ _ _ _ _ _ (fun h => h0 ((first_iff t).mp h)) hl (blk V c 0 t) (blk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_mid c _ _ _ _ _ _ _ _ _ _ _ _ _ _)
        isplitl [Hb]; · iexact Hb
        iexact Hg
      isplitl [Ho]; · iexact Ho
      isplitl [H0]; · iexact H0
      isplitl [H1]; · iexact H1
      iexists _; iexact H2

/-- The body obligation, at every point. -/
theorem body_obligation (c : Dev nD) : BodyObligation (dat (F := F) V c) (defs₀ (F := F)) Variants.none () Set.univ := fun t => by
  rw [bigSep_W3, bigSep_W3]
  exact sound_body V c t

/-- What the region's entry hands the kernel is the invariant before the first point. -/
theorem Phi_in (c : Dev nD) : Pipeline.ΦA spec3 c ⊢ (dat V c).Φ 0 := by
  rw [show (dat V c).Φ 0 = Phi V c 0 (Nat.zero_le _) from rfl, Phi_zero V c 0 _ rfl]
  try exact Idealize.SL.BI.Entails.refl _

/-- After the last point the invariant gives every scoped buffer back at some contents. -/
theorem Phi_out (c : Dev nD) : (dat V c).Φ (Fin.last cfg3.N) ⊢ Pipeline.ΦA spec3 c := by
  rw [show (dat V c).Φ (Fin.last cfg3.N) = Phi V c (Fin.last cfg3.N).val (Nat.le_of_lt_succ (Fin.last cfg3.N).isLt) from rfl,
    Phi_pos V c _ _ (by rw [Fin.val_last]; have : cfg3.N = 128 := N_3; omega), PhiA_eq]
  iintro ⟨HS, Hb, Hg⟩
  isplitl [HS Hb]
  · isplitl [HS]; · iexists _; iexact HS
    iexact Hb
  iexact Hg

end Cert.Kernel.Dif3

end
-- ==== Proof.KWhole.lean ====
/-
  The whole program: the four regions in @main's order. Between two regions every unscoped buffer of the core is
  held at a named valuation: the launch memory, then after each region its arrays at what its write-backs leave and
  every other buffer as it was. The run ends with every unscoped buffer at the last valuation; read at the four
  arguments that is the launch memory (no region writes an argument), and at the result buffer it is what the
  last region's write-backs leave.
-/
import proofs.«172064_j31550829756529_1_alg».proof.Proof.KLin
import proofs.«172064_j31550829756529_1_alg».proof.Proof.KDif1
import proofs.«172064_j31550829756529_1_alg».proof.Proof.KDif2
import proofs.«172064_j31550829756529_1_alg».proof.Proof.KDif3

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what its write-backs leave, every other buffer as the region found it. -/
def W1 (c : Dev nD) : Valuation τ sig (Elt F) :=
  Pipeline.withArrays spec0 c (W0 m ρ c) fun w => (Lin.dat (V0 m ρ) c).arrAt w cfg0.N
theorem W1_arr (c : Dev nD) (w : Fin cfg0.W) :
    W1 m ρ c (Proc.devRef .tc (Pipeline.arrRef spec0 w)) = (Lin.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem left0 (c : Dev nD) (w : Fin cfg0.W) : (Lin.dat (V0 m ρ) c).arrAt w cfg0.N = V1 m ρ c (Pipeline.arrRef spec0 w) :=
  (W1_arr m ρ c w).symm
theorem kept0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what its write-backs leave, every other buffer as the region found it. -/
def W2 (c : Dev nD) : Valuation τ sig (Elt F) :=
  Pipeline.withArrays spec1 c (W1 m ρ c) fun w => (Dif1.dat (V1 m ρ) c).arrAt w cfg1.N
theorem W2_arr (c : Dev nD) (w : Fin cfg1.W) :
    W2 m ρ c (Proc.devRef .tc (Pipeline.arrRef spec1 w)) = (Dif1.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem left1 (c : Dev nD) (w : Fin cfg1.W) : (Dif1.dat (V1 m ρ) c).arrAt w cfg1.N = V2 m ρ c (Pipeline.arrRef spec1 w) :=
  (W2_arr m ρ c w).symm
theorem kept1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what its write-backs leave, every other buffer as the region found it. -/
def W3 (c : Dev nD) : Valuation τ sig (Elt F) :=
  Pipeline.withArrays spec2 c (W2 m ρ c) fun w => (Dif2.dat (V2 m ρ) c).arrAt w cfg2.N
theorem W3_arr (c : Dev nD) (w : Fin cfg2.W) :
    W3 m ρ c (Proc.devRef .tc (Pipeline.arrRef spec2 w)) = (Dif2.dat (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem left2 (c : Dev nD) (w : Fin cfg2.W) : (Dif2.dat (V2 m ρ) c).arrAt w cfg2.N = V3 m ρ c (Pipeline.arrRef spec2 w) :=
  (W3_arr m ρ c w).symm
theorem kept2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After region 3: its arrays at what its write-backs leave, every other buffer as the region found it. -/
def W4 (c : Dev nD) : Valuation τ sig (Elt F) :=
  Pipeline.withArrays spec3 c (W3 m ρ c) fun w => (Dif3.dat (V3 m ρ) c).arrAt w cfg3.N
theorem W4_arr (c : Dev nD) (w : Fin cfg3.W) :
    W4 m ρ c (Proc.devRef .tc (Pipeline.arrRef spec3 w)) = (Dif3.dat (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
theorem left3 (c : Dev nD) (w : Fin cfg3.W) : (Dif3.dat (V3 m ρ) c).arrAt w cfg3.N = V4 m ρ c (Pipeline.arrRef spec3 w) :=
  (W4_arr m ρ c w).symm
theorem kept3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-! ## No region writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((Lin.dat (V0 m ρ) c).arrAt_in 0 rfl _).trans (Lin.A_eq (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((Dif3.dat (V3 m ρ) c).arrAt_in 0 rfl _).trans (Dif3.A_eq (V3 m ρ) c 0))
    _ = W2 m ρ c (Proc.devRef .tc main_arg1) := (W3_arr m ρ c 0).trans (((Dif2.dat (V2 m ρ) c).arrAt_in 0 rfl _).trans (Dif2.A_eq (V2 m ρ) c 0))
    _ = W1 m ρ c (Proc.devRef .tc main_arg1) := (W2_arr m ρ c 0).trans (((Dif1.dat (V1 m ρ) c).arrAt_in 0 rfl _).trans (Dif1.A_eq (V1 m ρ) c 0))
    _ = W0 m ρ c (Proc.devRef .tc main_arg1) := W1_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 2).trans (((Lin.dat (V0 m ρ) c).arrAt_in 2 rfl _).trans (Lin.A_eq (V0 m ρ) c 2))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := (W1_arr m ρ c 1).trans (((Lin.dat (V0 m ρ) c).arrAt_in 1 rfl _).trans (Lin.A_eq (V0 m ρ) c 1))
    _ = m ((c : Thread nD τ).loc main_arg3) := rfl

/-! ## The proof data of the four regions, and what rides between them -/

abbrev adm : (p : Fin 4) → (pcfgs (F := F) p).Adm := fun p => (cfgs p).toPCfg_adm
/-- Each region's proof data at the contents it is entered with. -/
def pdats : (p : Fin 4) → (c : Dev nD) → Dat τ (Elt F) Unit ℕ (UR sig nD τ) ℕ (Pipeline.pin (pcfgs (F := F)) adm p) c
  | ⟨0, _⟩ => fun c => Lin.dat (V0 m ρ) c
  | ⟨1, _⟩ => fun c => Dif1.dat (V1 m ρ) c
  | ⟨2, _⟩ => fun c => Dif2.dat (V2 m ρ) c
  | ⟨3, _⟩ => fun c => Dif3.dat (V3 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at `W4`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment: entered with every unscoped buffer at `W0`, left with them at `W1`. Its arrays are
    taken out of the unscoped buffers at entry and put back at what the pipeline leaves at exit; the generator
    register passes through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W1`, left with them at `W2`. Its arrays are
    taken out of the unscoped buffers at entry and put back at what the pipeline leaves at exit; the generator
    register passes through the invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Dif1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec1 c ∗ ∃ r, prngReg c r) : sProp 𝕄)
        ⊢ (pdats m ρ 1 c).Φ 0 := Dif1.Phi_in (V1 m ρ) c
    iintro ⟨Hp, -, Hr⟩
    iapply h1
    isplitl [Hr]; · iexact Hr
    iexact Hp
  hout c := by
    rw [Pipeline.ownSems0_none]
    have h1 : (pdats m ρ 1 c).Φ (Fin.last _)
        ⊢ (iprop(Pipeline.scopedRest (Ix := Unit) (Name := ℕ) (U := UR sig nD τ) (Lvl := ℕ) (Val := Elt F) spec1 c ∗ ∃ r, prngReg c r) : sProp 𝕄) :=
      Dif1.Phi_out (V1 m ρ) c
    refine h1.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W2`, left with them at `W3`. Its arrays are
    taken out of the unscoped buffers at entry and put back at what the pipeline leaves at exit; the generator
    register passes through the invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Dif2.body_obligation (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec2 c ∗ ∃ r, prngReg c r) : sProp 𝕄)
        ⊢ (pdats m ρ 2 c).Φ 0 := Dif2.Phi_in (V2 m ρ) c
    iintro ⟨Hp, -, Hr⟩
    iapply h1
    isplitl [Hr]; · iexact Hr
    iexact Hp
  hout c := by
    rw [Pipeline.ownSems0_none]
    have h1 : (pdats m ρ 2 c).Φ (Fin.last _)
        ⊢ (iprop(Pipeline.scopedRest (Ix := Unit) (Name := ℕ) (U := UR sig nD τ) (Lvl := ℕ) (Val := Elt F) spec2 c ∗ ∃ r, prngReg c r) : sProp 𝕄) :=
      Dif2.Phi_out (V2 m ρ) c
    refine h1.trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W3`, left with them at `W4`. Its arrays are
    taken out of the unscoped buffers at entry and put back at what the pipeline leaves at exit; the generator
    register passes through the invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Dif3.body_obligation (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec3 c ∗ ∃ r, prngReg c r) : sProp 𝕄)
        ⊢ (pdats m ρ 3 c).Φ 0 := Dif3.Phi_in (V3 m ρ) c
    iintro ⟨Hp, -, Hr⟩
    iapply h1
    isplitl [Hr]; · iexact Hr
    iexact Hp
  hout c := by
    rw [Pipeline.ownSems0_none]
    have h1 : (pdats m ρ 3 c).Φ (Fin.last _)
        ⊢ (iprop(Pipeline.scopedRest (Ix := Unit) (Name := ℕ) (U := UR sig nD τ) (Lvl := ℕ) (Val := Elt F) spec3 c ∗ ∃ r, prngReg c r) : sProp 𝕄) :=
      Dif3.Phi_out (V3 m ρ) c
    refine h1.trans ?_
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (left3 m ρ c) (kept3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with every
    unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The result buffer ends at what the last region's write-backs leave, the arguments as launched. -/
theorem result : θ_run defs (onTc (τ := τ) (main (F := F))) ⟨m, fun _ => 0, ρ⟩ (fun r => ∀ c : Dev nD,
      r.2.mem ((c.tc : Thread nD τ).loc main_v3) = (Dif3.dat (V3 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Whole

end
-- ==== Proof.Lin.lean ====
/-
  The first of the four kernel regions: feat₀ = ((x ∘ mask) · c) @ W, computed one block of 2048 rows per grid
  point (8 points). Each point reads rows [2048 t, 2048 t + 2048) of x and of the mask and the whole of W, and
  writes the same rows of the result: the three inputs are only read, the output block is stored whole, nothing
  is kept from one point to the next. Stated for any float family and at any contents `V` of the core's buffers
  when the region is entered.
-/
import proofs.«172064_j31550829756529_1_alg».proof.Proof.Gen.KernelIdeal.Launch
import proofs.«172064_j31550829756529_1_alg».proof.Proof.Gen.KernelIdeal.Skeleton
import proofs.«172064_j31550829756529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents is decided coordinate by coordinate
set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-- Window `w`'s block at point `t`: rows [2048 t, 2048 t + 2048) of x (w = 0) and of the mask (w = 1), all of W (w = 2). -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, whether the point fetched it or an earlier one did
    (W's block index never moves, so it is fetched once). -/
theorem found_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_mask {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_w {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The rectangles the body reads and writes: each is its buffer whole. -/
abbrev rX : Rect S2048x512 := Rect.unit (s := S2048x512) ![0, 0] S2048x512.size inb_S2048x512_S2048x512_0_0
abbrev rW : Rect S512x128 := Rect.unit (s := S512x128) ![0, 0] S512x128.size inb_S512x128_S512x128_0_0
abbrev rO : Rect S2048x128 := Rect.unit (s := S2048x128) ![0, 0] S2048x128.size inb_S2048x128_S2048x128_0_0

/-- What one point leaves in the output block: its one store, of the product of the scaled, masked rows with W. -/
def lin (x0 x1 : Vec F S2048x512 .f32) (x2 : Vec F S512x128 .f32) : Vec F S2048x128 .f32 :=
  View.canon [⟨rO, k0_pay1 (View.ld x0 rX) (View.ld x1 rX) (View.ld x2 rW)⟩]

/-- That store covers the block. -/
theorem lin_cover (p0 : Vec F S2048x128 .f32) (y : S2048x128.Idx) :
    ∃ pc ∈ ([⟨rO, p0⟩] : List (View.Piece (Elt F) S2048x128 .f32)), y ∈ pc.1.set :=
  View.cover_of_tiled [⟨rO, p0⟩] S2048x128.size (by rfl) y

set_option maxHeartbeats 1000000 in
/-- The body on whole buffers: the three inputs at `x0 x1 x2` and the output at anything run to the inputs as they
    were and the output at `lin x0 x1 x2`. -/
theorem sound_kernel (c : Dev nD) (E : Set ℕ) (i : grid0.Coords)
    (arg1 : Memref sig .tc .vmem S2048x512 .f32) (harg1 : arg1.IsWhole) (arg2 : Memref sig .tc .vmem S2048x512 .f32) (harg2 : arg2.IsWhole)
    (arg3 : Memref sig .tc .vmem S512x128 .f32) (harg3 : arg3.IsWhole) (arg4 : Memref sig .tc .vmem S2048x128 .f32) (harg4 : arg4.IsWhole)
    (x0 x1 : Vec F S2048x512 .f32) (x2 : Vec F S512x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (lin x0 x1 x2)) -∗ K ⟨⟩))
      ⊢ wp frame (wpE (defs₀ (F := F)) Variants.none c none) E (cc0__dropout_linear_kernel i arg1 harg1 arg2 harg2 arg3 harg3 arg4 harg4) K := by
  simp only [cc0__dropout_linear_kernel_eq_skeleton]; unfold cc0__dropout_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lin_cover _)

/-- The region's proof data: the arrays as the region finds them; after each point the inputs' buffers at their
    blocks and the output's at `lin` of them; nothing kept between points; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => lin (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]
theorem after_x (c : Dev nD) (t : Fin cfg0.N) : (dat V c).after 0 t = blk V c 0 t := by dsimp only [dat]
theorem after_mask (c : Dev nD) (t : Fin cfg0.N) : (dat V c).after 1 t = blk V c 1 t := by dsimp only [dat]
theorem after_w (c : Dev nD) (t : Fin cfg0.N) : (dat V c).after 2 t = blk V c 2 t := by dsimp only [dat]
/-- The output block after point `t`. -/
theorem after_out (c : Dev nD) (t : Fin cfg0.N) : (dat V c).after 3 t = lin (blk V c 0 t) (blk V c 1 t) (blk V c 2 t) := by dsimp only [dat]

theorem before_x (c : Dev nD) (t : Fin cfg0.N) (d) : (dat V c).before 0 t d = blk V c 0 t :=
  found_x V (dat V c) (A_eq V c 0) (after_x V c) t d
theorem before_mask (c : Dev nD) (t : Fin cfg0.N) (d) : (dat V c).before 1 t d = blk V c 1 t :=
  found_mask V (dat V c) (A_eq V c 1) (after_mask V c) t d
theorem before_w (c : Dev nD) (t : Fin cfg0.N) (d) : (dat V c).before 2 t d = blk V c 2 t :=
  found_w V (dat V c) (A_eq V c 2) (after_w V c) t d

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `sound_kernel` applies; the invariant and what
    the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_mask, before_w]
  rw [show (dat V c).Φ t.succ = (dat V c).Φ t.castSucc from rfl,
    show (dat V c).owesAt () t.succ = (dat V c).owesAt () t.castSucc from rfl,
    after_x, after_mask, after_w, after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Lin

end
-- ==== Proof.Dif1Runs.lean ====
/-
  One diffusion step: out = S @ feat over the extended reals, for S of 16384 × 16384 and feat of 16384 × 128.
  The grid has 16 × 8 points; point t = 8 i + k reads the block of S in rows [1024 i, 1024 i + 1024) and
  columns [2048 k, 2048 k + 2048) and the rows [2048 k, 2048 k + 2048) of feat. A scratch accumulator of
  1024 × 128 is kept from point to point: at k = 0 it is set to zero first; at every k the product of the two
  blocks is added to it; at k = 7 it is copied into the output block, which is written back as rows
  [1024 i, 1024 i + 1024) of the result. At the other points the output block is left alone and not written back.
  Stated for any float family and at any contents `V` of the core's buffers when the region is entered.
-/
import proofs.«172064_j31550829756529_1_alg».proof.Proof.Gen.KernelIdeal.Launch
import proofs.«172064_j31550829756529_1_alg».proof.Proof.Gen.KernelIdeal.Skeleton
import proofs.«172064_j31550829756529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents is decided coordinate by coordinate
set_option maxRecDepth 16384

noncomputable section

namespace Cert.KernelIdeal.Dif1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input blocks -/

/-- Window `w`'s block at point `t`: the block (i, k) of S (w = 0), the row block k of feat (w = 1). -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point (both are fetched at every point). -/
theorem found_s {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_f {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, in closed form over the grid -/

/-- "k = 0": the accumulator is reset. -/
abbrev cond_first (i : grid1.Coords) : Prop := (Scalar.cmpi .ne (Scalar.extui (Scalar.cmpi .eq (BitVec.ofNat 32 (i 1).val) 0#32)) 0#32) = 1#1
theorem first_iff : ∀ t : Fin cfg1.N, cond_first (grid1.coords t) ↔ t.val % 8 = 0 :=
  (by decide +kernel : ∀ t : Fin grid1.N, cond_first (grid1.coords t) ↔ t.val % 8 = 0)
/-- "k = 7": the accumulator is written out. -/
abbrev cond_last (i : grid1.Coords) : Prop := k1_cond2 i = 1#1
theorem last_iff : ∀ t : Fin cfg1.N, cond_last (grid1.coords t) ↔ t.val % 8 = 7 :=
  (by decide +kernel : ∀ t : Fin grid1.N, cond_last (grid1.coords t) ↔ t.val % 8 = 7)

/-- The inputs are never idle; the output block is idle, and not written back, exactly away from k = 7. -/
theorem live_s : ∀ t : Fin cfg1.N, cfg1.idle 0 (grid1.coords t) = false := by decide +kernel
theorem live_f : ∀ t : Fin cfg1.N, cfg1.idle 1 (grid1.coords t) = false := by decide +kernel
theorem idle_o : ∀ t : Fin cfg1.N, ¬cond_last (grid1.coords t) → cfg1.idle 2 (grid1.coords t) = true := by decide +kernel
theorem noflush_o : ∀ t : Fin cfg1.N, ¬cond_last (grid1.coords t) → (cfg1.win 2).flush t = false := by decide +kernel
theorem live_o : ∀ t : Fin cfg1.N, cond_last (grid1.coords t) → cfg1.idle 2 (grid1.coords t) = false := by decide +kernel

/-! ## The buffers the body is called with -/

abbrev ms_s (t : Fin cfg1.N) : Memref sig .tc .vmem S1024x2048 .f32 := win1_0.stage (cfg1.slots t 0)
abbrev hs_s (t : Fin cfg1.N) : (ms_s t).IsWhole := hstage1_0 ((cfg1.slots t 0).cast nbuf1_0)
abbrev ms_f (t : Fin cfg1.N) : Memref sig .tc .vmem S2048x128 .f32 := win1_1.stage (cfg1.slots t 1)
abbrev hs_f (t : Fin cfg1.N) : (ms_f t).IsWhole := hstage1_1 ((cfg1.slots t 1).cast nbuf1_1)
abbrev ms_o (t : Fin cfg1.N) : Memref sig .tc .vmem S1024x128 .f32 := win1_2.stage (cfg1.slots t 2)
abbrev hs_o (t : Fin cfg1.N) : (ms_o t).IsWhole := hstage1_2 ((cfg1.slots t 2).cast nbuf1_2)
/-- The accumulator: a whole scoped buffer of the kernel's own. -/
abbrev scr : Memref sig .tc .vmem S1024x128 .f32 := Memref.whole cc1_scratch0
/-- Views through which the accumulator's and the output block's contents are stated. -/
abbrev VS : View sig .tc .vmem S1024x128 .f32 := scr.view
abbrev VO : View sig .tc .vmem S1024x128 .f32 := (Memref.whole cc1_stg2_0 : Memref sig .tc .vmem S1024x128 .f32).view

/-- The core's scoped buffers outside this region's staging: the accumulator, and the rest unopened. -/
theorem scoped_split (c : Dev nD) :
    (Pipeline.scopedRest (Ix := Unit) (Name := ℕ) (U := UR sig nD τ) (Lvl := ℕ) (Val := Elt F) spec1 c : sProp 𝕄)
      = iprop((∃ d, owns (c : Thread nD τ) scr fullShare d)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [scr, owns_whole]; try rfl

/-- What rides beside the accumulator in the invariant: the other scoped buffers and the generator register. -/
abbrev beside (c : Dev nD) : sProp 𝕄 :=
  iprop(Pipeline.scopedRestBut (Ix := Unit) (Name := ℕ) (U := UR sig nD τ) (Lvl := ℕ) (Val := Elt F) spec1 c [cc1_scratch0] ∗ ∃ r, prngReg c r)

theorem PhiA_eq (c : Dev nD) :
    (Pipeline.ΦA spec1 c : sProp 𝕄) = iprop(iprop((∃ d, owns (c : Thread nD τ) scr fullShare d)
          ∗ Pipeline.scopedRestBut (Ix := Unit) (Name := ℕ) (U := UR sig nD τ) (Lvl := ℕ) (Val := Elt F) spec1 c [cc1_scratch0]) ∗ ∃ r, prngReg c r) := by
  unfold Pipeline.ΦA; rw [scoped_split]

/-! ## The body in each of its three cases, on any whole buffers -/

set_option maxHeartbeats 1000000 in
/-- k = 0: from the inputs at `x0 x1`, the output block at `xi` (handed back untouched) and the accumulator at
    anything, the body ends with the accumulator written by the pieces `LS` (the zero store, then the sum). -/
noncomputable def run_first (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1_kernel i arg2 harg2 arg3 harg3 arg4 harg4 arg5 harg5) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- 0 < k < 7: the accumulator at `xs` ends written by the pieces `LS` (the sum added). -/
noncomputable def run_mid (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1_kernel i arg2 harg2 arg3 harg3 arg4 harg4 arg5 harg5) K } := by
  refine ⟨?_, fun xi E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- k = 7: the accumulator at `xs` ends written by `LS`, and the output block, at anything, by `LO`
    (the accumulator read back). -/
noncomputable def run_last (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Dif1

end
-- ==== Proof.Dif1.lean ====
/-
  One diffusion step, continued: what the accumulator and the output block hold after each grid point, the
  invariant that carries the accumulator from point to point, and the body's obligation at every point.
  After point t = 8 i + k the accumulator holds the sum, over the column blocks 0 … k of row block i, of the
  products of the blocks of S and of feat (starting again from zero at each k = 0); the output block is written at
  k = 7 only.
-/
import proofs.«172064_j31550829756529_1_alg».proof.Proof.Dif1Runs

set_option maxRecDepth 16384

noncomputable section

namespace Cert.KernelIdeal.Dif1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its stores cover the buffer, so the buffer is their read-back -/

theorem cover_first (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) (y : S1024x128.Idx) :
    ∃ pc ∈ (run_first c i arg2 harg2 arg3 harg3 arg4 harg4 arg5 harg5 hc0 hc1 x0 x1).1, y ∈ pc.1.set :=
  View.cover_of_tiledL (run_first c i arg2 harg2 arg3 harg3 arg4 harg4 arg5 harg5 hc0 hc1 x0 x1).1 S1024x128.size (by sl_kernel_rfl) y
/-- The accumulator after a point with k = 0. -/
def acc_first (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) : Vec F S1024x128 .f32 :=
  VS.read (Elt F) (VS.writes (Elt F) VS.junk (run_first c i arg2 harg2 arg3 harg3 arg4 harg4 arg5 harg5 hc0 hc1 x0 x1).1)

theorem cover_mid (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) (y : S1024x128.Idx) :
    ∃ pc ∈ (run_mid c i arg2 harg2 arg3 harg3 arg4 harg4 arg5 harg5 hc0 hc1 x0 x1 xs).1, y ∈ pc.1.set :=
  View.cover_of_tiledL (run_mid c i arg2 harg2 arg3 harg3 arg4 harg4 arg5 harg5 hc0 hc1 x0 x1 xs).1 S1024x128.size (by sl_kernel_rfl) y
/-- The accumulator after a point with 0 < k < 7, over what the point before left. -/
def acc_mid (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) : Vec F S1024x128 .f32 :=
  VS.read (Elt F) (VS.writes (Elt F) VS.junk (run_mid c i arg2 harg2 arg3 harg3 arg4 harg4 arg5 harg5 hc0 hc1 x0 x1 xs).1)

theorem cover_last_acc (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).2.1, y ∈ pc.1.set :=
  View.cover_of_tiledL (run_last c i arg2 harg2 arg3 harg3 arg4 harg4 arg5 harg5 hc0 hc1 x0 x1 xs).2.1 S1024x128.size (by sl_kernel_rfl) y
/-- The accumulator after a point with k = 7. -/
def acc_last (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VS.read (Elt F) (VS.writes (Elt F) VS.junk (run_last c i arg2 harg2 arg3 harg3 arg4 harg4 arg5 harg5 hc0 hc1 x0 x1 xs).2.1)
theorem cover_last_out (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).1, y ∈ pc.1.set :=
  View.cover_of_tiledL (run_last c i arg2 harg2 arg3 harg3 arg4 harg4 arg5 harg5 hc0 hc1 x0 x1 xs).1 S1024x128.size (by sl_kernel_rfl) y
/-- The output block after a point with k = 7. -/
def out_last (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VO.read (Elt F) (VO.writes (Elt F) VO.junk (run_last c i arg2 harg2 arg3 harg3 arg4 harg4 arg5 harg5 hc0 hc1 x0 x1 xs).1)

/-! ## The state point by point -/

/-- One point's effect on (output block, accumulator), given the accumulator the point before left: by the
    case k = t mod 8 puts the point in. Where the output block is not stored (k < 7) its component repeats the
    accumulator: nothing reads it there. -/
def step (c : Dev nD) (t : Fin cfg1.N) (prev : Vec F S1024x128 .f32) : Vec F S1024x128 .f32 × Vec F S1024x128 .f32 :=
  if h0 : t.val % 8 = 0 then
    (acc_first c (grid1.coords t) (ms_s t) (hs_s t) (ms_f t) (hs_f t) (ms_o t) (hs_o t) scr (Memref.isWhole_whole _) ((first_iff t).mpr h0) (fun h => by have := (last_iff t).mp h; omega) (blk V c 0 t) (blk V c 1 t),
     acc_first c (grid1.coords t) (ms_s t) (hs_s t) (ms_f t) (hs_f t) (ms_o t) (hs_o t) scr (Memref.isWhole_whole _) ((first_iff t).mpr h0) (fun h => by have := (last_iff t).mp h; omega) (blk V c 0 t) (blk V c 1 t))
  else if h1 : t.val % 8 = 7 then
    (out_last c (grid1.coords t) (ms_s t) (hs_s t) (ms_f t) (hs_f t) (ms_o t) (hs_o t) scr (Memref.isWhole_whole _) (fun h => h0 ((first_iff t).mp h)) ((last_iff t).mpr h1) (blk V c 0 t) (blk V c 1 t) prev,
     acc_last c (grid1.coords t) (ms_s t) (hs_s t) (ms_f t) (hs_f t) (ms_o t) (hs_o t) scr (Memref.isWhole_whole _) (fun h => h0 ((first_iff t).mp h)) ((last_iff t).mpr h1) (blk V c 0 t) (blk V c 1 t) prev)
  else
    (acc_mid c (grid1.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
     acc_mid c (grid1.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev)

/-- (output block, accumulator) after the point at position `n`. -/
def stateAt (c : Dev nD) : (n : ℕ) → n < cfg1.N → Vec F S1024x128 .f32 × Vec F S1024x128 .f32
  | 0, hn => step V c ⟨0, hn⟩ (VS.read (Elt F) VS.junk)
  | n + 1, hn => step V c ⟨n + 1, hn⟩ (stateAt c n (Nat.lt_of_succ_lt hn)).2

/-- The accumulator a point finds: what the point before left (at the very first point, anything). -/
def prevAcc (c : Dev nD) (t : Fin cfg1.N) : Vec F S1024x128 .f32 :=
  if h : t.val = 0 then VS.read (Elt F) VS.junk else (stateAt V c (t.val - 1) (Nat.lt_of_le_of_lt (Nat.sub_le _ _) t.isLt)).2

theorem stateAt_eq (c : Dev nD) (t : Fin cfg1.N) : stateAt V c t.val t.isLt = step V c t (prevAcc V c t) := by
  obtain ⟨n, hn⟩ := t
  cases n with
  | zero => rfl
  | succ n => rfl

theorem prevAcc_pos (c : Dev nD) (t : Fin cfg1.N) (h : t.val ≠ 0) :
    prevAcc V c t = (stateAt V c (t.val - 1) (Nat.lt_of_le_of_lt (Nat.sub_le _ _) t.isLt)).2 := dif_neg h

theorem step_first (c : Dev nD) (t : Fin cfg1.N) (prev : Vec F S1024x128 .f32) (h0 : t.val % 8 = 0) :
    step V c t prev =
      (acc_first c (grid1.coords t) (ms_s t) (hs_s t) (ms_f t) (hs_f t) (ms_o t) (hs_o t) scr (Memref.isWhole_whole _) ((first_iff t).mpr h0) (fun h => by have := (last_iff t).mp h; omega) (blk V c 0 t) (blk V c 1 t),
       acc_first c (grid1.coords t) (ms_s t) (hs_s t) (ms_f t) (hs_f t) (ms_o t) (hs_o t) scr (Memref.isWhole_whole _) ((first_iff t).mpr h0) (fun h => by have := (last_iff t).mp h; omega) (blk V c 0 t) (blk V c 1 t)) := dif_pos h0
theorem step_last (c : Dev nD) (t : Fin cfg1.N) (prev : Vec F S1024x128 .f32) (h0 : ¬t.val % 8 = 0) (h1 : t.val % 8 = 7) :
    step V c t prev =
      (out_last c (grid1.coords t) (ms_s t) (hs_s t) (ms_f t) (hs_f t) (ms_o t) (hs_o t) scr (Memref.isWhole_whole _) (fun h => h0 ((first_iff t).mp h)) ((last_iff t).mpr h1) (blk V c 0 t) (blk V c 1 t) prev,
       acc_last c (grid1.coords t) (ms_s t) (hs_s t) (ms_f t) (hs_f t) (ms_o t) (hs_o t) scr (Memref.isWhole_whole _) (fun h => h0 ((first_iff t).mp h)) ((last_iff t).mpr h1) (blk V c 0 t) (blk V c 1 t) prev) :=
  (dif_neg h0).trans (dif_pos h1)
theorem step_mid (c : Dev nD) (t : Fin cfg1.N) (prev : Vec F S1024x128 .f32) (h0 : ¬t.val % 8 = 0) (h1 : ¬t.val % 8 = 7) :
    step V c t prev =
      (acc_mid c (grid1.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
       acc_mid c (grid1.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev) :=
  (dif_neg h0).trans (dif_neg h1)

/-! ## The invariant and the proof data -/

/-- Before position `n`: at the region's entry every scoped buffer at anything; afterwards the accumulator at what
    the point before left, the other scoped buffers and the generator register beside it. -/
def Phi (c : Dev nD) : (n : ℕ) → n ≤ cfg1.N → sProp 𝕄
  | 0, _ => Pipeline.ΦA spec1 c
  | n + 1, hn => iprop(owns (c : Thread nD τ) scr fullShare (stateAt V c n hn).2 ∗ beside c)

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = iprop(owns (c : Thread nD τ) scr fullShare (stateAt V c n hn).2 ∗ beside c) := rfl
theorem Phi_pos (c : Dev nD) (n : ℕ) (h : n ≤ cfg1.N) (hz : n ≠ 0) :
    Phi V c n h = iprop(owns (c : Thread nD τ) scr fullShare (stateAt V c (n - 1) (by omega)).2 ∗ beside c) := by
  cases n with
  | zero => exact absurd rfl hz
  | succ n => rfl

/-- The region's proof data: the arrays as the region finds them; after each point the inputs' buffers at their
    blocks and the output's at `stateAt`'s first component; the invariant `Phi`; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => (stateAt V c t.val t.isLt).1
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) : (dat V c).Φ t.castSucc = Phi V c t.val (Nat.le_of_lt t.isLt) := by
  dsimp only [dat]; simp only [Fin.coe_castSucc]
theorem after_s (c : Dev nD) (t : Fin cfg1.N) : (dat V c).after 0 t = blk V c 0 t := by dsimp only [dat]
theorem after_f (c : Dev nD) (t : Fin cfg1.N) : (dat V c).after 1 t = blk V c 1 t := by dsimp only [dat]
/-- The output block after point `t`. -/
theorem after_o (c : Dev nD) (t : Fin cfg1.N) : (dat V c).after 2 t = (stateAt V c t.val t.isLt).1 := by dsimp only [dat]
theorem before_s (c : Dev nD) (t : Fin cfg1.N) (d) : (dat V c).before 0 t d = blk V c 0 t :=
  found_s V (dat V c) (A_eq V c 0) (after_s V c) t d
theorem before_f (c : Dev nD) (t : Fin cfg1.N) (d) : (dat V c).before 1 t d = blk V c 1 t :=
  found_f V (dat V c) (A_eq V c 1) (after_f V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_s t) fullShare ((dat V c).before 0 t d))
    ∗ (∃ d, owns (c : Thread nD τ) (ms_f t) fullShare ((dat V c).before 1 t d))
    ∗ (∃ d, owns (c : Thread nD τ) (ms_o t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point: the inputs' buffers hold their blocks; k = t mod 8 says which case the point is in; the
    invariant hands the body the accumulator at what the point before left (at anything before the first point) and
    takes it back at this point's contents; the output block is handed back untouched unless k = 7. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_s, before_f]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_s t) fullShare ((dat V c).after 0 t) from by
    unfold Dat.leavesExact; rw [live_s t], after_s]
  rw [show (dat V c).leavesExact 1 t = owns (c : Thread nD τ) (ms_f t) fullShare ((dat V c).after 1 t) from by
    unfold Dat.leavesExact; rw [live_f t], after_f]
  have hN : t.val < 128 := lt_of_lt_of_eq t.isLt (show cfg1.N = 128 from N_1)
  rw [stateAt_eq V c t]
  by_cases h0 : t.val % 8 = 0
  · have hl : ¬cond_last (grid1.coords t) := fun h => by have := (last_iff t).mp h; omega
    rw [Dat.leavesExact_idle (dat V c) 2 t (idle_o t hl) (noflush_o t hl)]
    rw [step_first V c t _ h0]
    unfold acc_first; (try dsimp only)
    by_cases hz : t.val = 0
    · rw [Phi_castSucc V c t, Phi_zero V c _ _ hz, PhiA_eq]
      iintro ⟨⟨⟨HS, Hb⟩, Hg⟩, Ho, ⟨%d0, H0⟩, ⟨%d1, H1⟩, ⟨%d2, H2⟩⟩
      iapply ((run_first c (grid1.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
    · rw [Phi_castSucc V c t, Phi_pos V c _ _ hz]
      iintro ⟨⟨HS, Hb, Hg⟩, Ho, ⟨%d0, H0⟩, ⟨%d1, H1⟩, ⟨%d2, H2⟩⟩
      iapply ((run_first c (grid1.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
  · have hz : t.val ≠ 0 := fun h => h0 (by rw [h])
    rw [prevAcc_pos V c t hz]
    by_cases h1 : t.val % 8 = 7
    · rw [show (dat V c).leavesExact 2 t = owns (c : Thread nD τ) (ms_o t) fullShare ((dat V c).after 2 t) from by
        unfold Dat.leavesExact; rw [live_o t ((last_iff t).mpr h1)], after_o, stateAt_eq V c t, prevAcc_pos V c t hz]
      rw [step_last V c t _ h0 h1]
      unfold out_last acc_last; (try dsimp only)
      rw [Phi_castSucc V c t, Phi_pos V c _ _ hz]
      iintro ⟨⟨HS, Hb, Hg⟩, Ho, ⟨%d0, H0⟩, ⟨%d1, H1⟩, ⟨%d2, H2⟩⟩
      iapply ((run_last c (grid1.coords t) _ _ _ _ _ _ _ _ (fun h => h0 ((first_iff t).mp h)) ((last_iff t).mpr h1) (blk V c 0 t) (blk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hb Hg]
      · isplitl [HS]
        · unfold owns; iexists _; isplitr
          swap; · iexact HS
          ipureintro; exact View.read_writes_of_cover _ _ _ _ _ (cover_last_acc c _ _ _ _ _ _ _ _ _ _ _ _ _ _)
        isplitl [Hb]; · iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _)
    · have hl : ¬cond_last (grid1.coords t) := fun h => h1 ((last_iff t).mp h)
      rw [Dat.leavesExact_idle (dat V c) 2 t (idle_o t hl) (noflush_o t hl)]
      rw [step_mid V c t _ h0 h1]
      unfold acc_mid; (try dsimp only)
      rw [Phi_castSucc V c t, Phi_pos V c _ _ hz]
      iintro ⟨⟨HS, Hb, Hg⟩, Ho, ⟨%d0, H0⟩, ⟨%d1, H1⟩, ⟨%d2, H2⟩⟩
      iapply ((run_mid c (grid1.coords t) _ _ _ _ _ _ _ _ (fun h => h0 ((first_iff t).mp h)) hl (blk V c 0 t) (blk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_mid c _ _ _ _ _ _ _ _ _ _ _ _ _ _)
        isplitl [Hb]; · iexact Hb
        iexact Hg
      isplitl [Ho]; · iexact Ho
      isplitl [H0]; · iexact H0
      isplitl [H1]; · iexact H1
      iexists _; iexact H2

/-- The body obligation, at every point. -/
theorem body_obligation (c : Dev nD) : BodyObligation (dat (F := F) V c) (defs₀ (F := F)) Variants.none () Set.univ := fun t => by
  rw [bigSep_W1, bigSep_W1]
  exact sound_body V c t

/-- What the region's entry hands the kernel is the invariant before the first point. -/
theorem Phi_in (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After the last point the invariant gives every scoped buffer back at some contents. -/
theorem Phi_out (c : Dev nD) : (dat V c).Φ (Fin.last cfg1.N) ⊢ Pipeline.ΦA spec1 c := by
  rw [show (dat V c).Φ (Fin.last cfg1.N) = Phi V c (Fin.last cfg1.N).val (Nat.le_of_lt_succ (Fin.last cfg1.N).isLt) from rfl,
    Phi_pos V c _ _ (by rw [Fin.val_last]; have : cfg1.N = 128 := N_1; omega), PhiA_eq]
  iintro ⟨HS, Hb, Hg⟩
  isplitl [HS Hb]
  · isplitl [HS]; · iexists _; iexact HS
    iexact Hb
  iexact Hg

end Cert.KernelIdeal.Dif1

end
-- ==== Proof.Dif2Runs.lean ====
/-
  One diffusion step: out = S @ feat over the extended reals, for S of 16384 × 16384 and feat of 16384 × 128.
  The grid has 16 × 8 points; point t = 8 i + k reads the block of S in rows [1024 i, 1024 i + 1024) and
  columns [2048 k, 2048 k + 2048) and the rows [2048 k, 2048 k + 2048) of feat. A scratch accumulator of
  1024 × 128 is kept from point to point: at k = 0 it is set to zero first; at every k the product of the two
  blocks is added to it; at k = 7 it is copied into the output block, which is written back as rows
  [1024 i, 1024 i + 1024) of the result. At the other points the output block is left alone and not written back.
  Stated for any float family and at any contents `V` of the core's buffers when the region is entered.
-/
import proofs.«172064_j31550829756529_1_alg».proof.Proof.Gen.KernelIdeal.Launch
import proofs.«172064_j31550829756529_1_alg».proof.Proof.Gen.KernelIdeal.Skeleton
import proofs.«172064_j31550829756529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents is decided coordinate by coordinate
set_option maxRecDepth 16384

noncomputable section

namespace Cert.KernelIdeal.Dif2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input blocks -/

/-- Window `w`'s block at point `t`: the block (i, k) of S (w = 0), the row block k of feat (w = 1). -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point (both are fetched at every point). -/
theorem found_s {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_f {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, in closed form over the grid -/

/-- "k = 0": the accumulator is reset. -/
abbrev cond_first (i : grid2.Coords) : Prop := (Scalar.cmpi .ne (Scalar.extui (Scalar.cmpi .eq (BitVec.ofNat 32 (i 1).val) 0#32)) 0#32) = 1#1
theorem first_iff : ∀ t : Fin cfg2.N, cond_first (grid2.coords t) ↔ t.val % 8 = 0 :=
  (by decide +kernel : ∀ t : Fin grid2.N, cond_first (grid2.coords t) ↔ t.val % 8 = 0)
/-- "k = 7": the accumulator is written out. -/
abbrev cond_last (i : grid2.Coords) : Prop := k2_cond2 i = 1#1
theorem last_iff : ∀ t : Fin cfg2.N, cond_last (grid2.coords t) ↔ t.val % 8 = 7 :=
  (by decide +kernel : ∀ t : Fin grid2.N, cond_last (grid2.coords t) ↔ t.val % 8 = 7)

/-- The inputs are never idle; the output block is idle, and not written back, exactly away from k = 7. -/
theorem live_s : ∀ t : Fin cfg2.N, cfg2.idle 0 (grid2.coords t) = false := by decide +kernel
theorem live_f : ∀ t : Fin cfg2.N, cfg2.idle 1 (grid2.coords t) = false := by decide +kernel
theorem idle_o : ∀ t : Fin cfg2.N, ¬cond_last (grid2.coords t) → cfg2.idle 2 (grid2.coords t) = true := by decide +kernel
theorem noflush_o : ∀ t : Fin cfg2.N, ¬cond_last (grid2.coords t) → (cfg2.win 2).flush t = false := by decide +kernel
theorem live_o : ∀ t : Fin cfg2.N, cond_last (grid2.coords t) → cfg2.idle 2 (grid2.coords t) = false := by decide +kernel

/-! ## The buffers the body is called with -/

abbrev ms_s (t : Fin cfg2.N) : Memref sig .tc .vmem S1024x2048 .f32 := win2_0.stage (cfg2.slots t 0)
abbrev hs_s (t : Fin cfg2.N) : (ms_s t).IsWhole := hstage2_0 ((cfg2.slots t 0).cast nbuf2_0)
abbrev ms_f (t : Fin cfg2.N) : Memref sig .tc .vmem S2048x128 .f32 := win2_1.stage (cfg2.slots t 1)
abbrev hs_f (t : Fin cfg2.N) : (ms_f t).IsWhole := hstage2_1 ((cfg2.slots t 1).cast nbuf2_1)
abbrev ms_o (t : Fin cfg2.N) : Memref sig .tc .vmem S1024x128 .f32 := win2_2.stage (cfg2.slots t 2)
abbrev hs_o (t : Fin cfg2.N) : (ms_o t).IsWhole := hstage2_2 ((cfg2.slots t 2).cast nbuf2_2)
/-- The accumulator: a whole scoped buffer of the kernel's own. -/
abbrev scr : Memref sig .tc .vmem S1024x128 .f32 := Memref.whole cc2_scratch0
/-- Views through which the accumulator's and the output block's contents are stated. -/
abbrev VS : View sig .tc .vmem S1024x128 .f32 := scr.view
abbrev VO : View sig .tc .vmem S1024x128 .f32 := (Memref.whole cc2_stg2_0 : Memref sig .tc .vmem S1024x128 .f32).view

/-- The core's scoped buffers outside this region's staging: the accumulator, and the rest unopened. -/
theorem scoped_split (c : Dev nD) :
    (Pipeline.scopedRest (Ix := Unit) (Name := ℕ) (U := UR sig nD τ) (Lvl := ℕ) (Val := Elt F) spec2 c : sProp 𝕄)
      = iprop((∃ d, owns (c : Thread nD τ) scr fullShare d)
          ∗ Pipeline.scopedRestBut (Ix := Unit) (Name := ℕ) (U := UR sig nD τ) (Lvl := ℕ) (Val := Elt F) spec2 c [cc2_scratch0]) := by
  rw [Pipeline.scopedRest_split_of_list spec2 c [cc2_scratch0] (by decide) (by decide)]
  simp only [scr, owns_whole]; try rfl

/-- What rides beside the accumulator in the invariant: the other scoped buffers and the generator register. -/
abbrev beside (c : Dev nD) : sProp 𝕄 :=
  iprop(Pipeline.scopedRestBut (Ix := Unit) (Name := ℕ) (U := UR sig nD τ) (Lvl := ℕ) (Val := Elt F) spec2 c [cc2_scratch0] ∗ ∃ r, prngReg c r)

theorem PhiA_eq (c : Dev nD) :
    (Pipeline.ΦA spec2 c : sProp 𝕄) = iprop(iprop((∃ d, owns (c : Thread nD τ) scr fullShare d)
          ∗ Pipeline.scopedRestBut (Ix := Unit) (Name := ℕ) (U := UR sig nD τ) (Lvl := ℕ) (Val := Elt F) spec2 c [cc2_scratch0]) ∗ ∃ r, prngReg c r) := by
  unfold Pipeline.ΦA; rw [scoped_split]

/-! ## The body in each of its three cases, on any whole buffers -/

set_option maxHeartbeats 1000000 in
/-- k = 0: from the inputs at `x0 x1`, the output block at `xi` (handed back untouched) and the accumulator at
    anything, the body ends with the accumulator written by the pieces `LS` (the zero store, then the sum). -/
noncomputable def run_first (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2_kernel i arg2 harg2 arg3 harg3 arg4 harg4 arg5 harg5) K } := by
  refine ⟨?_, fun xi E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- 0 < k < 7: the accumulator at `xs` ends written by the pieces `LS` (the sum added). -/
noncomputable def run_mid (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2_kernel i arg2 harg2 arg3 harg3 arg4 harg4 arg5 harg5) K } := by
  refine ⟨?_, fun xi E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- k = 7: the accumulator at `xs` ends written by `LS`, and the output block, at anything, by `LO`
    (the accumulator read back). -/
noncomputable def run_last (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Dif2

end
-- ==== Proof.Dif2.lean ====
/-
  One diffusion step, continued: what the accumulator and the output block hold after each grid point, the
  invariant that carries the accumulator from point to point, and the body's obligation at every point.
  After point t = 8 i + k the accumulator holds the sum, over the column blocks 0 … k of row block i, of the
  products of the blocks of S and of feat (starting again from zero at each k = 0); the output block is written at
  k = 7 only.
-/
import proofs.«172064_j31550829756529_1_alg».proof.Proof.Dif2Runs

set_option maxRecDepth 16384

noncomputable section

namespace Cert.KernelIdeal.Dif2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its stores cover the buffer, so the buffer is their read-back -/

theorem cover_first (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) (y : S1024x128.Idx) :
    ∃ pc ∈ (run_first c i arg2 harg2 arg3 harg3 arg4 harg4 arg5 harg5 hc0 hc1 x0 x1).1, y ∈ pc.1.set :=
  View.cover_of_tiledL (run_first c i arg2 harg2 arg3 harg3 arg4 harg4 arg5 harg5 hc0 hc1 x0 x1).1 S1024x128.size (by sl_kernel_rfl) y
/-- The accumulator after a point with k = 0. -/
def acc_first (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) : Vec F S1024x128 .f32 :=
  VS.read (Elt F) (VS.writes (Elt F) VS.junk (run_first c i arg2 harg2 arg3 harg3 arg4 harg4 arg5 harg5 hc0 hc1 x0 x1).1)

theorem cover_mid (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) (y : S1024x128.Idx) :
    ∃ pc ∈ (run_mid c i arg2 harg2 arg3 harg3 arg4 harg4 arg5 harg5 hc0 hc1 x0 x1 xs).1, y ∈ pc.1.set :=
  View.cover_of_tiledL (run_mid c i arg2 harg2 arg3 harg3 arg4 harg4 arg5 harg5 hc0 hc1 x0 x1 xs).1 S1024x128.size (by sl_kernel_rfl) y
/-- The accumulator after a point with 0 < k < 7, over what the point before left. -/
def acc_mid (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) : Vec F S1024x128 .f32 :=
  VS.read (Elt F) (VS.writes (Elt F) VS.junk (run_mid c i arg2 harg2 arg3 harg3 arg4 harg4 arg5 harg5 hc0 hc1 x0 x1 xs).1)

theorem cover_last_acc (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).2.1, y ∈ pc.1.set :=
  View.cover_of_tiledL (run_last c i arg2 harg2 arg3 harg3 arg4 harg4 arg5 harg5 hc0 hc1 x0 x1 xs).2.1 S1024x128.size (by sl_kernel_rfl) y
/-- The accumulator after a point with k = 7. -/
def acc_last (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VS.read (Elt F) (VS.writes (Elt F) VS.junk (run_last c i arg2 harg2 arg3 harg3 arg4 harg4 arg5 harg5 hc0 hc1 x0 x1 xs).2.1)
theorem cover_last_out (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).1, y ∈ pc.1.set :=
  View.cover_of_tiledL (run_last c i arg2 harg2 arg3 harg3 arg4 harg4 arg5 harg5 hc0 hc1 x0 x1 xs).1 S1024x128.size (by sl_kernel_rfl) y
/-- The output block after a point with k = 7. -/
def out_last (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VO.read (Elt F) (VO.writes (Elt F) VO.junk (run_last c i arg2 harg2 arg3 harg3 arg4 harg4 arg5 harg5 hc0 hc1 x0 x1 xs).1)

/-! ## The state point by point -/

/-- One point's effect on (output block, accumulator), given the accumulator the point before left: by the
    case k = t mod 8 puts the point in. Where the output block is not stored (k < 7) its component repeats the
    accumulator: nothing reads it there. -/
def step (c : Dev nD) (t : Fin cfg2.N) (prev : Vec F S1024x128 .f32) : Vec F S1024x128 .f32 × Vec F S1024x128 .f32 :=
  if h0 : t.val % 8 = 0 then
    (acc_first c (grid2.coords t) (ms_s t) (hs_s t) (ms_f t) (hs_f t) (ms_o t) (hs_o t) scr (Memref.isWhole_whole _) ((first_iff t).mpr h0) (fun h => by have := (last_iff t).mp h; omega) (blk V c 0 t) (blk V c 1 t),
     acc_first c (grid2.coords t) (ms_s t) (hs_s t) (ms_f t) (hs_f t) (ms_o t) (hs_o t) scr (Memref.isWhole_whole _) ((first_iff t).mpr h0) (fun h => by have := (last_iff t).mp h; omega) (blk V c 0 t) (blk V c 1 t))
  else if h1 : t.val % 8 = 7 then
    (out_last c (grid2.coords t) (ms_s t) (hs_s t) (ms_f t) (hs_f t) (ms_o t) (hs_o t) scr (Memref.isWhole_whole _) (fun h => h0 ((first_iff t).mp h)) ((last_iff t).mpr h1) (blk V c 0 t) (blk V c 1 t) prev,
     acc_last c (grid2.coords t) (ms_s t) (hs_s t) (ms_f t) (hs_f t) (ms_o t) (hs_o t) scr (Memref.isWhole_whole _) (fun h => h0 ((first_iff t).mp h)) ((last_iff t).mpr h1) (blk V c 0 t) (blk V c 1 t) prev)
  else
    (acc_mid c (grid2.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
     acc_mid c (grid2.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev)

/-- (output block, accumulator) after the point at position `n`. -/
def stateAt (c : Dev nD) : (n : ℕ) → n < cfg2.N → Vec F S1024x128 .f32 × Vec F S1024x128 .f32
  | 0, hn => step V c ⟨0, hn⟩ (VS.read (Elt F) VS.junk)
  | n + 1, hn => step V c ⟨n + 1, hn⟩ (stateAt c n (Nat.lt_of_succ_lt hn)).2

/-- The accumulator a point finds: what the point before left (at the very first point, anything). -/
def prevAcc (c : Dev nD) (t : Fin cfg2.N) : Vec F S1024x128 .f32 :=
  if h : t.val = 0 then VS.read (Elt F) VS.junk else (stateAt V c (t.val - 1) (Nat.lt_of_le_of_lt (Nat.sub_le _ _) t.isLt)).2

theorem stateAt_eq (c : Dev nD) (t : Fin cfg2.N) : stateAt V c t.val t.isLt = step V c t (prevAcc V c t) := by
  obtain ⟨n, hn⟩ := t
  cases n with
  | zero => rfl
  | succ n => rfl

theorem prevAcc_pos (c : Dev nD) (t : Fin cfg2.N) (h : t.val ≠ 0) :
    prevAcc V c t = (stateAt V c (t.val - 1) (Nat.lt_of_le_of_lt (Nat.sub_le _ _) t.isLt)).2 := dif_neg h

theorem step_first (c : Dev nD) (t : Fin cfg2.N) (prev : Vec F S1024x128 .f32) (h0 : t.val % 8 = 0) :
    step V c t prev =
      (acc_first c (grid2.coords t) (ms_s t) (hs_s t) (ms_f t) (hs_f t) (ms_o t) (hs_o t) scr (Memref.isWhole_whole _) ((first_iff t).mpr h0) (fun h => by have := (last_iff t).mp h; omega) (blk V c 0 t) (blk V c 1 t),
       acc_first c (grid2.coords t) (ms_s t) (hs_s t) (ms_f t) (hs_f t) (ms_o t) (hs_o t) scr (Memref.isWhole_whole _) ((first_iff t).mpr h0) (fun h => by have := (last_iff t).mp h; omega) (blk V c 0 t) (blk V c 1 t)) := dif_pos h0
theorem step_last (c : Dev nD) (t : Fin cfg2.N) (prev : Vec F S1024x128 .f32) (h0 : ¬t.val % 8 = 0) (h1 : t.val % 8 = 7) :
    step V c t prev =
      (out_last c (grid2.coords t) (ms_s t) (hs_s t) (ms_f t) (hs_f t) (ms_o t) (hs_o t) scr (Memref.isWhole_whole _) (fun h => h0 ((first_iff t).mp h)) ((last_iff t).mpr h1) (blk V c 0 t) (blk V c 1 t) prev,
       acc_last c (grid2.coords t) (ms_s t) (hs_s t) (ms_f t) (hs_f t) (ms_o t) (hs_o t) scr (Memref.isWhole_whole _) (fun h => h0 ((first_iff t).mp h)) ((last_iff t).mpr h1) (blk V c 0 t) (blk V c 1 t) prev) :=
  (dif_neg h0).trans (dif_pos h1)
theorem step_mid (c : Dev nD) (t : Fin cfg2.N) (prev : Vec F S1024x128 .f32) (h0 : ¬t.val % 8 = 0) (h1 : ¬t.val % 8 = 7) :
    step V c t prev =
      (acc_mid c (grid2.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
       acc_mid c (grid2.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev) :=
  (dif_neg h0).trans (dif_neg h1)

/-! ## The invariant and the proof data -/

/-- Before position `n`: at the region's entry every scoped buffer at anything; afterwards the accumulator at what
    the point before left, the other scoped buffers and the generator register beside it. -/
def Phi (c : Dev nD) : (n : ℕ) → n ≤ cfg2.N → sProp 𝕄
  | 0, _ => Pipeline.ΦA spec2 c
  | n + 1, hn => iprop(owns (c : Thread nD τ) scr fullShare (stateAt V c n hn).2 ∗ beside c)

theorem Phi_zero (c : Dev nD) (n : ℕ) (h : n ≤ cfg2.N) (hz : n = 0) : Phi V c n h = Pipeline.ΦA spec2 c := by
  subst hz; rfl
theorem Phi_succ (c : Dev nD) (n : ℕ) (hn : n < cfg2.N) :
    Phi V c (n + 1) hn = iprop(owns (c : Thread nD τ) scr fullShare (stateAt V c n hn).2 ∗ beside c) := rfl
theorem Phi_pos (c : Dev nD) (n : ℕ) (h : n ≤ cfg2.N) (hz : n ≠ 0) :
    Phi V c n h = iprop(owns (c : Thread nD τ) scr fullShare (stateAt V c (n - 1) (by omega)).2 ∗ beside c) := by
  cases n with
  | zero => exact absurd rfl hz
  | succ n => rfl

/-- The region's proof data: the arrays as the region finds them; after each point the inputs' buffers at their
    blocks and the output's at `stateAt`'s first component; the invariant `Phi`; nothing owed. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => (stateAt V c t.val t.isLt).1
  Φ t := Phi V c t.val (Nat.le_of_lt_succ t.isLt)
  q _ := fullShare
  owed _ := 0

theorem A_eq (c : Dev nD) (w : Fin cfg2.W) : (dat V c).A w = V c (Pipeline.arrRef spec2 w) := by
  dsimp only [dat]
theorem Phi_castSucc (c : Dev nD) (t : Fin cfg2.N) : (dat V c).Φ t.castSucc = Phi V c t.val (Nat.le_of_lt t.isLt) := by
  dsimp only [dat]; simp only [Fin.coe_castSucc]
theorem after_s (c : Dev nD) (t : Fin cfg2.N) : (dat V c).after 0 t = blk V c 0 t := by dsimp only [dat]
theorem after_f (c : Dev nD) (t : Fin cfg2.N) : (dat V c).after 1 t = blk V c 1 t := by dsimp only [dat]
/-- The output block after point `t`. -/
theorem after_o (c : Dev nD) (t : Fin cfg2.N) : (dat V c).after 2 t = (stateAt V c t.val t.isLt).1 := by dsimp only [dat]
theorem before_s (c : Dev nD) (t : Fin cfg2.N) (d) : (dat V c).before 0 t d = blk V c 0 t :=
  found_s V (dat V c) (A_eq V c 0) (after_s V c) t d
theorem before_f (c : Dev nD) (t : Fin cfg2.N) (d) : (dat V c).before 1 t d = blk V c 1 t :=
  found_f V (dat V c) (A_eq V c 1) (after_f V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms_s t) fullShare ((dat V c).before 0 t d))
    ∗ (∃ d, owns (c : Thread nD τ) (ms_f t) fullShare ((dat V c).before 1 t d))
    ∗ (∃ d, owns (c : Thread nD τ) (ms_o t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point: the inputs' buffers hold their blocks; k = t mod 8 says which case the point is in; the
    invariant hands the body the accumulator at what the point before left (at anything before the first point) and
    takes it back at this point's contents; the output block is handed back untouched unless k = 7. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_s, before_f]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_s t) fullShare ((dat V c).after 0 t) from by
    unfold Dat.leavesExact; rw [live_s t], after_s]
  rw [show (dat V c).leavesExact 1 t = owns (c : Thread nD τ) (ms_f t) fullShare ((dat V c).after 1 t) from by
    unfold Dat.leavesExact; rw [live_f t], after_f]
  have hN : t.val < 128 := lt_of_lt_of_eq t.isLt (show cfg2.N = 128 from N_2)
  rw [stateAt_eq V c t]
  by_cases h0 : t.val % 8 = 0
  · have hl : ¬cond_last (grid2.coords t) := fun h => by have := (last_iff t).mp h; omega
    rw [Dat.leavesExact_idle (dat V c) 2 t (idle_o t hl) (noflush_o t hl)]
    rw [step_first V c t _ h0]
    unfold acc_first; (try dsimp only)
    by_cases hz : t.val = 0
    · rw [Phi_castSucc V c t, Phi_zero V c _ _ hz, PhiA_eq]
      iintro ⟨⟨⟨HS, Hb⟩, Hg⟩, Ho, ⟨%d0, H0⟩, ⟨%d1, H1⟩, ⟨%d2, H2⟩⟩
      iapply ((run_first c (grid2.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
    · rw [Phi_castSucc V c t, Phi_pos V c _ _ hz]
      iintro ⟨⟨HS, Hb, Hg⟩, Ho, ⟨%d0, H0⟩, ⟨%d1, H1⟩, ⟨%d2, H2⟩⟩
      iapply ((run_first c (grid2.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
  · have hz : t.val ≠ 0 := fun h => h0 (by rw [h])
    rw [prevAcc_pos V c t hz]
    by_cases h1 : t.val % 8 = 7
    · rw [show (dat V c).leavesExact 2 t = owns (c : Thread nD τ) (ms_o t) fullShare ((dat V c).after 2 t) from by
        unfold Dat.leavesExact; rw [live_o t ((last_iff t).mpr h1)], after_o, stateAt_eq V c t, prevAcc_pos V c t hz]
      rw [step_last V c t _ h0 h1]
      unfold out_last acc_last; (try dsimp only)
      rw [Phi_castSucc V c t, Phi_pos V c _ _ hz]
      iintro ⟨⟨HS, Hb, Hg⟩, Ho, ⟨%d0, H0⟩, ⟨%d1, H1⟩, ⟨%d2, H2⟩⟩
      iapply ((run_last c (grid2.coords t) _ _ _ _ _ _ _ _ (fun h => h0 ((first_iff t).mp h)) ((last_iff t).mpr h1) (blk V c 0 t) (blk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hb Hg]
      · isplitl [HS]
        · unfold owns; iexists _; isplitr
          swap; · iexact HS
          ipureintro; exact View.read_writes_of_cover _ _ _ _ _ (cover_last_acc c _ _ _ _ _ _ _ _ _ _ _ _ _ _)
        isplitl [Hb]; · iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _)
    · have hl : ¬cond_last (grid2.coords t) := fun h => h1 ((last_iff t).mp h)
      rw [Dat.leavesExact_idle (dat V c) 2 t (idle_o t hl) (noflush_o t hl)]
      rw [step_mid V c t _ h0 h1]
      unfold acc_mid; (try dsimp only)
      rw [Phi_castSucc V c t, Phi_pos V c _ _ hz]
      iintro ⟨⟨HS, Hb, Hg⟩, Ho, ⟨%d0, H0⟩, ⟨%d1, H1⟩, ⟨%d2, H2⟩⟩
      iapply ((run_mid c (grid2.coords t) _ _ _ _ _ _ _ _ (fun h => h0 ((first_iff t).mp h)) hl (blk V c 0 t) (blk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_mid c _ _ _ _ _ _ _ _ _ _ _ _ _ _)
        isplitl [Hb]; · iexact Hb
        iexact Hg
      isplitl [Ho]; · iexact Ho
      isplitl [H0]; · iexact H0
      isplitl [H1]; · iexact H1
      iexists _; iexact H2

/-- The body obligation, at every point. -/
theorem body_obligation (c : Dev nD) : BodyObligation (dat (F := F) V c) (defs₀ (F := F)) Variants.none () Set.univ := fun t => by
  rw [bigSep_W2, bigSep_W2]
  exact sound_body V c t

/-- What the region's entry hands the kernel is the invariant before the first point. -/
theorem Phi_in (c : Dev nD) : Pipeline.ΦA spec2 c ⊢ (dat V c).Φ 0 := by
  rw [show (dat V c).Φ 0 = Phi V c 0 (Nat.zero_le _) from rfl, Phi_zero V c 0 _ rfl]
  try exact Idealize.SL.BI.Entails.refl _

/-- After the last point the invariant gives every scoped buffer back at some contents. -/
theorem Phi_out (c : Dev nD) : (dat V c).Φ (Fin.last cfg2.N) ⊢ Pipeline.ΦA spec2 c := by
  rw [show (dat V c).Φ (Fin.last cfg2.N) = Phi V c (Fin.last cfg2.N).val (Nat.le_of_lt_succ (Fin.last cfg2.N).isLt) from rfl,
    Phi_pos V c _ _ (by rw [Fin.val_last]; have : cfg2.N = 128 := N_2; omega), PhiA_eq]
  iintro ⟨HS, Hb, Hg⟩
  isplitl [HS Hb]
  · isplitl [HS]; · iexists _; iexact HS
    iexact Hb
  iexact Hg

end Cert.KernelIdeal.Dif2

end
-- ==== Proof.Dif3Runs.lean ====
/-
  One diffusion step: out = S @ feat over the extended reals, for S of 16384 × 16384 and feat of 16384 × 128.
  The grid has 16 × 8 points; point t = 8 i + k reads the block of S in rows [1024 i, 1024 i + 1024) and
  columns [2048 k, 2048 k + 2048) and the rows [2048 k, 2048 k + 2048) of feat. A scratch accumulator of
  1024 × 128 is kept from point to point: at k = 0 it is set to zero first; at every k the product of the two
  blocks is added to it; at k = 7 it is copied into the output block, which is written back as rows
  [1024 i, 1024 i + 1024) of the result. At the other points the output block is left alone and not written back.
  Stated for any float family and at any contents `V` of the core's buffers when the region is entered.
-/
import proofs.«172064_j31550829756529_1_alg».proof.Proof.Gen.KernelIdeal.Launch
import proofs.«172064_j31550829756529_1_alg».proof.Proof.Gen.KernelIdeal.Skeleton
import proofs.«172064_j31550829756529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents is decided coordinate by coordinate
set_option maxRecDepth 16384

noncomputable section

namespace Cert.KernelIdeal.Dif3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The input blocks -/

/-- Window `w`'s block at point `t`: the block (i, k) of S (w = 0), the row block k of feat (w = 1). -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input's staging buffer holds its block at every point (both are fetched at every point). -/
theorem found_s {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_f {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The two conditions of the body, in closed form over the grid -/

/-- "k = 0": the accumulator is reset. -/
abbrev cond_first (i : grid3.Coords) : Prop := (Scalar.cmpi .ne (Scalar.extui (Scalar.cmpi .eq (BitVec.ofNat 32 (i 1).val) 0#32)) 0#32) = 1#1
theorem first_iff : ∀ t : Fin cfg3.N, cond_first (grid3.coords t) ↔ t.val % 8 = 0 :=
  (by decide +kernel : ∀ t : Fin grid3.N, cond_first (grid3.coords t) ↔ t.val % 8 = 0)
/-- "k = 7": the accumulator is written out. -/
abbrev cond_last (i : grid3.Coords) : Prop := k3_cond2 i = 1#1
theorem last_iff : ∀ t : Fin cfg3.N, cond_last (grid3.coords t) ↔ t.val % 8 = 7 :=
  (by decide +kernel : ∀ t : Fin grid3.N, cond_last (grid3.coords t) ↔ t.val % 8 = 7)

/-- The inputs are never idle; the output block is idle, and not written back, exactly away from k = 7. -/
theorem live_s : ∀ t : Fin cfg3.N, cfg3.idle 0 (grid3.coords t) = false := by decide +kernel
theorem live_f : ∀ t : Fin cfg3.N, cfg3.idle 1 (grid3.coords t) = false := by decide +kernel
theorem idle_o : ∀ t : Fin cfg3.N, ¬cond_last (grid3.coords t) → cfg3.idle 2 (grid3.coords t) = true := by decide +kernel
theorem noflush_o : ∀ t : Fin cfg3.N, ¬cond_last (grid3.coords t) → (cfg3.win 2).flush t = false := by decide +kernel
theorem live_o : ∀ t : Fin cfg3.N, cond_last (grid3.coords t) → cfg3.idle 2 (grid3.coords t) = false := by decide +kernel

/-! ## The buffers the body is called with -/

abbrev ms_s (t : Fin cfg3.N) : Memref sig .tc .vmem S1024x2048 .f32 := win3_0.stage (cfg3.slots t 0)
abbrev hs_s (t : Fin cfg3.N) : (ms_s t).IsWhole := hstage3_0 ((cfg3.slots t 0).cast nbuf3_0)
abbrev ms_f (t : Fin cfg3.N) : Memref sig .tc .vmem S2048x128 .f32 := win3_1.stage (cfg3.slots t 1)
abbrev hs_f (t : Fin cfg3.N) : (ms_f t).IsWhole := hstage3_1 ((cfg3.slots t 1).cast nbuf3_1)
abbrev ms_o (t : Fin cfg3.N) : Memref sig .tc .vmem S1024x128 .f32 := win3_2.stage (cfg3.slots t 2)
abbrev hs_o (t : Fin cfg3.N) : (ms_o t).IsWhole := hstage3_2 ((cfg3.slots t 2).cast nbuf3_2)
/-- The accumulator: a whole scoped buffer of the kernel's own. -/
abbrev scr : Memref sig .tc .vmem S1024x128 .f32 := Memref.whole cc3_scratch0
/-- Views through which the accumulator's and the output block's contents are stated. -/
abbrev VS : View sig .tc .vmem S1024x128 .f32 := scr.view
abbrev VO : View sig .tc .vmem S1024x128 .f32 := (Memref.whole cc3_stg2_0 : Memref sig .tc .vmem S1024x128 .f32).view

/-- The core's scoped buffers outside this region's staging: the accumulator, and the rest unopened. -/
theorem scoped_split (c : Dev nD) :
    (Pipeline.scopedRest (Ix := Unit) (Name := ℕ) (U := UR sig nD τ) (Lvl := ℕ) (Val := Elt F) spec3 c : sProp 𝕄)
      = iprop((∃ d, owns (c : Thread nD τ) scr fullShare d)
          ∗ Pipeline.scopedRestBut (Ix := Unit) (Name := ℕ) (U := UR sig nD τ) (Lvl := ℕ) (Val := Elt F) spec3 c [cc3_scratch0]) := by
  rw [Pipeline.scopedRest_split_of_list spec3 c [cc3_scratch0] (by decide) (by decide)]
  simp only [scr, owns_whole]; try rfl

/-- What rides beside the accumulator in the invariant: the other scoped buffers and the generator register. -/
abbrev beside (c : Dev nD) : sProp 𝕄 :=
  iprop(Pipeline.scopedRestBut (Ix := Unit) (Name := ℕ) (U := UR sig nD τ) (Lvl := ℕ) (Val := Elt F) spec3 c [cc3_scratch0] ∗ ∃ r, prngReg c r)

theorem PhiA_eq (c : Dev nD) :
    (Pipeline.ΦA spec3 c : sProp 𝕄) = iprop(iprop((∃ d, owns (c : Thread nD τ) scr fullShare d)
          ∗ Pipeline.scopedRestBut (Ix := Unit) (Name := ℕ) (U := UR sig nD τ) (Lvl := ℕ) (Val := Elt F) spec3 c [cc3_scratch0]) ∗ ∃ r, prngReg c r) := by
  unfold Pipeline.ΦA; rw [scoped_split]

/-! ## The body in each of its three cases, on any whole buffers -/

set_option maxHeartbeats 1000000 in
/-- k = 0: from the inputs at `x0 x1`, the output block at `xi` (handed back untouched) and the accumulator at
    anything, the body ends with the accumulator written by the pieces `LS` (the zero store, then the sum). -/
noncomputable def run_first (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc3_kernel i arg2 harg2 arg3 harg3 arg4 harg4 arg5 harg5) K } := by
  refine ⟨?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- 0 < k < 7: the accumulator at `xs` ends written by the pieces `LS` (the sum added). -/
noncomputable def run_mid (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) :
    { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc3_kernel i arg2 harg2 arg3 harg3 arg4 harg4 arg5 harg5) K } := by
  refine ⟨?_, fun xi E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- k = 7: the accumulator at `xs` ends written by `LS`, and the output block, at anything, by `LO`
    (the accumulator read back). -/
noncomputable def run_last (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc3_kernel i arg2 harg2 arg3 harg3 arg4 harg4 arg5 harg5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Dif3

end
-- ==== Proof.Dif3.lean ====
/-
  One diffusion step, continued: what the accumulator and the output block hold after each grid point, the
  invariant that carries the accumulator from point to point, and the body's obligation at every point.
  After point t = 8 i + k the accumulator holds the sum, over the column blocks 0 … k of row block i, of the
  products of the blocks of S and of feat (starting again from zero at each k = 0); the output block is written at
  k = 7 only.
-/
import proofs.«172064_j31550829756529_1_alg».proof.Proof.Dif3Runs

set_option maxRecDepth 16384

noncomputable section

namespace Cert.KernelIdeal.Dif3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves: its stores cover the buffer, so the buffer is their read-back -/

theorem cover_first (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) (y : S1024x128.Idx) :
    ∃ pc ∈ (run_first c i arg2 harg2 arg3 harg3 arg4 harg4 arg5 harg5 hc0 hc1 x0 x1).1, y ∈ pc.1.set :=
  View.cover_of_tiledL (run_first c i arg2 harg2 arg3 harg3 arg4 harg4 arg5 harg5 hc0 hc1 x0 x1).1 S1024x128.size (by sl_kernel_rfl) y
/-- The accumulator after a point with k = 0. -/
def acc_first (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : cond_first i) (hc1 : ¬cond_last i)
    (x0 : Vec F S1024x2048 .f32) (x1 : Vec F S2048x128 .f32) : Vec F S1024x128 .f32 :=
  VS.read (Elt F) (VS.writes (Elt F) VS.junk (run_first c i arg2 harg2 arg3 harg3 arg4 harg4 arg5 harg5 hc0 hc1 x0 x1).1)

theorem cover_mid (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) (y : S1024x128.Idx) :
    ∃ pc ∈ (run_mid c i arg2 harg2 arg3 harg3 arg4 harg4 arg5 harg5 hc0 hc1 x0 x1 xs).1, y ∈ pc.1.set :=
  View.cover_of_tiledL (run_mid c i arg2 harg2 arg3 harg3 arg4 harg4 arg5 harg5 hc0 hc1 x0 x1 xs).1 S1024x128.size (by sl_kernel_rfl) y
/-- The accumulator after a point with 0 < k < 7, over what the point before left. -/
def acc_mid (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : ¬cond_last i)
    (x0 : Vec F S1024x2048 .f32) (x1 : Vec F S2048x128 .f32) (xs : Vec F S1024x128 .f32) : Vec F S1024x128 .f32 :=
  VS.read (Elt F) (VS.writes (Elt F) VS.junk (run_mid c i arg2 harg2 arg3 harg3 arg4 harg4 arg5 harg5 hc0 hc1 x0 x1 xs).1)

theorem cover_last_acc (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).2.1, y ∈ pc.1.set :=
  View.cover_of_tiledL (run_last c i arg2 harg2 arg3 harg3 arg4 harg4 arg5 harg5 hc0 hc1 x0 x1 xs).2.1 S1024x128.size (by sl_kernel_rfl) y
/-- The accumulator after a point with k = 7. -/
def acc_last (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VS.read (Elt F) (VS.writes (Elt F) VS.junk (run_last c i arg2 harg2 arg3 harg3 arg4 harg4 arg5 harg5 hc0 hc1 x0 x1 xs).2.1)
theorem cover_last_out (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) (y : S1024x128.Idx) :
    ∃ pc ∈ (run_last c i arg2 harg2 arg3 harg3 arg4 harg4 arg5 harg5 hc0 hc1 x0 x1 xs).1, y ∈ pc.1.set :=
  View.cover_of_tiledL (run_last c i arg2 harg2 arg3 harg3 arg4 harg4 arg5 harg5 hc0 hc1 x0 x1 xs).1 S1024x128.size (by sl_kernel_rfl) y
/-- The output block after a point with k = 7. -/
def out_last (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬cond_first i) (hc1 : cond_last i)
    (x0 : Vec F S1024x2048 .f32) (x1 : Vec F S2048x128 .f32) (xs : Vec F S1024x128 .f32) : Vec F S1024x128 .f32 :=
  VO.read (Elt F) (VO.writes (Elt F) VO.junk (run_last c i arg2 harg2 arg3 harg3 arg4 harg4 arg5 harg5 hc0 hc1 x0 x1 xs).1)

/-! ## The state point by point -/

/-- One point's effect on (output block, accumulator), given the accumulator the point before left: by the
    case k = t mod 8 puts the point in. Where the output block is not stored (k < 7) its component repeats the
    accumulator: nothing reads it there. -/
def step (c : Dev nD) (t : Fin cfg3.N) (prev : Vec F S1024x128 .f32) : Vec F S1024x128 .f32 × Vec F S1024x128 .f32 :=
  if h0 : t.val % 8 = 0 then
    (acc_first c (grid3.coords t) (ms_s t) (hs_s t) (ms_f t) (hs_f t) (ms_o t) (hs_o t) scr (Memref.isWhole_whole _) ((first_iff t).mpr h0) (fun h => by have := (last_iff t).mp h; omega) (blk V c 0 t) (blk V c 1 t),
     acc_first c (grid3.coords t) (ms_s t) (hs_s t) (ms_f t) (hs_f t) (ms_o t) (hs_o t) scr (Memref.isWhole_whole _) ((first_iff t).mpr h0) (fun h => by have := (last_iff t).mp h; omega) (blk V c 0 t) (blk V c 1 t))
  else if h1 : t.val % 8 = 7 then
    (out_last c (grid3.coords t) (ms_s t) (hs_s t) (ms_f t) (hs_f t) (ms_o t) (hs_o t) scr (Memref.isWhole_whole _) (fun h => h0 ((first_iff t).mp h)) ((last_iff t).mpr h1) (blk V c 0 t) (blk V c 1 t) prev,
     acc_last c (grid3.coords t) (ms_s t) (hs_s t) (ms_f t) (hs_f t) (ms_o t) (hs_o t) scr (Memref.isWhole_whole _) (fun h => h0 ((first_iff t).mp h)) ((last_iff t).mpr h1) (blk V c 0 t) (blk V c 1 t) prev)
  else
    (acc_mid c (grid3.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
     acc_mid c (grid3.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev)

/-- (output block, accumulator) after the point at position `n`. -/
def stateAt (c : Dev nD) : (n : ℕ) → n < cfg3.N → Vec F S1024x128 .f32 × Vec F S1024x128 .f32
  | 0, hn => step V c ⟨0, hn⟩ (VS.read (Elt F) VS.junk)
  | n + 1, hn => step V c ⟨n + 1, hn⟩ (stateAt c n (Nat.lt_of_succ_lt hn)).2

/-- The accumulator a point finds: what the point before left (at the very first point, anything). -/
def prevAcc (c : Dev nD) (t : Fin cfg3.N) : Vec F S1024x128 .f32 :=
  if h : t.val = 0 then VS.read (Elt F) VS.junk else (stateAt V c (t.val - 1) (Nat.lt_of_le_of_lt (Nat.sub_le _ _) t.isLt)).2

theorem stateAt_eq (c : Dev nD) (t : Fin cfg3.N) : stateAt V c t.val t.isLt = step V c t (prevAcc V c t) := by
  obtain ⟨n, hn⟩ := t
  cases n with
  | zero => rfl
  | succ n => rfl

theorem prevAcc_pos (c : Dev nD) (t : Fin cfg3.N) (h : t.val ≠ 0) :
    prevAcc V c t = (stateAt V c (t.val - 1) (Nat.lt_of_le_of_lt (Nat.sub_le _ _) t.isLt)).2 := dif_neg h

theorem step_first (c : Dev nD) (t : Fin cfg3.N) (prev : Vec F S1024x128 .f32) (h0 : t.val % 8 = 0) :
    step V c t prev =
      (acc_first c (grid3.coords t) (ms_s t) (hs_s t) (ms_f t) (hs_f t) (ms_o t) (hs_o t) scr (Memref.isWhole_whole _) ((first_iff t).mpr h0) (fun h => by have := (last_iff t).mp h; omega) (blk V c 0 t) (blk V c 1 t),
       acc_first c (grid3.coords t) (ms_s t) (hs_s t) (ms_f t) (hs_f t) (ms_o t) (hs_o t) scr (Memref.isWhole_whole _) ((first_iff t).mpr h0) (fun h => by have := (last_iff t).mp h; omega) (blk V c 0 t) (blk V c 1 t)) := dif_pos h0
theorem step_last (c : Dev nD) (t : Fin cfg3.N) (prev : Vec F S1024x128 .f32) (h0 : ¬t.val % 8 = 0) (h1 : t.val % 8 = 7) :
    step V c t prev =
      (out_last c (grid3.coords t) (ms_s t) (hs_s t) (ms_f t) (hs_f t) (ms_o t) (hs_o t) scr (Memref.isWhole_whole _) (fun h => h0 ((first_iff t).mp h)) ((last_iff t).mpr h1) (blk V c 0 t) (blk V c 1 t) prev,
       acc_last c (grid3.coords t) (ms_s t) (hs_s t) (ms_f t) (hs_f t) (ms_o t) (hs_o t) scr (Memref.isWhole_whole _) (fun h => h0 ((first_iff t).mp h)) ((last_iff t).mpr h1) (blk V c 0 t) (blk V c 1 t) prev) :=
  (dif_neg h0).trans (dif_pos h1)
theorem step_mid (c : Dev nD) (t : Fin cfg3.N) (prev : Vec F S1024x128 .f32) (h0 : ¬t.val % 8 = 0) (h1 : ¬t.val % 8 = 7) :
    step V c t prev =
      (acc_mid c (grid3.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev,
       acc_mid c (grid3.coords t) (ms_s t) (hs_s t) (ms_f t) (hs_f t) (ms_o t) (hs_o t) scr (Memref.isWhole_whole _) (fun h => h0 ((first_iff t).mp h)) (fun h => h1 ((last_iff t).mp h)) (blk V c 0 t) (blk V c 1 t) prev) :=
  (dif_neg h0).trans (dif_neg h1)

/-! ## The invariant and the proof data -/

/-- Before position `n`: at the region's entry every scoped buffer at anything; afterwards the accumulator at what
    the point before left, the other scoped buffers and the generator register beside it. -/
def Phi (c : Dev nD) : (n : ℕ) → n ≤ cfg3.N → sProp 𝕄
  | 0, _ => Pipeline.ΦA spec3 c
  | n + 1, hn => iprop(owns (c : Thread nD τ) scr fullShare (stateAt V c n hn).2 ∗ beside c)

theorem Phi_zero (c : Dev nD) (n : ℕ) (h : n ≤ cfg3.N) (hz : n = 0) : Phi V c n h = Pipeline.ΦA spec3 c := by
  subst hz; rfl
theorem Phi_succ (c : Dev nD) (n : ℕ) (hn : n < cfg3.N) :
    Phi V c (n + 1) hn = iprop(owns (c : Thread nD τ) scr fullShare (stateAt V c n hn).2 ∗ beside c) := rfl
theorem Phi_pos (c : Dev nD) (n : ℕ) (h : n ≤ cfg3.N) (hz : n ≠ 0) :
    Phi V c n h = iprop(owns (c : Thread nD τ) scr fullShare (stateAt V c (n - 1) (by omega)).2 ∗ beside c) := by
  cases n with
  | zero => exact absurd rfl hz
  | succ n => rfl

/-- The region's proof data: the arrays as the region finds them; after each point the inputs' buffers at their
    blocks and the output's at `stateAt`'s first component; the invariant `Phi`; nothing owed. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => (stateAt V c t.val t.isLt).1
  Φ t := Phi V c t.val (Nat.le_of_lt_succ t.isLt)
  q _ := fullShare
  owed _ := 0

theorem A_eq (c : Dev nD) (w : Fin cfg3.W) : (dat V c).A w = V c (Pipeline.arrRef spec3 w) := by
  dsimp only [dat]
theorem Phi_castSucc (c : Dev nD) (t : Fin cfg3.N) : (dat V c).Φ t.castSucc = Phi V c t.val (Nat.le_of_lt t.isLt) := by
  dsimp only [dat]; simp only [Fin.coe_castSucc]
theorem after_s (c : Dev nD) (t : Fin cfg3.N) : (dat V c).after 0 t = blk V c 0 t := by dsimp only [dat]
theorem after_f (c : Dev nD) (t : Fin cfg3.N) : (dat V c).after 1 t = blk V c 1 t := by dsimp only [dat]
/-- The output block after point `t`. -/
theorem after_o (c : Dev nD) (t : Fin cfg3.N) : (dat V c).after 2 t = (stateAt V c t.val t.isLt).1 := by dsimp only [dat]
theorem before_s (c : Dev nD) (t : Fin cfg3.N) (d) : (dat V c).before 0 t d = blk V c 0 t :=
  found_s V (dat V c) (A_eq V c 0) (after_s V c) t d
theorem before_f (c : Dev nD) (t : Fin cfg3.N) (d) : (dat V c).before 1 t d = blk V c 1 t :=
  found_f V (dat V c) (A_eq V c 1) (after_f V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (ms_s t) fullShare ((dat V c).before 0 t d))
    ∗ (∃ d, owns (c : Thread nD τ) (ms_f t) fullShare ((dat V c).before 1 t d))
    ∗ (∃ d, owns (c : Thread nD τ) (ms_o t) fullShare ((dat V c).before 2 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
/-- The body at any point: the inputs' buffers hold their blocks; k = t mod 8 says which case the point is in; the
    invariant hands the body the accumulator at what the point before left (at anything before the first point) and
    takes it back at this point's contents; the output block is handed back untouched unless k = 7. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_s, before_f]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_s t) fullShare ((dat V c).after 0 t) from by
    unfold Dat.leavesExact; rw [live_s t], after_s]
  rw [show (dat V c).leavesExact 1 t = owns (c : Thread nD τ) (ms_f t) fullShare ((dat V c).after 1 t) from by
    unfold Dat.leavesExact; rw [live_f t], after_f]
  have hN : t.val < 128 := lt_of_lt_of_eq t.isLt (show cfg3.N = 128 from N_3)
  rw [stateAt_eq V c t]
  by_cases h0 : t.val % 8 = 0
  · have hl : ¬cond_last (grid3.coords t) := fun h => by have := (last_iff t).mp h; omega
    rw [Dat.leavesExact_idle (dat V c) 2 t (idle_o t hl) (noflush_o t hl)]
    rw [step_first V c t _ h0]
    unfold acc_first; (try dsimp only)
    by_cases hz : t.val = 0
    · rw [Phi_castSucc V c t, Phi_zero V c _ _ hz, PhiA_eq]
      iintro ⟨⟨⟨HS, Hb⟩, Hg⟩, Ho, ⟨%d0, H0⟩, ⟨%d1, H1⟩, ⟨%d2, H2⟩⟩
      iapply ((run_first c (grid3.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
    · rw [Phi_castSucc V c t, Phi_pos V c _ _ hz]
      iintro ⟨⟨HS, Hb, Hg⟩, Ho, ⟨%d0, H0⟩, ⟨%d1, H1⟩, ⟨%d2, H2⟩⟩
      iapply ((run_first c (grid3.coords t) _ _ _ _ _ _ _ _ ((first_iff t).mpr h0) hl (blk V c 0 t) (blk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_first c _ _ _ _ _ _ _ _ _ _ _ _ _)
        isplitl [Hb]; · iexact Hb
        iexact Hg
      isplitl [Ho]; · iexact Ho
      isplitl [H0]; · iexact H0
      isplitl [H1]; · iexact H1
      iexists _; iexact H2
  · have hz : t.val ≠ 0 := fun h => h0 (by rw [h])
    rw [prevAcc_pos V c t hz]
    by_cases h1 : t.val % 8 = 7
    · rw [show (dat V c).leavesExact 2 t = owns (c : Thread nD τ) (ms_o t) fullShare ((dat V c).after 2 t) from by
        unfold Dat.leavesExact; rw [live_o t ((last_iff t).mpr h1)], after_o, stateAt_eq V c t, prevAcc_pos V c t hz]
      rw [step_last V c t _ h0 h1]
      unfold out_last acc_last; (try dsimp only)
      rw [Phi_castSucc V c t, Phi_pos V c _ _ hz]
      iintro ⟨⟨HS, Hb, Hg⟩, Ho, ⟨%d0, H0⟩, ⟨%d1, H1⟩, ⟨%d2, H2⟩⟩
      iapply ((run_last c (grid3.coords t) _ _ _ _ _ _ _ _ (fun h => h0 ((first_iff t).mp h)) ((last_iff t).mpr h1) (blk V c 0 t) (blk V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hb Hg]
      · isplitl [HS]
        · unfold owns; iexists _; isplitr
          swap; · iexact HS
          ipureintro; exact View.read_writes_of_cover _ _ _ _ _ (cover_last_acc c _ _ _ _ _ _ _ _ _ _ _ _ _ _)
        isplitl [Hb]; · iexact Hb
        iexact Hg
      isplitl [Ho]; · iexact Ho
      isplitl [H0]; · iexact H0
      isplitl [H1]; · iexact H1
      unfold owns; iexists _; isplitr
      swap; · iexact H2
      ipureintro; exact View.read_writes_of_cover _ _ _ _ _ (cover_last_out c _ _ _ _ _ _ _ _ _ _ _ _ _ _)
    · have hl : ¬cond_last (grid3.coords t) := fun h => h1 ((last_iff t).mp h)
      rw [Dat.leavesExact_idle (dat V c) 2 t (idle_o t hl) (noflush_o t hl)]
      rw [step_mid V c t _ h0 h1]
      unfold acc_mid; (try dsimp only)
      rw [Phi_castSucc V c t, Phi_pos V c _ _ hz]
      iintro ⟨⟨HS, Hb, Hg⟩, Ho, ⟨%d0, H0⟩, ⟨%d1, H1⟩, ⟨%d2, H2⟩⟩
      iapply ((run_mid c (grid3.coords t) _ _ _ _ _ _ _ _ (fun h => h0 ((first_iff t).mp h)) hl (blk V c 0 t) (blk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hb Hg]
      · isplitl [HS]
        · unfold owns; iexists _; isplitr
          swap; · iexact HS
          ipureintro; exact View.read_writes_of_cover _ _ _ _ _ (cover_mid c _ _ _ _ _ _ _ _ _ _ _ _ _ _)
        isplitl [Hb]; · iexact Hb
        iexact Hg
      isplitl [Ho]; · iexact Ho
      isplitl [H0]; · iexact H0
      isplitl [H1]; · iexact H1
      iexists _; iexact H2

/-- The body obligation, at every point. -/
theorem body_obligation (c : Dev nD) : BodyObligation (dat (F := F) V c) (defs₀ (F := F)) Variants.none () Set.univ := fun t => by
  rw [bigSep_W3, bigSep_W3]
  exact sound_body V c t

/-- What the region's entry hands the kernel is the invariant before the first point. -/
theorem Phi_in (c : Dev nD) : Pipeline.ΦA spec3 c ⊢ (dat V c).Φ 0 := by
  rw [show (dat V c).Φ 0 = Phi V c 0 (Nat.zero_le _) from rfl, Phi_zero V c 0 _ rfl]
  try exact Idealize.SL.BI.Entails.refl _

/-- After the last point the invariant gives every scoped buffer back at some contents. -/
theorem Phi_out (c : Dev nD) : (dat V c).Φ (Fin.last cfg3.N) ⊢ Pipeline.ΦA spec3 c := by
  rw [show (dat V c).Φ (Fin.last cfg3.N) = Phi V c (Fin.last cfg3.N).val (Nat.le_of_lt_succ (Fin.last cfg3.N).isLt) from rfl,
    Phi_pos V c _ _ (by rw [Fin.val_last]; have : cfg3.N = 128 := N_3; omega), PhiA_eq]
  iintro ⟨HS, Hb, Hg⟩
  isplitl [HS Hb]
  · isplitl [HS]; · iexists _; iexact HS
    iexact Hb
  iexact Hg

end Cert.KernelIdeal.Dif3

end
-- ==== Proof.Whole.lean ====
/-
  The whole program: the four regions in @main's order. Between two regions every unscoped buffer of the core is
  held at a named valuation: the launch memory, then after each region its arrays at what its write-backs leave and
  every other buffer as it was. The run ends with every unscoped buffer at the last valuation; read at the four
  arguments that is the launch memory (no region writes an argument), and at the result buffer it is what the
  last region's write-backs leave.
-/
import proofs.«172064_j31550829756529_1_alg».proof.Proof.Lin
import proofs.«172064_j31550829756529_1_alg».proof.Proof.Dif1
import proofs.«172064_j31550829756529_1_alg».proof.Proof.Dif2
import proofs.«172064_j31550829756529_1_alg».proof.Proof.Dif3

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what its write-backs leave, every other buffer as the region found it. -/
def W1 (c : Dev nD) : Valuation τ sig (Elt F) :=
  Pipeline.withArrays spec0 c (W0 m ρ c) fun w => (Lin.dat (V0 m ρ) c).arrAt w cfg0.N
theorem W1_arr (c : Dev nD) (w : Fin cfg0.W) :
    W1 m ρ c (Proc.devRef .tc (Pipeline.arrRef spec0 w)) = (Lin.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem left0 (c : Dev nD) (w : Fin cfg0.W) : (Lin.dat (V0 m ρ) c).arrAt w cfg0.N = V1 m ρ c (Pipeline.arrRef spec0 w) :=
  (W1_arr m ρ c w).symm
theorem kept0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what its write-backs leave, every other buffer as the region found it. -/
def W2 (c : Dev nD) : Valuation τ sig (Elt F) :=
  Pipeline.withArrays spec1 c (W1 m ρ c) fun w => (Dif1.dat (V1 m ρ) c).arrAt w cfg1.N
theorem W2_arr (c : Dev nD) (w : Fin cfg1.W) :
    W2 m ρ c (Proc.devRef .tc (Pipeline.arrRef spec1 w)) = (Dif1.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem left1 (c : Dev nD) (w : Fin cfg1.W) : (Dif1.dat (V1 m ρ) c).arrAt w cfg1.N = V2 m ρ c (Pipeline.arrRef spec1 w) :=
  (W2_arr m ρ c w).symm
theorem kept1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what its write-backs leave, every other buffer as the region found it. -/
def W3 (c : Dev nD) : Valuation τ sig (Elt F) :=
  Pipeline.withArrays spec2 c (W2 m ρ c) fun w => (Dif2.dat (V2 m ρ) c).arrAt w cfg2.N
theorem W3_arr (c : Dev nD) (w : Fin cfg2.W) :
    W3 m ρ c (Proc.devRef .tc (Pipeline.arrRef spec2 w)) = (Dif2.dat (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem left2 (c : Dev nD) (w : Fin cfg2.W) : (Dif2.dat (V2 m ρ) c).arrAt w cfg2.N = V3 m ρ c (Pipeline.arrRef spec2 w) :=
  (W3_arr m ρ c w).symm
theorem kept2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After region 3: its arrays at what its write-backs leave, every other buffer as the region found it. -/
def W4 (c : Dev nD) : Valuation τ sig (Elt F) :=
  Pipeline.withArrays spec3 c (W3 m ρ c) fun w => (Dif3.dat (V3 m ρ) c).arrAt w cfg3.N
theorem W4_arr (c : Dev nD) (w : Fin cfg3.W) :
    W4 m ρ c (Proc.devRef .tc (Pipeline.arrRef spec3 w)) = (Dif3.dat (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m ρ c b
theorem left3 (c : Dev nD) (w : Fin cfg3.W) : (Dif3.dat (V3 m ρ) c).arrAt w cfg3.N = V4 m ρ c (Pipeline.arrRef spec3 w) :=
  (W4_arr m ρ c w).symm
theorem kept3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)

/-! ## No region writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((Lin.dat (V0 m ρ) c).arrAt_in 0 rfl _).trans (Lin.A_eq (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((Dif3.dat (V3 m ρ) c).arrAt_in 0 rfl _).trans (Dif3.A_eq (V3 m ρ) c 0))
    _ = W2 m ρ c (Proc.devRef .tc main_arg1) := (W3_arr m ρ c 0).trans (((Dif2.dat (V2 m ρ) c).arrAt_in 0 rfl _).trans (Dif2.A_eq (V2 m ρ) c 0))
    _ = W1 m ρ c (Proc.devRef .tc main_arg1) := (W2_arr m ρ c 0).trans (((Dif1.dat (V1 m ρ) c).arrAt_in 0 rfl _).trans (Dif1.A_eq (V1 m ρ) c 0))
    _ = W0 m ρ c (Proc.devRef .tc main_arg1) := W1_of_ne m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 2).trans (((Lin.dat (V0 m ρ) c).arrAt_in 2 rfl _).trans (Lin.A_eq (V0 m ρ) c 2))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := (W1_arr m ρ c 1).trans (((Lin.dat (V0 m ρ) c).arrAt_in 1 rfl _).trans (Lin.A_eq (V0 m ρ) c 1))
    _ = m ((c : Thread nD τ).loc main_arg3) := rfl

/-! ## The proof data of the four regions, and what rides between them -/

abbrev adm : (p : Fin 4) → (pcfgs (F := F) p).Adm := fun p => (cfgs p).toPCfg_adm
/-- Each region's proof data at the contents it is entered with. -/
def pdats : (p : Fin 4) → (c : Dev nD) → Dat τ (Elt F) Unit ℕ (UR sig nD τ) ℕ (Pipeline.pin (pcfgs (F := F)) adm p) c
  | ⟨0, _⟩ => fun c => Lin.dat (V0 m ρ) c
  | ⟨1, _⟩ => fun c => Dif1.dat (V1 m ρ) c
  | ⟨2, _⟩ => fun c => Dif2.dat (V2 m ρ) c
  | ⟨3, _⟩ => fun c => Dif3.dat (V3 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at `W4`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment: entered with every unscoped buffer at `W0`, left with them at `W1`. Its arrays are
    taken out of the unscoped buffers at entry and put back at what the pipeline leaves at exit; the generator
    register passes through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lin.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W1`, left with them at `W2`. Its arrays are
    taken out of the unscoped buffers at entry and put back at what the pipeline leaves at exit; the generator
    register passes through the invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Dif1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec1 c ∗ ∃ r, prngReg c r) : sProp 𝕄)
        ⊢ (pdats m ρ 1 c).Φ 0 := Dif1.Phi_in (V1 m ρ) c
    iintro ⟨Hp, -, Hr⟩
    iapply h1
    isplitl [Hr]; · iexact Hr
    iexact Hp
  hout c := by
    rw [Pipeline.ownSems0_none]
    have h1 : (pdats m ρ 1 c).Φ (Fin.last _)
        ⊢ (iprop(Pipeline.scopedRest (Ix := Unit) (Name := ℕ) (U := UR sig nD τ) (Lvl := ℕ) (Val := Elt F) spec1 c ∗ ∃ r, prngReg c r) : sProp 𝕄) :=
      Dif1.Phi_out (V1 m ρ) c
    refine h1.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W2`, left with them at `W3`. Its arrays are
    taken out of the unscoped buffers at entry and put back at what the pipeline leaves at exit; the generator
    register passes through the invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Dif2.body_obligation (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec2 c ∗ ∃ r, prngReg c r) : sProp 𝕄)
        ⊢ (pdats m ρ 2 c).Φ 0 := Dif2.Phi_in (V2 m ρ) c
    iintro ⟨Hp, -, Hr⟩
    iapply h1
    isplitl [Hr]; · iexact Hr
    iexact Hp
  hout c := by
    rw [Pipeline.ownSems0_none]
    have h1 : (pdats m ρ 2 c).Φ (Fin.last _)
        ⊢ (iprop(Pipeline.scopedRest (Ix := Unit) (Name := ℕ) (U := UR sig nD τ) (Lvl := ℕ) (Val := Elt F) spec2 c ∗ ∃ r, prngReg c r) : sProp 𝕄) :=
      Dif2.Phi_out (V2 m ρ) c
    refine h1.trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered with every unscoped buffer at `W3`, left with them at `W4`. Its arrays are
    taken out of the unscoped buffers at entry and put back at what the pipeline leaves at exit; the generator
    register passes through the invariant; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Dif3.body_obligation (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest (Ix := Unit) (Name := ℕ) (U := UR sig nD τ) (Lvl := ℕ) (Val := Elt F) spec3 c ∗ ∃ r, prngReg c r) : sProp 𝕄)
        ⊢ (pdats m ρ 3 c).Φ 0 := Dif3.Phi_in (V3 m ρ) c
    iintro ⟨Hp, -, Hr⟩
    iapply h1
    isplitl [Hr]; · iexact Hr
    iexact Hp
  hout c := by
    rw [Pipeline.ownSems0_none]
    have h1 : (pdats m ρ 3 c).Φ (Fin.last _)
        ⊢ (iprop(Pipeline.scopedRest (Ix := Unit) (Name := ℕ) (U := UR sig nD τ) (Lvl := ℕ) (Val := Elt F) spec3 c ∗ ∃ r, prngReg c r) : sProp 𝕄) :=
      Dif3.Phi_out (V3 m ρ) c
    refine h1.trans ?_
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (left3 m ρ c) (kept3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m ρ) () defs₀ 𝒱₀ L lv) :=
  [ .region (reg0 m ρ), .region (reg1 m ρ), .region (reg2 m ρ), .region (reg3 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, with every
    unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The result buffer ends at what the last region's write-backs leave, the arguments as launched. -/
theorem result : θ_run defs (onTc (τ := τ) (main (F := F))) ⟨m, fun _ => 0, ρ⟩ (fun r => ∀ c : Dev nD,
      r.2.mem ((c.tc : Thread nD τ).loc main_v3) = (Dif3.dat (V3 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (W4_arr m ρ c 2),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Whole

end
-- ==== Proof.PayAt.lean ====
/-
  The arithmetic of the four kernel bodies, read at one index, at the ideal values (a float is an extended real, a
  change of format is the identity, a block product into a zero accumulator is the plain sum of products).

  * the first body's block is  Σ_k ((x ∘ mask) · c)[p, k] · W[k, q],  c the constant word kept unevaluated;
  * the accumulator's initial block is 0;
  * one accumulation step adds  Σ_k S[p, k] · feat[k, q]  to the accumulator's block (the same text in the three
    propagation bodies);
  * the last body's written block is max(·, 0).
-/
import proofs.«172064_j31550829756529_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayAt

open Cert.KernelIdeal Cert.KernelIdeal.Gen Idealize.ShloMosaic Idealize.ShloMosaic.ValueIdx

/-! ## The operand indices of the two block products

Both contract the left operand's axis 1 with the right operand's axis 0: at the output index (p, q) and the contraction
coordinate k the left operand is read at (p, k) and the right one at (k, q). One fact per operand and axis. -/

theorem lhsLin_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem lhsLin_1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem rhsLin_0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem rhsLin_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

theorem lhsStep_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhsStep_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhsStep_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhsStep_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-! ## A block product into the zero accumulator, as a sum over the contraction coordinate -/

/-- The [2048, 512] × [512, 128] product of the first body. -/
theorem matmulLin_at (L : FVec Ideal S2048x512 .bf16) (R : FVec Ideal S512x128 .bf16) (p : Fin 2048) (q : Fin 128) :
    matmul dot_S2048x512_S512x128_S2048x128_1_0_0_1_n_n none L R (constant (F := Ideal) S2048x128 .f32 0x00000000#32) (ix2 p q)
      = ∑ k : Fin 512, L (ix2 p k) * R (ix2 k q) := by
  refine (Ideal.matmul_constant_zero_apply dot_S2048x512_S512x128_S2048x128_1_0_0_1_n_n none L R (ix2 p q)).trans ?_
  rw [← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 p q) ((contrEquiv1 dot_S2048x512_S512x128_S2048x128_1_0_0_1_n_n 512 rfl rfl).symm k) = ix2 p k := funext fun a => Fin.ext (by
    match a with
    | ⟨0, _⟩ => exact lhsLin_0 _ _
    | ⟨1, _⟩ => exact (lhsLin_1 _ _).trans hk)
  have er : dot_S2048x512_S512x128_S2048x128_1_0_0_1_n_n.rhsIdx (ix2 p q) ((contrEquiv1 dot_S2048x512_S512x128_S2048x128_1_0_0_1_n_n 512 rfl rfl).symm k) = ix2 k q := funext fun a => Fin.ext (by
    match a with
    | ⟨0, _⟩ => exact (rhsLin_0 _ _).trans hk
    | ⟨1, _⟩ => exact rhsLin_1 _ _)
  rw [el, er]

/-- The [1024, 2048] × [2048, 128] product of an accumulation step. -/
theorem matmulStep_at (L : FVec Ideal S1024x2048 .bf16) (R : FVec Ideal S2048x128 .bf16) (p : Fin 1024) (q : Fin 128) :
    matmul dot_S1024x2048_S2048x128_S1024x128_1_0_0_1_n_n none L R (constant (F := Ideal) S1024x128 .f32 0x00000000#32) (ix2 p q)
      = ∑ k : Fin 2048, L (ix2 p k) * R (ix2 k q) := by
  refine (Ideal.matmul_constant_zero_apply dot_S1024x2048_S2048x128_S1024x128_1_0_0_1_n_n none L R (ix2 p q)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p q) ((contrEquiv1 dot_S1024x2048_S2048x128_S1024x128_1_0_0_1_n_n 2048 rfl rfl).symm k) = ix2 p k := funext fun a => Fin.ext (by
    match a with
    | ⟨0, _⟩ => exact lhsStep_0 _ _
    | ⟨1, _⟩ => exact (lhsStep_1 _ _).trans hk)
  have er : dot_S1024x2048_S2048x128_S1024x128_1_0_0_1_n_n.rhsIdx (ix2 p q) ((contrEquiv1 dot_S1024x2048_S2048x128_S1024x128_1_0_0_1_n_n 2048 rfl rfl).symm k) = ix2 k q := funext fun a => Fin.ext (by
    match a with
    | ⟨0, _⟩ => exact (rhsStep_0 _ _).trans hk
    | ⟨1, _⟩ => exact rhsStep_1 _ _)
  rw [el, er]

/-! ## The first body: ((x ∘ mask) · c) W -/

theorem lin_at (x0 x1 : Vec Ideal S2048x512 .f32) (x2 : Vec Ideal S512x128 .f32) (p : Fin 2048) (q : Fin 128) :
    k0_pay1 (F := Ideal) x0 x1 x2 (ix2 p q)
      = ∑ k : Fin 512, ((x0 (ix2 p k) * x1 (ix2 p k)) * Ideal.ofBits .f32 0x3F8E38E4#32) * x2 (ix2 k q) := by
  unfold k0_pay1
  exact matmulLin_at _ _ p q

/-! ## The accumulator's initial block -/

theorem zero1_at (p : Fin 1024) (q : Fin 128) : k1_pay1 (F := Ideal) (ix2 p q) = 0 := by
  unfold k1_pay1
  rw [shapeCast_self]
  exact Ideal.ofBits_zero_f32

theorem zero2_at (p : Fin 1024) (q : Fin 128) : k2_pay1 (F := Ideal) (ix2 p q) = 0 := by
  unfold k2_pay1
  rw [shapeCast_self]
  exact Ideal.ofBits_zero_f32

theorem zero3_at (p : Fin 1024) (q : Fin 128) : k3_pay1 (F := Ideal) (ix2 p q) = 0 := by
  unfold k3_pay1
  rw [shapeCast_self]
  exact Ideal.ofBits_zero_f32

/-! ## One accumulation step -/

theorem acc1_at (x0 : Vec Ideal S1024x2048 .f32) (x1 : Vec Ideal S2048x128 .f32) (a : Vec Ideal S1024x128 .f32)
    (p : Fin 1024) (q : Fin 128) :
    k1_pay2 (F := Ideal) x0 x1 a (ix2 p q) = a (ix2 p q) + ∑ k : Fin 2048, x0 (ix2 p k) * x1 (ix2 k q) := by
  unfold k1_pay2
  rw [shapeCast_self, shapeCast_self]
  exact congrArg (a (ix2 p q) + ·) (matmulStep_at _ _ p q)

theorem acc2_at (x0 : Vec Ideal S1024x2048 .f32) (x1 : Vec Ideal S2048x128 .f32) (a : Vec Ideal S1024x128 .f32)
    (p : Fin 1024) (q : Fin 128) :
    k2_pay2 (F := Ideal) x0 x1 a (ix2 p q) = a (ix2 p q) + ∑ k : Fin 2048, x0 (ix2 p k) * x1 (ix2 k q) := by
  unfold k2_pay2
  rw [shapeCast_self, shapeCast_self]
  exact congrArg (a (ix2 p q) + ·) (matmulStep_at _ _ p q)

theorem acc3_at (x0 : Vec Ideal S1024x2048 .f32) (x1 : Vec Ideal S2048x128 .f32) (a : Vec Ideal S1024x128 .f32)
    (p : Fin 1024) (q : Fin 128) :
    k3_pay2 (F := Ideal) x0 x1 a (ix2 p q) = a (ix2 p q) + ∑ k : Fin 2048, x0 (ix2 p k) * x1 (ix2 k q) := by
  unfold k3_pay2
  rw [shapeCast_self, shapeCast_self]
  exact congrArg (a (ix2 p q) + ·) (matmulStep_at _ _ p q)

/-! ## The last body's written block -/

theorem relu3_at (a : Vec Ideal S1024x128 .f32) (p : Fin 1024) (q : Fin 128) :
    k3_pay3 (F := Ideal) a (ix2 p q) = max (a (ix2 p q)) 0 := by
  unfold k3_pay3
  exact congrArg (max (a (ix2 p q))) Ideal.ofBits_zero_f32

end Cert.KernelIdeal.PayAt
-- ==== Proof.Spec.lean ====
/-
  The function both programs compute, written once, index by index over the extended reals:

      result = relu (S · (S · (S · (((x ∘ mask) · c) · W))))

  with x, mask : [16384, 512], S : [16384, 16384], W : [512, 128], and c the extended real that the f32 word
  0x3F8E38E4 denotes (the word is the same on both sides and is never evaluated). A matrix product is the plain
  sum of products over the contracted coordinate; relu is the maximum with 0.

  Beside the function, the one law the comparison of the two programs needs: a sum over 16384 consecutive
  terms is the sum, over 8 consecutive blocks, of the sums over each block's 2048 terms. It holds in any
  additive commutative monoid, so in the extended reals with no finiteness hypothesis.
-/
import Idealize.ShloMosaic.PureOps.Ideal
import Idealize.ShloMosaic.PureOps.Ideal.Laws
import Idealize.ShloMosaic.Lib.ValueIdx
import Mathlib.Logic.Equiv.Fin.Basic
import Mathlib.Data.Fintype.BigOperators
import Mathlib.Algebra.BigOperators.Fin

noncomputable section

open scoped BigOperators

namespace Cert.Spec

open Idealize.ShloMosaic Idealize.ShloMosaic.ValueIdx

/-! ## The shapes -/

/-- x and the mask. -/
abbrev SX : Shape := ⟨2, ![16384, 512]⟩
/-- S. -/
abbrev SS : Shape := ⟨2, ![16384, 16384]⟩
/-- W. -/
abbrev SW : Shape := ⟨2, ![512, 128]⟩
/-- The features: every intermediate product and the result. -/
abbrev SF : Shape := ⟨2, ![16384, 128]⟩

/-! ## The function -/

/-- The linear layer on the masked, scaled input: element (p, q) is Σ_k ((x[p,k] · mask[p,k]) · c) · W[k,q]. -/
def lin (x mask : SX.Idx → EReal) (w : SW.Idx → EReal) : SF.Idx → EReal := fun i =>
  ∑ k : Fin 512, ((x (ix2 (i 0) k) * mask (ix2 (i 0) k)) * Ideal.ofBits .f32 0x3F8E38E4#32) * w (ix2 k (i 1))

/-- One propagation step: element (p, q) of S · f is Σ_k S[p,k] · f[k,q]. -/
def mat (s : SS.Idx → EReal) (f : SF.Idx → EReal) : SF.Idx → EReal := fun i =>
  ∑ k : Fin 16384, s (ix2 (i 0) k) * f (ix2 k (i 1))

/-- relu, element by element. -/
def relu (f : SF.Idx → EReal) : SF.Idx → EReal := fun i => max (f i) 0

/-- Three propagation steps on the linear layer, then relu. -/
def result (x mask : SX.Idx → EReal) (s : SS.Idx → EReal) (w : SW.Idx → EReal) : SF.Idx → EReal :=
  relu (mat s (mat s (mat s (lin x mask w))))

/-! ## The function at an index given by its coordinates -/

theorem lin_ix2 (x mask : SX.Idx → EReal) (w : SW.Idx → EReal) (p : Fin 16384) (q : Fin 128) :
    lin x mask w (ix2 p q)
      = ∑ k : Fin 512, ((x (ix2 p k) * mask (ix2 p k)) * Ideal.ofBits .f32 0x3F8E38E4#32) * w (ix2 k q) := rfl

theorem mat_ix2 (s : SS.Idx → EReal) (f : SF.Idx → EReal) (p : Fin 16384) (q : Fin 128) :
    mat s f (ix2 p q) = ∑ k : Fin 16384, s (ix2 p k) * f (ix2 k q) := rfl

theorem relu_apply (f : SF.Idx → EReal) (i : SF.Idx) : relu f i = max (f i) 0 := rfl

/-- The maximum with the extended real of the zero word is relu: the zero word denotes 0. -/
theorem max_zeroWord (f : SF.Idx → EReal) (i : SF.Idx) :
    max (f i) (Ideal.ofBits .f32 0x00000000#32) = relu f i := by
  rw [Ideal.ofBits_zero_f32]; rfl

theorem result_apply (x mask : SX.Idx → EReal) (s : SS.Idx → EReal) (w : SW.Idx → EReal) (i : SF.Idx) :
    result x mask s w i = max (mat s (mat s (mat s (lin x mask w))) i) 0 := rfl

/-! ## Sums by blocks -/

section Blocks
variable {M : Type*} [AddCommMonoid M]

/-- Term j of block b lies inside the m · n terms. -/
theorem lt_blocks {m n : ℕ} (b : Fin m) (j : Fin n) : n * b.val + j.val < m * n :=
  calc n * b.val + j.val < n * b.val + n := Nat.add_lt_add_left j.isLt _
    _ = n * (b.val + 1) := (Nat.mul_succ n b.val).symm
    _ ≤ n * m := Nat.mul_le_mul_left n b.isLt
    _ = m * n := Nat.mul_comm n m

/-- A sum of m · n consecutive terms is the sum over m consecutive blocks of the n terms of each: the terms are
    re-indexed by (block, place in the block), and a sum over pairs is the iterated sum. -/
theorem sum_fin_mul (m n : ℕ) (g : Fin (m * n) → M) :
    ∑ k, g k = ∑ b : Fin m, ∑ j : Fin n, g ⟨n * b.val + j.val, lt_blocks b j⟩ := by
  refine ((Equiv.sum_comp finProdFinEquiv g).symm.trans (Fintype.sum_prod_type _)).trans ?_
  refine Finset.sum_congr rfl fun b _ => Finset.sum_congr rfl fun j _ => congrArg g (Fin.ext ?_)
  exact Nat.add_comm _ _

/-- 16384 terms in 8 blocks of 2048. -/
theorem sum_blocks (g : Fin 16384 → M) :
    ∑ k : Fin 16384, g k = ∑ b : Fin 8, ∑ j : Fin 2048, g ⟨2048 * b.val + j.val, by omega⟩ :=
  sum_fin_mul 8 2048 g

/-- A sum of eight terms, accumulated from zero one term at a time. -/
theorem sum_eight_acc (h : Fin 8 → M) :
    ∑ b : Fin 8, h b = 0 + h 0 + h 1 + h 2 + h 3 + h 4 + h 5 + h 6 + h 7 := by
  rw [Fin.sum_univ_eight, zero_add]

end Blocks

/-- One propagation step with the contraction cut into 8 blocks of 2048 columns of S (rows of f). -/
theorem mat_blocks (s : SS.Idx → EReal) (f : SF.Idx → EReal) (p : Fin 16384) (q : Fin 128) :
    mat s f (ix2 p q)
      = ∑ b : Fin 8, ∑ j : Fin 2048,
          s (ix2 p ⟨2048 * b.val + j.val, by omega⟩) * f (ix2 ⟨2048 * b.val + j.val, by omega⟩ q) :=
  (mat_ix2 s f p q).trans (sum_blocks fun k : Fin 16384 => s (ix2 p k) * f (ix2 k q))

end Cert.Spec

end
-- ==== Proof.LinValue.lean ====
/-
  The first kernel region's result array, as one function of the region's argument arrays.

  Each of the 8 grid points reads rows [2048 t, 2048 t + 2048) of x and of the mask and the whole of W, and writes
  the same rows of the output: element (p, q) of the written block is Σ_k ((x ∘ mask) · c)[2048 t + p, k] · W[k, q],
  which is element (2048 t + p, q) of the specification's linear layer. Row r of the output lies in the block of
  point r / 2048, so the 8 written blocks cover the array and it ends holding the linear layer.
-/
import proofs.«172064_j31550829756529_1_alg».proof.Proof.Lin
import proofs.«172064_j31550829756529_1_alg».proof.Proof.PayAt
import proofs.«172064_j31550829756529_1_alg».proof.Proof.Spec
import Idealize.ShloMosaic.Lib.Pipeline.Value
import Idealize.ShloMosaic.Lib.ValueIdx

noncomputable section

open scoped BigOperators

namespace Cert.KernelIdeal.LinValue

open Cert.KernelIdeal Cert.KernelIdeal.Gen Idealize.ShloMosaic Idealize.ShloMosaic.ValueIdx
open Idealize.ShloMosaic.TcCoe

/-! ## One point's block is the body's product -/

theorem hz : (![0, 0] : Fin 2 → Nat) = fun _ => 0 := funext fun a => by fin_cases a <;> rfl

/-- The body loads its three buffers whole and stores the output buffer whole: what it leaves is the product. -/
theorem lin_eq_pay (x0 x1 : Vec Ideal S2048x512 .f32) (x2 : Vec Ideal S512x128 .f32) :
    Lin.lin (F := Ideal) x0 x1 x2 = k0_pay1 (F := Ideal) x0 x1 x2 := by
  unfold Lin.lin
  rw [View.canon_unit_zero hz]
  simp only [View.ld_unit_zero (S := S2048x512) hz, View.ld_unit_zero (S := S512x128) hz]

/-! ## A block of rows of the linear layer

Over variables of the literal shapes: if a block of x and of the mask holds rows [o, o + 2048) of the arrays and
the block of W holds W, the body's product at (p, q) is the linear layer at (o + p, q). -/

theorem block_at (a0 a3 : S16384x512.Idx → EReal) (a2 : S512x128.Idx → EReal)
    (x0 x1 : Vec Ideal S2048x512 .f32) (x2 : Vec Ideal S512x128 .f32) (o : Nat) (ho : o + 2048 ≤ 16384)
    (h0 : ∀ (p : Fin 2048) (k : Fin 512), x0 (ix2 p k) = a0 (ix2 ⟨o + p.val, by omega⟩ k))
    (h1 : ∀ (p : Fin 2048) (k : Fin 512), x1 (ix2 p k) = a3 (ix2 ⟨o + p.val, by omega⟩ k))
    (h2 : ∀ (k : Fin 512) (q : Fin 128), x2 (ix2 k q) = a2 (ix2 k q))
    (p : Fin 2048) (q : Fin 128) :
    k0_pay1 (F := Ideal) x0 x1 x2 (ix2 p q) = Cert.Spec.lin a0 a3 a2 (ix2 ⟨o + p.val, by omega⟩ q) := by
  refine (PayAt.lin_at x0 x1 x2 p q).trans ?_
  refine (Finset.sum_congr rfl fun k _ => ?_).trans (Cert.Spec.lin_ix2 a0 a3 a2 ⟨o + p.val, by omega⟩ q).symm
  rw [h0, h1, h2]

/-! ## The printed index maps, decided once over the grid -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is a row of the array. -/
theorem row_lt (t : Fin cfg0.N) (p : Fin 2048) : 2048 * t.val + p.val < 16384 := by
  have ht := t.isLt; have hN : cfg0.N = 8 := N_0; omega

variable (V : (c : Dev nD) → (b : Ref sig .tc) → Buf (Elt Ideal) ((c : Thread nD τ).loc b))

/-- Element (p, k) of point t's block of x is x at (2048 t + p, k). -/
theorem blk_x (c : Dev nD) (t : Fin cfg0.N) (p : Fin 2048) (k : Fin 512) :
    Lin.blk V c 0 t (ix2 p k) = (V c main_arg0 : S16384x512.Idx → EReal) (ix2 ⟨2048 * t.val + p.val, row_lt t p⟩ k) := by
  obtain ⟨e00, e01, -⟩ := idx_facts t
  unfold Lin.blk
  rw [View.read_apply]
  show V c main_arg0 (((cfg0.win 0).blk t).view.emb (ix2 p k)) = V c main_arg0 _
  refine congrArg (V c main_arg0) (funext fun a => Fin.ext ?_)
  match a with
  | ⟨0, _⟩ => show win0_0.index t (0 : Fin 2) * 2048 + 1 * p.val = 2048 * t.val + p.val; omega
  | ⟨1, _⟩ => show win0_0.index t (1 : Fin 2) * 512 + 1 * k.val = k.val; omega

/-- The same for the mask. -/
theorem blk_mask (c : Dev nD) (t : Fin cfg0.N) (p : Fin 2048) (k : Fin 512) :
    Lin.blk V c 1 t (ix2 p k) = (V c main_arg3 : S16384x512.Idx → EReal) (ix2 ⟨2048 * t.val + p.val, row_lt t p⟩ k) := by
  obtain ⟨-, -, e10, e11, -⟩ := idx_facts t
  unfold Lin.blk
  rw [View.read_apply]
  show V c main_arg3 (((cfg0.win 1).blk t).view.emb (ix2 p k)) = V c main_arg3 _
  refine congrArg (V c main_arg3) (funext fun a => Fin.ext ?_)
  match a with
  | ⟨0, _⟩ => show win0_1.index t (0 : Fin 2) * 2048 + 1 * p.val = 2048 * t.val + p.val; omega
  | ⟨1, _⟩ => show win0_1.index t (1 : Fin 2) * 512 + 1 * k.val = k.val; omega

/-- Every point's block of W is W. -/
theorem blk_w (c : Dev nD) (t : Fin cfg0.N) (k : Fin 512) (q : Fin 128) :
    Lin.blk V c 2 t (ix2 k q) = (V c main_arg2 : S512x128.Idx → EReal) (ix2 k q) := by
  obtain ⟨-, -, -, -, e20, e21, -⟩ := idx_facts t
  unfold Lin.blk
  rw [View.read_apply]
  show V c main_arg2 (((cfg0.win 2).blk t).view.emb (ix2 k q)) = V c main_arg2 _
  refine congrArg (V c main_arg2) (funext fun a => Fin.ext ?_)
  match a with
  | ⟨0, _⟩ => show win0_2.index t (0 : Fin 2) * 512 + 1 * k.val = k.val; omega
  | ⟨1, _⟩ => show win0_2.index t (1 : Fin 2) * 128 + 1 * q.val = q.val; omega

/-! ## What a point writes back -/

/-- Point t writes back block t of the linear layer of the arrays as the region finds them. -/
theorem flushed_eq (c : Dev nD) (t : Fin cfg0.N) :
    (Lin.dat (F := Ideal) V c).flushed 3 t
      = ((cfg0.win 3).blk t).view.read (Elt Ideal) (Cert.Spec.lin (V c main_arg0) (V c main_arg3) (V c main_arg2)) := by
  show (cfg0.win 3).cut (grid0.coords t) ((Lin.dat V c).after 3 t) = _
  rw [Lin.after_out, lin_eq_pay]
  obtain ⟨-, -, -, -, -, -, e30, e31⟩ := idx_facts t
  funext y
  have hy0 : (y 0).val < 2048 := (y 0).isLt
  have hy1 : (y 1).val < 128 := (y 1).isLt
  rw [View.read_apply]
  have hx : (cfg0.win 3).xinj (grid0.coords t) y = ix2 (⟨(y 0).val, hy0⟩ : Fin 2048) (⟨(y 1).val, hy1⟩ : Fin 128) :=
    funext fun a => Fin.ext (by match a with | ⟨0, _⟩ => rfl | ⟨1, _⟩ => rfl)
  have he : ((cfg0.win 3).blk t).view.emb y
      = ix2 (⟨2048 * t.val + (y 0).val, row_lt t ⟨(y 0).val, hy0⟩⟩ : Fin 16384) (⟨(y 1).val, hy1⟩ : Fin 128) :=
    funext fun a => Fin.ext (by
      match a with
      | ⟨0, _⟩ => show win0_3.index t (0 : Fin 2) * 2048 + 1 * (y 0).val = 2048 * t.val + (y 0).val; omega
      | ⟨1, _⟩ => show win0_3.index t (1 : Fin 2) * 128 + 1 * (y 1).val = (y 1).val; omega)
  show k0_pay1 (F := Ideal) (Lin.blk V c 0 t) (Lin.blk V c 1 t) (Lin.blk V c 2 t) ((cfg0.win 3).xinj (grid0.coords t) y)
    = Cert.Spec.lin (V c main_arg0) (V c main_arg3) (V c main_arg2) (((cfg0.win 3).blk t).view.emb y)
  rw [hx, he]
  exact block_at (V c main_arg0) (V c main_arg3) (V c main_arg2) _ _ _ (2048 * t.val) (by have ht := t.isLt; have hN : cfg0.N = 8 := N_0; omega)
    (fun p k => blk_x V c t p k) (fun p k => blk_mask V c t p k) (fun k q => blk_w V c t k q) ⟨(y 0).val, hy0⟩ ⟨(y 1).val, hy1⟩

/-! ## The blocks cover the array -/

/-- An index of the array is in point t's block iff each coordinate is in the block's range on its axis. -/
theorem mem_blk (t : Fin cfg0.N) (i : S16384x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v0).slice (win0_3.rect t)).set ↔ _
  rw [View.set_slice_whole, Rect.mem_set_unit]
  exact Iff.rfl

/-- Row r lies in the block of point r / 2048, and every point writes its block back. -/
theorem cover (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  have hN : cfg0.N = 8 := N_0
  obtain ⟨t, ht⟩ : ∃ t : Fin cfg0.N, t.val = (i 0).val / 2048 := ⟨⟨(i 0).val / 2048, by omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-! ## The array after the region -/

/-- The output array ends holding the linear layer of the arrays as the region finds them. -/
theorem array (c : Dev nD) :
    (Lin.dat (F := Ideal) V c).arrAt 3 cfg0.N = Cert.Spec.lin (V c main_arg0) (V c main_arg3) (V c main_arg2) :=
  (Lin.dat (F := Ideal) V c).arrAt_eq_of_cover 3 (Cert.Spec.lin (V c main_arg0) (V c main_arg3) (V c main_arg2))
    (fun t _ => flushed_eq V c t) cover

end Cert.KernelIdeal.LinValue

end
-- ==== Proof.Dif1Acc.lean ====
/-
  One diffusion step, read as values: the accumulator after every grid point of the region  out = S @ feat.

  Each of the body's three cases leaves the accumulator at one accumulation step (acc + block of S · block of feat)
  from what it held, the case k = 0 from the zero block; so after the point t = 8 i + k the accumulator's element (p, q)
  is  0 + Σ_{b ≤ k} Σ_j S[1024 i + p, 2048 b + j] · feat[2048 b + j, q].  At k = 7 that is the whole contraction, cut
  into its 8 blocks: element (1024 i + p, q) of S · feat.
-/
import proofs.«172064_j31550829756529_1_alg».proof.Proof.Dif1
import proofs.«172064_j31550829756529_1_alg».proof.Proof.PayAt
import proofs.«172064_j31550829756529_1_alg».proof.Proof.Spec
import Idealize.ShloMosaic.Lib.Pipeline.Value
import Idealize.ShloMosaic.Lib.Tactic

set_option maxRecDepth 16384

noncomputable section

namespace Cert.KernelIdeal.Dif1Acc

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

/-! ## What each case of the body leaves, as the body's arithmetic on what it was given

The stores of a case cover the buffer they write, so the buffer ends as their read-back: the last store's payload,
whose loads read whole buffers. At k = 0 the zero block is stored first and read back by the accumulation. -/

theorem hz : (![0, 0] : Fin 2 → Nat) = fun _ => 0 := funext fun a => by fin_cases a <;> rfl

/-- k = 0: the accumulator ends at one accumulation step from the zero block. -/
theorem acc_first_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : Dif1.cond_first i) (hc1 : ¬Dif1.cond_last i)
    (x0 : Vec F S1024x2048 .f32) (x1 : Vec F S2048x128 .f32) :
    Dif1.acc_first c i arg2 harg2 arg3 harg3 arg4 harg4 arg5 harg5 hc0 hc1 x0 x1 = k1_pay2 x0 x1 (k1_pay1 (F := F)) := by
  unfold Dif1.acc_first
  rw [View.read_writes_eq_canon _ _ _ (Dif1.cover_first c i arg2 harg2 arg3 harg3 arg4 harg4 arg5 harg5 hc0 hc1 x0 x1)]
  unfold Dif1.run_first
  dsimp only
  sl_unfold_words
  rw [View.canon_cons_unit_zero (S := S1024x128) hz, View.readCov_unit_zero (S := S1024x128) _ hz]
  simp only [View.readAt_eq_ld, harg2.read_unread, harg3.read_unread, View.ld_unit_zero (S := S1024x2048) hz,
    View.ld_unit_zero (S := S2048x128) hz, View.ld_unit_zero (S := S1024x128) hz]

/-- 0 < k < 7: one accumulation step from what the accumulator held. -/
theorem acc_mid_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬Dif1.cond_first i) (hc1 : ¬Dif1.cond_last i)
    (x0 : Vec F S1024x2048 .f32) (x1 : Vec F S2048x128 .f32) (xs : Vec F S1024x128 .f32) :
    Dif1.acc_mid c i arg2 harg2 arg3 harg3 arg4 harg4 arg5 harg5 hc0 hc1 x0 x1 xs = k1_pay2 x0 x1 xs := by
  unfold Dif1.acc_mid
  rw [View.read_writes_eq_canon _ _ _ (Dif1.cover_mid c i arg2 harg2 arg3 harg3 arg4 harg4 arg5 harg5 hc0 hc1 x0 x1 xs)]
  unfold Dif1.run_mid
  dsimp only
  sl_unfold_words
  rw [View.canon_unit_zero hz]
  simp only [View.readAt_eq_ld, harg2.read_unread, harg3.read_unread, harg5.read_unread, View.ld_unit_zero (S := S1024x2048) hz,
    View.ld_unit_zero (S := S2048x128) hz, View.ld_unit_zero (S := S1024x128) hz]

/-- k = 7: the same step. -/
theorem acc_last_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬Dif1.cond_first i) (hc1 : Dif1.cond_last i)
    (x0 : Vec F S1024x2048 .f32) (x1 : Vec F S2048x128 .f32) (xs : Vec F S1024x128 .f32) :
    Dif1.acc_last c i arg2 harg2 arg3 harg3 arg4 harg4 arg5 harg5 hc0 hc1 x0 x1 xs = k1_pay2 x0 x1 xs := by
  unfold Dif1.acc_last
  rw [View.read_writes_eq_canon _ _ _ (Dif1.cover_last_acc c i arg2 harg2 arg3 harg3 arg4 harg4 arg5 harg5 hc0 hc1 x0 x1 xs)]
  unfold Dif1.run_last
  dsimp only
  sl_unfold_words
  rw [View.canon_unit_zero hz]
  simp only [View.readAt_eq_ld, harg2.read_unread, harg3.read_unread, harg5.read_unread, View.ld_unit_zero (S := S1024x2048) hz,
    View.ld_unit_zero (S := S2048x128) hz, View.ld_unit_zero (S := S1024x128) hz]

/-! ## The blocks the body is given, as entries of the arrays -/

section Blocks
variable (V : (c : Dev nD) → (b : Ref sig .tc) → Buf (Elt F) ((c : Thread nD τ).loc b))

/-- The block of S and the row block of feat that point `t` reads, and the two arrays. -/
abbrev sblk (c : Dev nD) (t : Fin cfg1.N) : Vec F S1024x2048 .f32 := Dif1.blk V c 0 t
abbrev fblk (c : Dev nD) (t : Fin cfg1.N) : Vec F S2048x128 .f32 := Dif1.blk V c 1 t
abbrev sarr (c : Dev nD) : Vec F S16384x16384 .f32 := V c main_arg1
abbrev farr (c : Dev nD) : Vec F S16384x128 .f32 := V c main_v0

/-- The printed index maps over the grid: point t = 8 i + k reads block (i, k) of S and row block k of feat, and its
    output block is row block i. -/
theorem idx_facts : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- Row p of the row block of point n, and column j of its column block, in the arrays. (Total in n: the row is
    taken below 16384, which changes nothing at a point of the grid.) -/
abbrev rowOf (n : ℕ) (p : Fin 1024) : Fin 16384 := ⟨(1024 * (n / 8) + p.val) % 16384, Nat.mod_lt _ (by decide)⟩
abbrev colOf (n : ℕ) (j : Fin 2048) : Fin 16384 := ⟨2048 * (n % 8) + j.val, by have := j.isLt; omega⟩

theorem sblk_at (c : Dev nD) (t : Fin cfg1.N) (p : Fin 1024) (j : Fin 2048) :
    sblk V c t (ix2 p j) = sarr V c (ix2 (rowOf t.val p) (colOf t.val j)) := by
  obtain ⟨e0, e1, -, -, -, -⟩ := idx_facts t
  have hN : t.val < 128 := lt_of_lt_of_eq t.isLt N_1
  unfold sblk Dif1.blk
  rw [View.read_apply]
  show V c main_arg1 (((cfg1.win 0).blk t).view.emb (ix2 p j)) = V c main_arg1 (ix2 (rowOf t.val p) (colOf t.val j))
  refine congrArg (V c main_arg1) (funext fun a => Fin.ext ?_)
  match a with
  | ⟨0, _⟩ =>
    show win1_0.index t (0 : Fin 2) * 1024 + 1 * p.val = (1024 * (t.val / 8) + p.val) % 16384
    have := p.isLt; omega
  | ⟨1, _⟩ =>
    show win1_0.index t (1 : Fin 2) * 2048 + 1 * j.val = 2048 * (t.val % 8) + j.val
    omega

theorem fblk_at (c : Dev nD) (t : Fin cfg1.N) (j : Fin 2048) (q : Fin 128) :
    fblk V c t (ix2 j q) = farr V c (ix2 (colOf t.val j) q) := by
  obtain ⟨-, -, e0, e1, -, -⟩ := idx_facts t
  unfold fblk Dif1.blk
  rw [View.read_apply]
  show V c main_v0 (((cfg1.win 1).blk t).view.emb (ix2 j q)) = V c main_v0 (ix2 (colOf t.val j) q)
  refine congrArg (V c main_v0) (funext fun a => Fin.ext ?_)
  match a with
  | ⟨0, _⟩ =>
    show win1_1.index t (0 : Fin 2) * 2048 + 1 * j.val = 2048 * (t.val % 8) + j.val
    omega
  | ⟨1, _⟩ =>
    show win1_1.index t (1 : Fin 2) * 128 + 1 * q.val = q.val
    omega

end Blocks

/-! ## The accumulator after each point, over the extended reals -/

section Acc
variable (V : (c : Dev nD) → (b : Ref sig .tc) → Buf (Elt Ideal) ((c : Thread nD τ).loc b))

/-- What the point at position n adds to element (p, q) of the accumulator: the product of its block of S and its row
    block of feat, Σ_j S[row, col j] · feat[col j, q]. -/
def term (c : Dev nD) (n : ℕ) (p : Fin 1024) (q : Fin 128) : EReal :=
  ∑ j : Fin 2048, sarr V c (ix2 (rowOf n p) (colOf n j)) * farr V c (ix2 (colOf n j) q)

/-- One accumulation step on the blocks of point t, at an element. -/
theorem step_at (c : Dev nD) (t : Fin cfg1.N) (a : Vec Ideal S1024x128 .f32) (p : Fin 1024) (q : Fin 128) :
    k1_pay2 (F := Ideal) (sblk V c t) (fblk V c t) a (ix2 p q) = a (ix2 p q) + term V c t.val p q := by
  refine (PayAt.acc1_at (sblk V c t) (fblk V c t) a p q).trans ?_
  refine congrArg (a (ix2 p q) + ·) (Finset.sum_congr rfl fun j _ => ?_)
  rw [sblk_at V c t p j, fblk_at V c t j q]

/-- A point with k = 0 leaves the accumulator at 0 + its term; -/
theorem acc_first_at (c : Dev nD) (t : Fin cfg1.N) (h0 : t.val % 8 = 0) (p : Fin 1024) (q : Fin 128) :
    (Dif1.stateAt V c t.val t.isLt).2 (ix2 p q) = 0 + term V c t.val p q := by
  rw [Dif1.stateAt_eq V c t, Dif1.step_first V c t _ h0]
  dsimp only
  refine (congrFun (acc_first_eq (F := Ideal) c (grid1.coords t) (Dif1.ms_s t) (Dif1.hs_s t) (Dif1.ms_f t) (Dif1.hs_f t) (Dif1.ms_o t) (Dif1.hs_o t) Dif1.scr (Memref.isWhole_whole _) ((Dif1.first_iff t).mpr h0) (fun h => by have := (Dif1.last_iff t).mp h; omega) (Dif1.blk V c 0 t) (Dif1.blk V c 1 t)) (ix2 p q)).trans ?_
  refine (step_at V c t (k1_pay1 (F := Ideal)) p q).trans ?_
  rw [PayAt.zero1_at p q]

/-- a later point adds its term to what the point before left. -/
theorem acc_next_at (c : Dev nD) (t : Fin cfg1.N) (h0 : ¬t.val % 8 = 0) (p : Fin 1024) (q : Fin 128) :
    (Dif1.stateAt V c t.val t.isLt).2 (ix2 p q)
      = (Dif1.stateAt V c (t.val - 1) (Nat.lt_of_le_of_lt (Nat.sub_le _ _) t.isLt)).2 (ix2 p q) + term V c t.val p q := by
  have hz : t.val ≠ 0 := fun h => h0 (by rw [h])
  rw [Dif1.stateAt_eq V c t, Dif1.prevAcc_pos V c t hz]
  by_cases h1 : t.val % 8 = 7
  · rw [Dif1.step_last V c t _ h0 h1]
    dsimp only
    refine (congrFun (acc_last_eq (F := Ideal) c (grid1.coords t) (Dif1.ms_s t) (Dif1.hs_s t) (Dif1.ms_f t) (Dif1.hs_f t) (Dif1.ms_o t) (Dif1.hs_o t) Dif1.scr (Memref.isWhole_whole _) (fun h => h0 ((Dif1.first_iff t).mp h)) ((Dif1.last_iff t).mpr h1) (Dif1.blk V c 0 t) (Dif1.blk V c 1 t) (Dif1.stateAt V c (t.val - 1) (Nat.lt_of_le_of_lt (Nat.sub_le _ _) t.isLt)).2) (ix2 p q)).trans ?_
    exact step_at V c t _ p q
  · rw [Dif1.step_mid V c t _ h0 h1]
    dsimp only
    refine (congrFun (acc_mid_eq (F := Ideal) c (grid1.coords t) (Dif1.ms_s t) (Dif1.hs_s t) (Dif1.ms_f t) (Dif1.hs_f t) (Dif1.ms_o t) (Dif1.hs_o t) Dif1.scr (Memref.isWhole_whole _) (fun h => h0 ((Dif1.first_iff t).mp h)) (fun h => h1 ((Dif1.last_iff t).mp h)) (Dif1.blk V c 0 t) (Dif1.blk V c 1 t) (Dif1.stateAt V c (t.val - 1) (Nat.lt_of_le_of_lt (Nat.sub_le _ _) t.isLt)).2) (ix2 p q)).trans ?_
    exact step_at V c t _ p q

/-- THE ACCUMULATOR IN CLOSED FORM: after the point at position n = 8 i + k its element (p, q) is 0 plus the terms of
    the points 8 i, …, 8 i + k of its row block. By induction on the position. -/
theorem acc_closed (c : Dev nD) (p : Fin 1024) (q : Fin 128) : ∀ (n : ℕ) (hn : n < cfg1.N),
    (Dif1.stateAt V c n hn).2 (ix2 p q) = 0 + ∑ b ∈ Finset.range (n % 8 + 1), term V c (8 * (n / 8) + b) p q
  | 0, hn => by
    refine (acc_first_at V c ⟨0, hn⟩ rfl p q).trans ?_
    rw [Finset.sum_range_one]
  | n + 1, hn => by
    by_cases h0 : (n + 1) % 8 = 0
    · refine (acc_first_at V c ⟨n + 1, hn⟩ h0 p q).trans ?_
      rw [h0, Finset.sum_range_one]
      exact congrArg (fun m => 0 + term V c m p q) (show n + 1 = 8 * ((n + 1) / 8) + 0 by omega)
    · refine (acc_next_at V c ⟨n + 1, hn⟩ h0 p q).trans ?_
      show (Dif1.stateAt V c n _).2 (ix2 p q) + term V c (n + 1) p q = _
      rw [acc_closed c p q n (Nat.lt_of_succ_lt hn), show (n + 1) % 8 + 1 = (n % 8 + 1) + 1 by omega,
        show (n + 1) / 8 = n / 8 by omega,
        Finset.sum_range_succ (fun b => term V c (8 * (n / 8) + b) p q) (n % 8 + 1), add_assoc]
      exact congrArg (fun m => 0 + (∑ b ∈ Finset.range (n % 8 + 1), term V c (8 * (n / 8) + b) p q + term V c m p q))
        (show n + 1 = 8 * (n / 8) + (n % 8 + 1) by omega)

end Acc

/-! ## The accumulator at the end of a row block -/

section Total
variable (V : (c : Dev nD) → (b : Ref sig .tc) → Buf (Elt Ideal) ((c : Thread nD τ).loc b))

/-- At k = 7 the eight terms of the row block are the whole contraction, cut into its 8 blocks of 2048: the
    accumulator after point t holds rows [1024 (t / 8), 1024 (t / 8) + 1024) of S · feat. -/
theorem acc_total (c : Dev nD) (t : Fin cfg1.N) (h7 : t.val % 8 = 7) (p : Fin 1024) (q : Fin 128)
    (hr : 1024 * (t.val / 8) + p.val < 16384) :
    (Dif1.stateAt (F := Ideal) V c t.val t.isLt).2 (ix2 p q)
      = Cert.Spec.mat (V c main_arg1) (V c main_v0) (ix2 ⟨1024 * (t.val / 8) + p.val, hr⟩ q) := by
  rw [acc_closed V c p q t.val t.isLt, h7, zero_add]
  refine Eq.trans ?_ (Cert.Spec.mat_blocks (V c main_arg1) (V c main_v0) ⟨1024 * (t.val / 8) + p.val, hr⟩ q).symm
  refine (Finset.sum_range fun b => term V c (8 * (t.val / 8) + b) p q).trans ?_
  refine Finset.sum_congr rfl fun b _ => ?_
  unfold term
  refine Finset.sum_congr rfl fun j _ => ?_
  have hb : b.val < 8 := b.isLt
  have e1 : rowOf (8 * (t.val / 8) + b.val) p = ⟨1024 * (t.val / 8) + p.val, hr⟩ := Fin.ext (by
    show (1024 * ((8 * (t.val / 8) + b.val) / 8) + p.val) % 16384 = 1024 * (t.val / 8) + p.val
    omega)
  have e2 : colOf (8 * (t.val / 8) + b.val) j = ⟨2048 * b.val + j.val, by have := j.isLt; omega⟩ := Fin.ext (by
    show 2048 * ((8 * (t.val / 8) + b.val) % 8) + j.val = 2048 * b.val + j.val
    omega)
  rw [e1, e2]

end Total

end Cert.KernelIdeal.Dif1Acc

end
-- ==== Proof.Dif1Array.lean ====
/-
  A diffusion region's result array from its written blocks.

  The region's grid is 16 × 8; point t = 8 i + k works on row block i (1024 rows) and column block k, and the
  output block, rows [1024 i, 1024 i + 1024), is written back only at k = 7. If, at every point with k = 7, the
  output block's element (p, q) is a function G at (1024 i + p, q), then the array ends holding G: row r lies in
  the block of the point 8 (r / 1024) + 7, which writes back, so the written blocks cover the array.
-/
import proofs.«172064_j31550829756529_1_alg».proof.Proof.Dif1
import proofs.«172064_j31550829756529_1_alg».proof.Proof.Spec
import Idealize.ShloMosaic.Lib.Pipeline.Value
import Idealize.ShloMosaic.Lib.ValueIdx

noncomputable section

namespace Cert.KernelIdeal.Dif1Array

open Cert.KernelIdeal Cert.KernelIdeal.Gen Idealize.ShloMosaic Idealize.ShloMosaic.ValueIdx
open Idealize.ShloMosaic.TcCoe

/-! ## The output's printed index map, decided once over the grid -/

theorem idx_facts : ∀ t : Fin cfg1.N,
    win1_2.index t (0 : Fin 2) = t.val / 8 ∧ win1_2.index t (1 : Fin 2) = 0 :=
  (by decide +kernel : ∀ t : Fin grid1.N, _)

/-- Row p of point t's output block is a row of the array. -/
theorem row_lt (t : Fin cfg1.N) (p : Fin 1024) : 1024 * (t.val / 8) + p.val < 16384 := by
  have ht := t.isLt; have hN : cfg1.N = 128 := N_1; omega

variable (V : (c : Dev nD) → (b : Ref sig .tc) → Buf (Elt Ideal) ((c : Thread nD τ).loc b))

/-! ## What a point writes back -/

/-- A point that writes back writes block t of G. -/
theorem flushed_eq (c : Dev nD) (G : Cert.Spec.SF.Idx → EReal)
    (hout : ∀ (t : Fin cfg1.N) (h7 : t.val % 8 = 7) (p : Fin 1024) (q : Fin 128) (hr : 1024 * (t.val / 8) + p.val < 16384),
      (Dif1.stateAt (F := Ideal) V c t.val t.isLt).1 (ix2 p q) = G (ix2 ⟨1024 * (t.val / 8) + p.val, hr⟩ q))
    (t : Fin cfg1.N) (hf : (cfg1.win 2).flush t = true) :
    (Dif1.dat (F := Ideal) V c).flushed 2 t = ((cfg1.win 2).blk t).view.read (Elt Ideal) G := by
  have h7 : t.val % 8 = 7 := (flush1_2 t).mp hf
  show (cfg1.win 2).cut (grid1.coords t) ((Dif1.dat V c).after 2 t) = _
  rw [Dif1.after_o]
  obtain ⟨e0, e1⟩ := idx_facts t
  funext y
  have hy0 : (y 0).val < 1024 := (y 0).isLt
  have hy1 : (y 1).val < 128 := (y 1).isLt
  rw [View.read_apply]
  have hx : (cfg1.win 2).xinj (grid1.coords t) y = ix2 (⟨(y 0).val, hy0⟩ : Fin 1024) (⟨(y 1).val, hy1⟩ : Fin 128) :=
    funext fun a => Fin.ext (by match a with | ⟨0, _⟩ => rfl | ⟨1, _⟩ => rfl)
  have he : ((cfg1.win 2).blk t).view.emb y
      = ix2 (⟨1024 * (t.val / 8) + (y 0).val, row_lt t ⟨(y 0).val, hy0⟩⟩ : Fin 16384) (⟨(y 1).val, hy1⟩ : Fin 128) :=
    funext fun a => Fin.ext (by
      match a with
      | ⟨0, _⟩ => show win1_2.index t (0 : Fin 2) * 1024 + 1 * (y 0).val = 1024 * (t.val / 8) + (y 0).val; omega
      | ⟨1, _⟩ => show win1_2.index t (1 : Fin 2) * 128 + 1 * (y 1).val = (y 1).val; omega)
  show (Dif1.stateAt (F := Ideal) V c t.val t.isLt).1 ((cfg1.win 2).xinj (grid1.coords t) y)
    = G (((cfg1.win 2).blk t).view.emb y)
  rw [hx, he]
  exact hout t h7 ⟨(y 0).val, hy0⟩ ⟨(y 1).val, hy1⟩ (row_lt t ⟨(y 0).val, hy0⟩)

/-! ## The written blocks cover the array -/

/-- An index of the array is in point t's block iff each coordinate is in the block's range on its axis. -/
theorem mem_blk (t : Fin cfg1.N) (i : S16384x128.Idx) :
    i ∈ ((cfg1.win 2).blk t).view.set ↔ ∀ a : Fin 2, win1_2.index t a * S1024x128.size a ≤ (i a).val
      ∧ (i a).val < win1_2.index t a * S1024x128.size a + S1024x128.size a := by
  show i ∈ ((View.whole (Pipeline.arrRef spec1 2)).slice (win1_2.rect t)).set ↔ _
  rw [View.set_slice_whole, Rect.mem_set_unit]
  exact Iff.rfl

/-- Row r lies in the block of the point 8 (r / 1024) + 7, which writes its block back. -/
theorem cover (i : S16384x128.Idx) :
    ∃ t : Fin cfg1.N, (cfg1.win 2).flush t = true ∧ i ∈ ((cfg1.win 2).blk t).view.set := by
  have hi0 : (i 0).val < 16384 := (i 0).isLt
  have hi1 : (i 1).val < 128 := (i 1).isLt
  have hN : cfg1.N = 128 := N_1
  obtain ⟨t, ht⟩ : ∃ t : Fin cfg1.N, t.val = 8 * ((i 0).val / 1024) + 7 :=
    ⟨⟨8 * ((i 0).val / 1024) + 7, by omega⟩, rfl⟩
  obtain ⟨e0, e1⟩ := idx_facts t
  refine ⟨t, (flush1_2 t).mpr (by omega), ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 128 ≤ (i 1).val ∧ (i 1).val < win1_2.index t (1 : Fin 2) * 128 + 128; omega

/-! ## The array after the region -/

/-- If every written output block is its block of G, the output array ends holding G. -/
theorem array_of (c : Dev nD) (G : Cert.Spec.SF.Idx → EReal)
    (hout : ∀ (t : Fin cfg1.N) (h7 : t.val % 8 = 7) (p : Fin 1024) (q : Fin 128) (hr : 1024 * (t.val / 8) + p.val < 16384),
      (Dif1.stateAt (F := Ideal) V c t.val t.isLt).1 (ix2 p q) = G (ix2 ⟨1024 * (t.val / 8) + p.val, hr⟩ q)) :
    (Dif1.dat (F := Ideal) V c).arrAt 2 cfg1.N = G :=
  (Dif1.dat (F := Ideal) V c).arrAt_eq_of_cover 2 G (fun t hf => flushed_eq V c G hout t hf) cover

end Cert.KernelIdeal.Dif1Array

end
-- ==== Proof.Dif1Value.lean ====
/-
  One diffusion step, read as values: what the result array of the region  out = S @ feat  ends holding. At k = 7 the
  body copies the accumulator into the output block, and the accumulator holds rows [1024 i, 1024 i + 1024) of S · feat;
  the 16 points with k = 7 cover the result array.
-/
import proofs.«172064_j31550829756529_1_alg».proof.Proof.Dif1Acc
import proofs.«172064_j31550829756529_1_alg».proof.Proof.Dif1Array

set_option maxRecDepth 16384

noncomputable section

namespace Cert.KernelIdeal.Dif1Value

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.KernelIdeal.Dif1Acc

variable {F : FTy → Type} [FloatOps F]

/-! ## The output block at k = 7 -/

/-- k = 7: the output block is the accumulator read back: the accumulation step from what the accumulator held. -/
theorem out_last_eq (c : Dev nD) (i : grid1.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬Dif1.cond_first i) (hc1 : Dif1.cond_last i)
    (x0 : Vec F S1024x2048 .f32) (x1 : Vec F S2048x128 .f32) (xs : Vec F S1024x128 .f32) :
    Dif1.out_last c i arg2 harg2 arg3 harg3 arg4 harg4 arg5 harg5 hc0 hc1 x0 x1 xs = k1_pay2 x0 x1 xs := by
  unfold Dif1.out_last
  rw [View.read_writes_eq_canon _ _ _ (Dif1.cover_last_out c i arg2 harg2 arg3 harg3 arg4 harg4 arg5 harg5 hc0 hc1 x0 x1 xs)]
  unfold Dif1.run_last
  dsimp only
  sl_unfold_words
  rw [View.canon_unit_zero hz]
  simp only [View.readCov_unit_zero (S := S1024x128) _ hz, View.readAt_eq_ld, harg2.read_unread, harg3.read_unread, harg5.read_unread,
    View.ld_unit_zero (S := S1024x2048) hz, View.ld_unit_zero (S := S2048x128) hz, View.ld_unit_zero (S := S1024x128) hz]

section Out
variable (V : (c : Dev nD) → (b : Ref sig .tc) → Buf (Elt Ideal) ((c : Thread nD τ).loc b))

/-- At k = 7 the output block is written with the accumulator. -/
theorem out_last_at (c : Dev nD) (t : Fin cfg1.N) (h1 : t.val % 8 = 7) (p : Fin 1024) (q : Fin 128) :
    (Dif1.stateAt V c t.val t.isLt).1 (ix2 p q) = (Dif1.stateAt V c t.val t.isLt).2 (ix2 p q) := by
  have h0 : ¬t.val % 8 = 0 := by omega
  rw [Dif1.stateAt_eq V c t, Dif1.step_last V c t _ h0 h1]
  dsimp only
  refine (congrFun (out_last_eq (F := Ideal) c (grid1.coords t) (Dif1.ms_s t) (Dif1.hs_s t) (Dif1.ms_f t) (Dif1.hs_f t) (Dif1.ms_o t) (Dif1.hs_o t) Dif1.scr (Memref.isWhole_whole _) (fun h => h0 ((Dif1.first_iff t).mp h)) ((Dif1.last_iff t).mpr h1) (Dif1.blk V c 0 t) (Dif1.blk V c 1 t) (Dif1.prevAcc V c t)) (ix2 p q)).trans ?_
  exact (congrFun (acc_last_eq (F := Ideal) c (grid1.coords t) (Dif1.ms_s t) (Dif1.hs_s t) (Dif1.ms_f t) (Dif1.hs_f t) (Dif1.ms_o t) (Dif1.hs_o t) Dif1.scr (Memref.isWhole_whole _) (fun h => h0 ((Dif1.first_iff t).mp h)) ((Dif1.last_iff t).mpr h1) (Dif1.blk V c 0 t) (Dif1.blk V c 1 t) (Dif1.prevAcc V c t)) (ix2 p q)).symm

/-- So the output block of point t is rows [1024 (t / 8), 1024 (t / 8) + 1024) of S · feat. -/
theorem out_at (c : Dev nD) (t : Fin cfg1.N) (h7 : t.val % 8 = 7) (p : Fin 1024) (q : Fin 128)
    (hr : 1024 * (t.val / 8) + p.val < 16384) :
    (Dif1.stateAt (F := Ideal) V c t.val t.isLt).1 (ix2 p q)
      = Cert.Spec.mat (V c main_arg1) (V c main_v0) (ix2 ⟨1024 * (t.val / 8) + p.val, hr⟩ q) :=
  (out_last_at V c t h7 p q).trans (acc_total V c t h7 p q hr)

/-- THE RESULT ARRAY after the region: S · feat. The 16 points with k = 7 write its 16 row blocks. -/
theorem array (c : Dev nD) :
    (Dif1.dat (F := Ideal) V c).arrAt 2 cfg1.N = Cert.Spec.mat (V c main_arg1) (V c main_v0) :=
  Dif1Array.array_of V c _ (out_at V c)

end Out

end Cert.KernelIdeal.Dif1Value

end
-- ==== Proof.Dif2Acc.lean ====
/-
  One diffusion step, read as values: the accumulator after every grid point of the region  out = S @ feat.

  Each of the body's three cases leaves the accumulator at one accumulation step (acc + block of S · block of feat)
  from what it held, the case k = 0 from the zero block; so after the point t = 8 i + k the accumulator's element (p, q)
  is  0 + Σ_{b ≤ k} Σ_j S[1024 i + p, 2048 b + j] · feat[2048 b + j, q].  At k = 7 that is the whole contraction, cut
  into its 8 blocks: element (1024 i + p, q) of S · feat.
-/
import proofs.«172064_j31550829756529_1_alg».proof.Proof.Dif2
import proofs.«172064_j31550829756529_1_alg».proof.Proof.PayAt
import proofs.«172064_j31550829756529_1_alg».proof.Proof.Spec
import Idealize.ShloMosaic.Lib.Pipeline.Value
import Idealize.ShloMosaic.Lib.Tactic

set_option maxRecDepth 16384

noncomputable section

namespace Cert.KernelIdeal.Dif2Acc

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

/-! ## What each case of the body leaves, as the body's arithmetic on what it was given

The stores of a case cover the buffer they write, so the buffer ends as their read-back: the last store's payload,
whose loads read whole buffers. At k = 0 the zero block is stored first and read back by the accumulation. -/

theorem hz : (![0, 0] : Fin 2 → Nat) = fun _ => 0 := funext fun a => by fin_cases a <;> rfl

/-- k = 0: the accumulator ends at one accumulation step from the zero block. -/
theorem acc_first_eq (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : Dif2.cond_first i) (hc1 : ¬Dif2.cond_last i)
    (x0 : Vec F S1024x2048 .f32) (x1 : Vec F S2048x128 .f32) :
    Dif2.acc_first c i arg2 harg2 arg3 harg3 arg4 harg4 arg5 harg5 hc0 hc1 x0 x1 = k2_pay2 x0 x1 (k2_pay1 (F := F)) := by
  unfold Dif2.acc_first
  rw [View.read_writes_eq_canon _ _ _ (Dif2.cover_first c i arg2 harg2 arg3 harg3 arg4 harg4 arg5 harg5 hc0 hc1 x0 x1)]
  unfold Dif2.run_first
  dsimp only
  sl_unfold_words
  rw [View.canon_cons_unit_zero (S := S1024x128) hz, View.readCov_unit_zero (S := S1024x128) _ hz]
  simp only [View.readAt_eq_ld, harg2.read_unread, harg3.read_unread, View.ld_unit_zero (S := S1024x2048) hz,
    View.ld_unit_zero (S := S2048x128) hz, View.ld_unit_zero (S := S1024x128) hz]

/-- 0 < k < 7: one accumulation step from what the accumulator held. -/
theorem acc_mid_eq (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬Dif2.cond_first i) (hc1 : ¬Dif2.cond_last i)
    (x0 : Vec F S1024x2048 .f32) (x1 : Vec F S2048x128 .f32) (xs : Vec F S1024x128 .f32) :
    Dif2.acc_mid c i arg2 harg2 arg3 harg3 arg4 harg4 arg5 harg5 hc0 hc1 x0 x1 xs = k2_pay2 x0 x1 xs := by
  unfold Dif2.acc_mid
  rw [View.read_writes_eq_canon _ _ _ (Dif2.cover_mid c i arg2 harg2 arg3 harg3 arg4 harg4 arg5 harg5 hc0 hc1 x0 x1 xs)]
  unfold Dif2.run_mid
  dsimp only
  sl_unfold_words
  rw [View.canon_unit_zero hz]
  simp only [View.readAt_eq_ld, harg2.read_unread, harg3.read_unread, harg5.read_unread, View.ld_unit_zero (S := S1024x2048) hz,
    View.ld_unit_zero (S := S2048x128) hz, View.ld_unit_zero (S := S1024x128) hz]

/-- k = 7: the same step. -/
theorem acc_last_eq (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬Dif2.cond_first i) (hc1 : Dif2.cond_last i)
    (x0 : Vec F S1024x2048 .f32) (x1 : Vec F S2048x128 .f32) (xs : Vec F S1024x128 .f32) :
    Dif2.acc_last c i arg2 harg2 arg3 harg3 arg4 harg4 arg5 harg5 hc0 hc1 x0 x1 xs = k2_pay2 x0 x1 xs := by
  unfold Dif2.acc_last
  rw [View.read_writes_eq_canon _ _ _ (Dif2.cover_last_acc c i arg2 harg2 arg3 harg3 arg4 harg4 arg5 harg5 hc0 hc1 x0 x1 xs)]
  unfold Dif2.run_last
  dsimp only
  sl_unfold_words
  rw [View.canon_unit_zero hz]
  simp only [View.readAt_eq_ld, harg2.read_unread, harg3.read_unread, harg5.read_unread, View.ld_unit_zero (S := S1024x2048) hz,
    View.ld_unit_zero (S := S2048x128) hz, View.ld_unit_zero (S := S1024x128) hz]

/-! ## The blocks the body is given, as entries of the arrays -/

section Blocks
variable (V : (c : Dev nD) → (b : Ref sig .tc) → Buf (Elt F) ((c : Thread nD τ).loc b))

/-- The block of S and the row block of feat that point `t` reads, and the two arrays. -/
abbrev sblk (c : Dev nD) (t : Fin cfg2.N) : Vec F S1024x2048 .f32 := Dif2.blk V c 0 t
abbrev fblk (c : Dev nD) (t : Fin cfg2.N) : Vec F S2048x128 .f32 := Dif2.blk V c 1 t
abbrev sarr (c : Dev nD) : Vec F S16384x16384 .f32 := V c main_arg1
abbrev farr (c : Dev nD) : Vec F S16384x128 .f32 := V c main_v1

/-- The printed index maps over the grid: point t = 8 i + k reads block (i, k) of S and row block k of feat, and its
    output block is row block i. -/
theorem idx_facts : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

/-- Row p of the row block of point n, and column j of its column block, in the arrays. (Total in n: the row is
    taken below 16384, which changes nothing at a point of the grid.) -/
abbrev rowOf (n : ℕ) (p : Fin 1024) : Fin 16384 := ⟨(1024 * (n / 8) + p.val) % 16384, Nat.mod_lt _ (by decide)⟩
abbrev colOf (n : ℕ) (j : Fin 2048) : Fin 16384 := ⟨2048 * (n % 8) + j.val, by have := j.isLt; omega⟩

theorem sblk_at (c : Dev nD) (t : Fin cfg2.N) (p : Fin 1024) (j : Fin 2048) :
    sblk V c t (ix2 p j) = sarr V c (ix2 (rowOf t.val p) (colOf t.val j)) := by
  obtain ⟨e0, e1, -, -, -, -⟩ := idx_facts t
  have hN : t.val < 128 := lt_of_lt_of_eq t.isLt N_2
  unfold sblk Dif2.blk
  rw [View.read_apply]
  show V c main_arg1 (((cfg2.win 0).blk t).view.emb (ix2 p j)) = V c main_arg1 (ix2 (rowOf t.val p) (colOf t.val j))
  refine congrArg (V c main_arg1) (funext fun a => Fin.ext ?_)
  match a with
  | ⟨0, _⟩ =>
    show win2_0.index t (0 : Fin 2) * 1024 + 1 * p.val = (1024 * (t.val / 8) + p.val) % 16384
    have := p.isLt; omega
  | ⟨1, _⟩ =>
    show win2_0.index t (1 : Fin 2) * 2048 + 1 * j.val = 2048 * (t.val % 8) + j.val
    omega

theorem fblk_at (c : Dev nD) (t : Fin cfg2.N) (j : Fin 2048) (q : Fin 128) :
    fblk V c t (ix2 j q) = farr V c (ix2 (colOf t.val j) q) := by
  obtain ⟨-, -, e0, e1, -, -⟩ := idx_facts t
  unfold fblk Dif2.blk
  rw [View.read_apply]
  show V c main_v1 (((cfg2.win 1).blk t).view.emb (ix2 j q)) = V c main_v1 (ix2 (colOf t.val j) q)
  refine congrArg (V c main_v1) (funext fun a => Fin.ext ?_)
  match a with
  | ⟨0, _⟩ =>
    show win2_1.index t (0 : Fin 2) * 2048 + 1 * j.val = 2048 * (t.val % 8) + j.val
    omega
  | ⟨1, _⟩ =>
    show win2_1.index t (1 : Fin 2) * 128 + 1 * q.val = q.val
    omega

end Blocks

/-! ## The accumulator after each point, over the extended reals -/

section Acc
variable (V : (c : Dev nD) → (b : Ref sig .tc) → Buf (Elt Ideal) ((c : Thread nD τ).loc b))

/-- What the point at position n adds to element (p, q) of the accumulator: the product of its block of S and its row
    block of feat, Σ_j S[row, col j] · feat[col j, q]. -/
def term (c : Dev nD) (n : ℕ) (p : Fin 1024) (q : Fin 128) : EReal :=
  ∑ j : Fin 2048, sarr V c (ix2 (rowOf n p) (colOf n j)) * farr V c (ix2 (colOf n j) q)

/-- One accumulation step on the blocks of point t, at an element. -/
theorem step_at (c : Dev nD) (t : Fin cfg2.N) (a : Vec Ideal S1024x128 .f32) (p : Fin 1024) (q : Fin 128) :
    k2_pay2 (F := Ideal) (sblk V c t) (fblk V c t) a (ix2 p q) = a (ix2 p q) + term V c t.val p q := by
  refine (PayAt.acc2_at (sblk V c t) (fblk V c t) a p q).trans ?_
  refine congrArg (a (ix2 p q) + ·) (Finset.sum_congr rfl fun j _ => ?_)
  rw [sblk_at V c t p j, fblk_at V c t j q]

/-- A point with k = 0 leaves the accumulator at 0 + its term; -/
theorem acc_first_at (c : Dev nD) (t : Fin cfg2.N) (h0 : t.val % 8 = 0) (p : Fin 1024) (q : Fin 128) :
    (Dif2.stateAt V c t.val t.isLt).2 (ix2 p q) = 0 + term V c t.val p q := by
  rw [Dif2.stateAt_eq V c t, Dif2.step_first V c t _ h0]
  dsimp only
  refine (congrFun (acc_first_eq (F := Ideal) c (grid2.coords t) (Dif2.ms_s t) (Dif2.hs_s t) (Dif2.ms_f t) (Dif2.hs_f t) (Dif2.ms_o t) (Dif2.hs_o t) Dif2.scr (Memref.isWhole_whole _) ((Dif2.first_iff t).mpr h0) (fun h => by have := (Dif2.last_iff t).mp h; omega) (Dif2.blk V c 0 t) (Dif2.blk V c 1 t)) (ix2 p q)).trans ?_
  refine (step_at V c t (k2_pay1 (F := Ideal)) p q).trans ?_
  rw [PayAt.zero2_at p q]

/-- a later point adds its term to what the point before left. -/
theorem acc_next_at (c : Dev nD) (t : Fin cfg2.N) (h0 : ¬t.val % 8 = 0) (p : Fin 1024) (q : Fin 128) :
    (Dif2.stateAt V c t.val t.isLt).2 (ix2 p q)
      = (Dif2.stateAt V c (t.val - 1) (Nat.lt_of_le_of_lt (Nat.sub_le _ _) t.isLt)).2 (ix2 p q) + term V c t.val p q := by
  have hz : t.val ≠ 0 := fun h => h0 (by rw [h])
  rw [Dif2.stateAt_eq V c t, Dif2.prevAcc_pos V c t hz]
  by_cases h1 : t.val % 8 = 7
  · rw [Dif2.step_last V c t _ h0 h1]
    dsimp only
    refine (congrFun (acc_last_eq (F := Ideal) c (grid2.coords t) (Dif2.ms_s t) (Dif2.hs_s t) (Dif2.ms_f t) (Dif2.hs_f t) (Dif2.ms_o t) (Dif2.hs_o t) Dif2.scr (Memref.isWhole_whole _) (fun h => h0 ((Dif2.first_iff t).mp h)) ((Dif2.last_iff t).mpr h1) (Dif2.blk V c 0 t) (Dif2.blk V c 1 t) (Dif2.stateAt V c (t.val - 1) (Nat.lt_of_le_of_lt (Nat.sub_le _ _) t.isLt)).2) (ix2 p q)).trans ?_
    exact step_at V c t _ p q
  · rw [Dif2.step_mid V c t _ h0 h1]
    dsimp only
    refine (congrFun (acc_mid_eq (F := Ideal) c (grid2.coords t) (Dif2.ms_s t) (Dif2.hs_s t) (Dif2.ms_f t) (Dif2.hs_f t) (Dif2.ms_o t) (Dif2.hs_o t) Dif2.scr (Memref.isWhole_whole _) (fun h => h0 ((Dif2.first_iff t).mp h)) (fun h => h1 ((Dif2.last_iff t).mp h)) (Dif2.blk V c 0 t) (Dif2.blk V c 1 t) (Dif2.stateAt V c (t.val - 1) (Nat.lt_of_le_of_lt (Nat.sub_le _ _) t.isLt)).2) (ix2 p q)).trans ?_
    exact step_at V c t _ p q

/-- THE ACCUMULATOR IN CLOSED FORM: after the point at position n = 8 i + k its element (p, q) is 0 plus the terms of
    the points 8 i, …, 8 i + k of its row block. By induction on the position. -/
theorem acc_closed (c : Dev nD) (p : Fin 1024) (q : Fin 128) : ∀ (n : ℕ) (hn : n < cfg2.N),
    (Dif2.stateAt V c n hn).2 (ix2 p q) = 0 + ∑ b ∈ Finset.range (n % 8 + 1), term V c (8 * (n / 8) + b) p q
  | 0, hn => by
    refine (acc_first_at V c ⟨0, hn⟩ rfl p q).trans ?_
    rw [Finset.sum_range_one]
  | n + 1, hn => by
    by_cases h0 : (n + 1) % 8 = 0
    · refine (acc_first_at V c ⟨n + 1, hn⟩ h0 p q).trans ?_
      rw [h0, Finset.sum_range_one]
      exact congrArg (fun m => 0 + term V c m p q) (show n + 1 = 8 * ((n + 1) / 8) + 0 by omega)
    · refine (acc_next_at V c ⟨n + 1, hn⟩ h0 p q).trans ?_
      show (Dif2.stateAt V c n _).2 (ix2 p q) + term V c (n + 1) p q = _
      rw [acc_closed c p q n (Nat.lt_of_succ_lt hn), show (n + 1) % 8 + 1 = (n % 8 + 1) + 1 by omega,
        show (n + 1) / 8 = n / 8 by omega,
        Finset.sum_range_succ (fun b => term V c (8 * (n / 8) + b) p q) (n % 8 + 1), add_assoc]
      exact congrArg (fun m => 0 + (∑ b ∈ Finset.range (n % 8 + 1), term V c (8 * (n / 8) + b) p q + term V c m p q))
        (show n + 1 = 8 * (n / 8) + (n % 8 + 1) by omega)

end Acc

/-! ## The accumulator at the end of a row block -/

section Total
variable (V : (c : Dev nD) → (b : Ref sig .tc) → Buf (Elt Ideal) ((c : Thread nD τ).loc b))

/-- At k = 7 the eight terms of the row block are the whole contraction, cut into its 8 blocks of 2048: the
    accumulator after point t holds rows [1024 (t / 8), 1024 (t / 8) + 1024) of S · feat. -/
theorem acc_total (c : Dev nD) (t : Fin cfg2.N) (h7 : t.val % 8 = 7) (p : Fin 1024) (q : Fin 128)
    (hr : 1024 * (t.val / 8) + p.val < 16384) :
    (Dif2.stateAt (F := Ideal) V c t.val t.isLt).2 (ix2 p q)
      = Cert.Spec.mat (V c main_arg1) (V c main_v1) (ix2 ⟨1024 * (t.val / 8) + p.val, hr⟩ q) := by
  rw [acc_closed V c p q t.val t.isLt, h7, zero_add]
  refine Eq.trans ?_ (Cert.Spec.mat_blocks (V c main_arg1) (V c main_v1) ⟨1024 * (t.val / 8) + p.val, hr⟩ q).symm
  refine (Finset.sum_range fun b => term V c (8 * (t.val / 8) + b) p q).trans ?_
  refine Finset.sum_congr rfl fun b _ => ?_
  unfold term
  refine Finset.sum_congr rfl fun j _ => ?_
  have hb : b.val < 8 := b.isLt
  have e1 : rowOf (8 * (t.val / 8) + b.val) p = ⟨1024 * (t.val / 8) + p.val, hr⟩ := Fin.ext (by
    show (1024 * ((8 * (t.val / 8) + b.val) / 8) + p.val) % 16384 = 1024 * (t.val / 8) + p.val
    omega)
  have e2 : colOf (8 * (t.val / 8) + b.val) j = ⟨2048 * b.val + j.val, by have := j.isLt; omega⟩ := Fin.ext (by
    show 2048 * ((8 * (t.val / 8) + b.val) % 8) + j.val = 2048 * b.val + j.val
    omega)
  rw [e1, e2]

end Total

end Cert.KernelIdeal.Dif2Acc

end
-- ==== Proof.Dif2Array.lean ====
/-
  A diffusion region's result array from its written blocks.

  The region's grid is 16 × 8; point t = 8 i + k works on row block i (1024 rows) and column block k, and the
  output block, rows [1024 i, 1024 i + 1024), is written back only at k = 7. If, at every point with k = 7, the
  output block's element (p, q) is a function G at (1024 i + p, q), then the array ends holding G: row r lies in
  the block of the point 8 (r / 1024) + 7, which writes back, so the written blocks cover the array.
-/
import proofs.«172064_j31550829756529_1_alg».proof.Proof.Dif2
import proofs.«172064_j31550829756529_1_alg».proof.Proof.Spec
import Idealize.ShloMosaic.Lib.Pipeline.Value
import Idealize.ShloMosaic.Lib.ValueIdx

noncomputable section

namespace Cert.KernelIdeal.Dif2Array

open Cert.KernelIdeal Cert.KernelIdeal.Gen Idealize.ShloMosaic Idealize.ShloMosaic.ValueIdx
open Idealize.ShloMosaic.TcCoe

/-! ## The output's printed index map, decided once over the grid -/

theorem idx_facts : ∀ t : Fin cfg2.N,
    win2_2.index t (0 : Fin 2) = t.val / 8 ∧ win2_2.index t (1 : Fin 2) = 0 :=
  (by decide +kernel : ∀ t : Fin grid2.N, _)

/-- Row p of point t's output block is a row of the array. -/
theorem row_lt (t : Fin cfg2.N) (p : Fin 1024) : 1024 * (t.val / 8) + p.val < 16384 := by
  have ht := t.isLt; have hN : cfg2.N = 128 := N_2; omega

variable (V : (c : Dev nD) → (b : Ref sig .tc) → Buf (Elt Ideal) ((c : Thread nD τ).loc b))

/-! ## What a point writes back -/

/-- A point that writes back writes block t of G. -/
theorem flushed_eq (c : Dev nD) (G : Cert.Spec.SF.Idx → EReal)
    (hout : ∀ (t : Fin cfg2.N) (h7 : t.val % 8 = 7) (p : Fin 1024) (q : Fin 128) (hr : 1024 * (t.val / 8) + p.val < 16384),
      (Dif2.stateAt (F := Ideal) V c t.val t.isLt).1 (ix2 p q) = G (ix2 ⟨1024 * (t.val / 8) + p.val, hr⟩ q))
    (t : Fin cfg2.N) (hf : (cfg2.win 2).flush t = true) :
    (Dif2.dat (F := Ideal) V c).flushed 2 t = ((cfg2.win 2).blk t).view.read (Elt Ideal) G := by
  have h7 : t.val % 8 = 7 := (flush2_2 t).mp hf
  show (cfg2.win 2).cut (grid2.coords t) ((Dif2.dat V c).after 2 t) = _
  rw [Dif2.after_o]
  obtain ⟨e0, e1⟩ := idx_facts t
  funext y
  have hy0 : (y 0).val < 1024 := (y 0).isLt
  have hy1 : (y 1).val < 128 := (y 1).isLt
  rw [View.read_apply]
  have hx : (cfg2.win 2).xinj (grid2.coords t) y = ix2 (⟨(y 0).val, hy0⟩ : Fin 1024) (⟨(y 1).val, hy1⟩ : Fin 128) :=
    funext fun a => Fin.ext (by match a with | ⟨0, _⟩ => rfl | ⟨1, _⟩ => rfl)
  have he : ((cfg2.win 2).blk t).view.emb y
      = ix2 (⟨1024 * (t.val / 8) + (y 0).val, row_lt t ⟨(y 0).val, hy0⟩⟩ : Fin 16384) (⟨(y 1).val, hy1⟩ : Fin 128) :=
    funext fun a => Fin.ext (by
      match a with
      | ⟨0, _⟩ => show win2_2.index t (0 : Fin 2) * 1024 + 1 * (y 0).val = 1024 * (t.val / 8) + (y 0).val; omega
      | ⟨1, _⟩ => show win2_2.index t (1 : Fin 2) * 128 + 1 * (y 1).val = (y 1).val; omega)
  show (Dif2.stateAt (F := Ideal) V c t.val t.isLt).1 ((cfg2.win 2).xinj (grid2.coords t) y)
    = G (((cfg2.win 2).blk t).view.emb y)
  rw [hx, he]
  exact hout t h7 ⟨(y 0).val, hy0⟩ ⟨(y 1).val, hy1⟩ (row_lt t ⟨(y 0).val, hy0⟩)

/-! ## The written blocks cover the array -/

/-- An index of the array is in point t's block iff each coordinate is in the block's range on its axis. -/
theorem mem_blk (t : Fin cfg2.N) (i : S16384x128.Idx) :
    i ∈ ((cfg2.win 2).blk t).view.set ↔ ∀ a : Fin 2, win2_2.index t a * S1024x128.size a ≤ (i a).val
      ∧ (i a).val < win2_2.index t a * S1024x128.size a + S1024x128.size a := by
  show i ∈ ((View.whole (Pipeline.arrRef spec2 2)).slice (win2_2.rect t)).set ↔ _
  rw [View.set_slice_whole, Rect.mem_set_unit]
  exact Iff.rfl

/-- Row r lies in the block of the point 8 (r / 1024) + 7, which writes its block back. -/
theorem cover (i : S16384x128.Idx) :
    ∃ t : Fin cfg2.N, (cfg2.win 2).flush t = true ∧ i ∈ ((cfg2.win 2).blk t).view.set := by
  have hi0 : (i 0).val < 16384 := (i 0).isLt
  have hi1 : (i 1).val < 128 := (i 1).isLt
  have hN : cfg2.N = 128 := N_2
  obtain ⟨t, ht⟩ : ∃ t : Fin cfg2.N, t.val = 8 * ((i 0).val / 1024) + 7 :=
    ⟨⟨8 * ((i 0).val / 1024) + 7, by omega⟩, rfl⟩
  obtain ⟨e0, e1⟩ := idx_facts t
  refine ⟨t, (flush2_2 t).mpr (by omega), ?_⟩
  rw [mem_blk]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 128 ≤ (i 1).val ∧ (i 1).val < win2_2.index t (1 : Fin 2) * 128 + 128; omega

/-! ## The array after the region -/

/-- If every written output block is its block of G, the output array ends holding G. -/
theorem array_of (c : Dev nD) (G : Cert.Spec.SF.Idx → EReal)
    (hout : ∀ (t : Fin cfg2.N) (h7 : t.val % 8 = 7) (p : Fin 1024) (q : Fin 128) (hr : 1024 * (t.val / 8) + p.val < 16384),
      (Dif2.stateAt (F := Ideal) V c t.val t.isLt).1 (ix2 p q) = G (ix2 ⟨1024 * (t.val / 8) + p.val, hr⟩ q)) :
    (Dif2.dat (F := Ideal) V c).arrAt 2 cfg2.N = G :=
  (Dif2.dat (F := Ideal) V c).arrAt_eq_of_cover 2 G (fun t hf => flushed_eq V c G hout t hf) cover

end Cert.KernelIdeal.Dif2Array

end
-- ==== Proof.Dif2Value.lean ====
/-
  One diffusion step, read as values: what the result array of the region  out = S @ feat  ends holding. At k = 7 the
  body copies the accumulator into the output block, and the accumulator holds rows [1024 i, 1024 i + 1024) of S · feat;
  the 16 points with k = 7 cover the result array.
-/
import proofs.«172064_j31550829756529_1_alg».proof.Proof.Dif2Acc
import proofs.«172064_j31550829756529_1_alg».proof.Proof.Dif2Array

set_option maxRecDepth 16384

noncomputable section

namespace Cert.KernelIdeal.Dif2Value

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.KernelIdeal.Dif2Acc

variable {F : FTy → Type} [FloatOps F]

/-! ## The output block at k = 7 -/

/-- k = 7: the output block is the accumulator read back: the accumulation step from what the accumulator held. -/
theorem out_last_eq (c : Dev nD) (i : grid2.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬Dif2.cond_first i) (hc1 : Dif2.cond_last i)
    (x0 : Vec F S1024x2048 .f32) (x1 : Vec F S2048x128 .f32) (xs : Vec F S1024x128 .f32) :
    Dif2.out_last c i arg2 harg2 arg3 harg3 arg4 harg4 arg5 harg5 hc0 hc1 x0 x1 xs = k2_pay2 x0 x1 xs := by
  unfold Dif2.out_last
  rw [View.read_writes_eq_canon _ _ _ (Dif2.cover_last_out c i arg2 harg2 arg3 harg3 arg4 harg4 arg5 harg5 hc0 hc1 x0 x1 xs)]
  unfold Dif2.run_last
  dsimp only
  sl_unfold_words
  rw [View.canon_unit_zero hz]
  simp only [View.readCov_unit_zero (S := S1024x128) _ hz, View.readAt_eq_ld, harg2.read_unread, harg3.read_unread, harg5.read_unread,
    View.ld_unit_zero (S := S1024x2048) hz, View.ld_unit_zero (S := S2048x128) hz, View.ld_unit_zero (S := S1024x128) hz]

section Out
variable (V : (c : Dev nD) → (b : Ref sig .tc) → Buf (Elt Ideal) ((c : Thread nD τ).loc b))

/-- At k = 7 the output block is written with the accumulator. -/
theorem out_last_at (c : Dev nD) (t : Fin cfg2.N) (h1 : t.val % 8 = 7) (p : Fin 1024) (q : Fin 128) :
    (Dif2.stateAt V c t.val t.isLt).1 (ix2 p q) = (Dif2.stateAt V c t.val t.isLt).2 (ix2 p q) := by
  have h0 : ¬t.val % 8 = 0 := by omega
  rw [Dif2.stateAt_eq V c t, Dif2.step_last V c t _ h0 h1]
  dsimp only
  refine (congrFun (out_last_eq (F := Ideal) c (grid2.coords t) (Dif2.ms_s t) (Dif2.hs_s t) (Dif2.ms_f t) (Dif2.hs_f t) (Dif2.ms_o t) (Dif2.hs_o t) Dif2.scr (Memref.isWhole_whole _) (fun h => h0 ((Dif2.first_iff t).mp h)) ((Dif2.last_iff t).mpr h1) (Dif2.blk V c 0 t) (Dif2.blk V c 1 t) (Dif2.prevAcc V c t)) (ix2 p q)).trans ?_
  exact (congrFun (acc_last_eq (F := Ideal) c (grid2.coords t) (Dif2.ms_s t) (Dif2.hs_s t) (Dif2.ms_f t) (Dif2.hs_f t) (Dif2.ms_o t) (Dif2.hs_o t) Dif2.scr (Memref.isWhole_whole _) (fun h => h0 ((Dif2.first_iff t).mp h)) ((Dif2.last_iff t).mpr h1) (Dif2.blk V c 0 t) (Dif2.blk V c 1 t) (Dif2.prevAcc V c t)) (ix2 p q)).symm

/-- So the output block of point t is rows [1024 (t / 8), 1024 (t / 8) + 1024) of S · feat. -/
theorem out_at (c : Dev nD) (t : Fin cfg2.N) (h7 : t.val % 8 = 7) (p : Fin 1024) (q : Fin 128)
    (hr : 1024 * (t.val / 8) + p.val < 16384) :
    (Dif2.stateAt (F := Ideal) V c t.val t.isLt).1 (ix2 p q)
      = Cert.Spec.mat (V c main_arg1) (V c main_v1) (ix2 ⟨1024 * (t.val / 8) + p.val, hr⟩ q) :=
  (out_last_at V c t h7 p q).trans (acc_total V c t h7 p q hr)

/-- THE RESULT ARRAY after the region: S · feat. The 16 points with k = 7 write its 16 row blocks. -/
theorem array (c : Dev nD) :
    (Dif2.dat (F := Ideal) V c).arrAt 2 cfg2.N = Cert.Spec.mat (V c main_arg1) (V c main_v1) :=
  Dif2Array.array_of V c _ (out_at V c)

end Out

end Cert.KernelIdeal.Dif2Value

end
-- ==== Proof.Dif3Acc.lean ====
/-
  One diffusion step, read as values: the accumulator after every grid point of the region  out = S @ feat.

  Each of the body's three cases leaves the accumulator at one accumulation step (acc + block of S · block of feat)
  from what it held, the case k = 0 from the zero block; so after the point t = 8 i + k the accumulator's element (p, q)
  is  0 + Σ_{b ≤ k} Σ_j S[1024 i + p, 2048 b + j] · feat[2048 b + j, q].  At k = 7 that is the whole contraction, cut
  into its 8 blocks: element (1024 i + p, q) of S · feat.
-/
import proofs.«172064_j31550829756529_1_alg».proof.Proof.Dif3
import proofs.«172064_j31550829756529_1_alg».proof.Proof.PayAt
import proofs.«172064_j31550829756529_1_alg».proof.Proof.Spec
import Idealize.ShloMosaic.Lib.Pipeline.Value
import Idealize.ShloMosaic.Lib.Tactic

set_option maxRecDepth 16384

noncomputable section

namespace Cert.KernelIdeal.Dif3Acc

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

/-! ## What each case of the body leaves, as the body's arithmetic on what it was given

The stores of a case cover the buffer they write, so the buffer ends as their read-back: the last store's payload,
whose loads read whole buffers. At k = 0 the zero block is stored first and read back by the accumulation. -/

theorem hz : (![0, 0] : Fin 2 → Nat) = fun _ => 0 := funext fun a => by fin_cases a <;> rfl

/-- k = 0: the accumulator ends at one accumulation step from the zero block. -/
theorem acc_first_eq (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : Dif3.cond_first i) (hc1 : ¬Dif3.cond_last i)
    (x0 : Vec F S1024x2048 .f32) (x1 : Vec F S2048x128 .f32) :
    Dif3.acc_first c i arg2 harg2 arg3 harg3 arg4 harg4 arg5 harg5 hc0 hc1 x0 x1 = k3_pay2 x0 x1 (k3_pay1 (F := F)) := by
  unfold Dif3.acc_first
  rw [View.read_writes_eq_canon _ _ _ (Dif3.cover_first c i arg2 harg2 arg3 harg3 arg4 harg4 arg5 harg5 hc0 hc1 x0 x1)]
  unfold Dif3.run_first
  dsimp only
  sl_unfold_words
  rw [View.canon_cons_unit_zero (S := S1024x128) hz, View.readCov_unit_zero (S := S1024x128) _ hz]
  simp only [View.readAt_eq_ld, harg2.read_unread, harg3.read_unread, View.ld_unit_zero (S := S1024x2048) hz,
    View.ld_unit_zero (S := S2048x128) hz, View.ld_unit_zero (S := S1024x128) hz]

/-- 0 < k < 7: one accumulation step from what the accumulator held. -/
theorem acc_mid_eq (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬Dif3.cond_first i) (hc1 : ¬Dif3.cond_last i)
    (x0 : Vec F S1024x2048 .f32) (x1 : Vec F S2048x128 .f32) (xs : Vec F S1024x128 .f32) :
    Dif3.acc_mid c i arg2 harg2 arg3 harg3 arg4 harg4 arg5 harg5 hc0 hc1 x0 x1 xs = k3_pay2 x0 x1 xs := by
  unfold Dif3.acc_mid
  rw [View.read_writes_eq_canon _ _ _ (Dif3.cover_mid c i arg2 harg2 arg3 harg3 arg4 harg4 arg5 harg5 hc0 hc1 x0 x1 xs)]
  unfold Dif3.run_mid
  dsimp only
  sl_unfold_words
  rw [View.canon_unit_zero hz]
  simp only [View.readAt_eq_ld, harg2.read_unread, harg3.read_unread, harg5.read_unread, View.ld_unit_zero (S := S1024x2048) hz,
    View.ld_unit_zero (S := S2048x128) hz, View.ld_unit_zero (S := S1024x128) hz]

/-- k = 7: the same step. -/
theorem acc_last_eq (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬Dif3.cond_first i) (hc1 : Dif3.cond_last i)
    (x0 : Vec F S1024x2048 .f32) (x1 : Vec F S2048x128 .f32) (xs : Vec F S1024x128 .f32) :
    Dif3.acc_last c i arg2 harg2 arg3 harg3 arg4 harg4 arg5 harg5 hc0 hc1 x0 x1 xs = k3_pay2 x0 x1 xs := by
  unfold Dif3.acc_last
  rw [View.read_writes_eq_canon _ _ _ (Dif3.cover_last_acc c i arg2 harg2 arg3 harg3 arg4 harg4 arg5 harg5 hc0 hc1 x0 x1 xs)]
  unfold Dif3.run_last
  dsimp only
  sl_unfold_words
  rw [View.canon_unit_zero hz]
  simp only [View.readAt_eq_ld, harg2.read_unread, harg3.read_unread, harg5.read_unread, View.ld_unit_zero (S := S1024x2048) hz,
    View.ld_unit_zero (S := S2048x128) hz, View.ld_unit_zero (S := S1024x128) hz]

/-! ## The blocks the body is given, as entries of the arrays -/

section Blocks
variable (V : (c : Dev nD) → (b : Ref sig .tc) → Buf (Elt F) ((c : Thread nD τ).loc b))

/-- The block of S and the row block of feat that point `t` reads, and the two arrays. -/
abbrev sblk (c : Dev nD) (t : Fin cfg3.N) : Vec F S1024x2048 .f32 := Dif3.blk V c 0 t
abbrev fblk (c : Dev nD) (t : Fin cfg3.N) : Vec F S2048x128 .f32 := Dif3.blk V c 1 t
abbrev sarr (c : Dev nD) : Vec F S16384x16384 .f32 := V c main_arg1
abbrev farr (c : Dev nD) : Vec F S16384x128 .f32 := V c main_v2

/-- The printed index maps over the grid: point t = 8 i + k reads block (i, k) of S and row block k of feat, and its
    output block is row block i. -/
theorem idx_facts : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0 :=
  (by decide +kernel : ∀ t : Fin grid3.N, _)

/-- Row p of the row block of point n, and column j of its column block, in the arrays. (Total in n: the row is
    taken below 16384, which changes nothing at a point of the grid.) -/
abbrev rowOf (n : ℕ) (p : Fin 1024) : Fin 16384 := ⟨(1024 * (n / 8) + p.val) % 16384, Nat.mod_lt _ (by decide)⟩
abbrev colOf (n : ℕ) (j : Fin 2048) : Fin 16384 := ⟨2048 * (n % 8) + j.val, by have := j.isLt; omega⟩

theorem sblk_at (c : Dev nD) (t : Fin cfg3.N) (p : Fin 1024) (j : Fin 2048) :
    sblk V c t (ix2 p j) = sarr V c (ix2 (rowOf t.val p) (colOf t.val j)) := by
  obtain ⟨e0, e1, -, -, -, -⟩ := idx_facts t
  have hN : t.val < 128 := lt_of_lt_of_eq t.isLt N_3
  unfold sblk Dif3.blk
  rw [View.read_apply]
  show V c main_arg1 (((cfg3.win 0).blk t).view.emb (ix2 p j)) = V c main_arg1 (ix2 (rowOf t.val p) (colOf t.val j))
  refine congrArg (V c main_arg1) (funext fun a => Fin.ext ?_)
  match a with
  | ⟨0, _⟩ =>
    show win3_0.index t (0 : Fin 2) * 1024 + 1 * p.val = (1024 * (t.val / 8) + p.val) % 16384
    have := p.isLt; omega
  | ⟨1, _⟩ =>
    show win3_0.index t (1 : Fin 2) * 2048 + 1 * j.val = 2048 * (t.val % 8) + j.val
    omega

theorem fblk_at (c : Dev nD) (t : Fin cfg3.N) (j : Fin 2048) (q : Fin 128) :
    fblk V c t (ix2 j q) = farr V c (ix2 (colOf t.val j) q) := by
  obtain ⟨-, -, e0, e1, -, -⟩ := idx_facts t
  unfold fblk Dif3.blk
  rw [View.read_apply]
  show V c main_v2 (((cfg3.win 1).blk t).view.emb (ix2 j q)) = V c main_v2 (ix2 (colOf t.val j) q)
  refine congrArg (V c main_v2) (funext fun a => Fin.ext ?_)
  match a with
  | ⟨0, _⟩ =>
    show win3_1.index t (0 : Fin 2) * 2048 + 1 * j.val = 2048 * (t.val % 8) + j.val
    omega
  | ⟨1, _⟩ =>
    show win3_1.index t (1 : Fin 2) * 128 + 1 * q.val = q.val
    omega

end Blocks

/-! ## The accumulator after each point, over the extended reals -/

section Acc
variable (V : (c : Dev nD) → (b : Ref sig .tc) → Buf (Elt Ideal) ((c : Thread nD τ).loc b))

/-- What the point at position n adds to element (p, q) of the accumulator: the product of its block of S and its row
    block of feat, Σ_j S[row, col j] · feat[col j, q]. -/
def term (c : Dev nD) (n : ℕ) (p : Fin 1024) (q : Fin 128) : EReal :=
  ∑ j : Fin 2048, sarr V c (ix2 (rowOf n p) (colOf n j)) * farr V c (ix2 (colOf n j) q)

/-- One accumulation step on the blocks of point t, at an element. -/
theorem step_at (c : Dev nD) (t : Fin cfg3.N) (a : Vec Ideal S1024x128 .f32) (p : Fin 1024) (q : Fin 128) :
    k3_pay2 (F := Ideal) (sblk V c t) (fblk V c t) a (ix2 p q) = a (ix2 p q) + term V c t.val p q := by
  refine (PayAt.acc3_at (sblk V c t) (fblk V c t) a p q).trans ?_
  refine congrArg (a (ix2 p q) + ·) (Finset.sum_congr rfl fun j _ => ?_)
  rw [sblk_at V c t p j, fblk_at V c t j q]

/-- A point with k = 0 leaves the accumulator at 0 + its term; -/
theorem acc_first_at (c : Dev nD) (t : Fin cfg3.N) (h0 : t.val % 8 = 0) (p : Fin 1024) (q : Fin 128) :
    (Dif3.stateAt V c t.val t.isLt).2 (ix2 p q) = 0 + term V c t.val p q := by
  rw [Dif3.stateAt_eq V c t, Dif3.step_first V c t _ h0]
  dsimp only
  refine (congrFun (acc_first_eq (F := Ideal) c (grid3.coords t) (Dif3.ms_s t) (Dif3.hs_s t) (Dif3.ms_f t) (Dif3.hs_f t) (Dif3.ms_o t) (Dif3.hs_o t) Dif3.scr (Memref.isWhole_whole _) ((Dif3.first_iff t).mpr h0) (fun h => by have := (Dif3.last_iff t).mp h; omega) (Dif3.blk V c 0 t) (Dif3.blk V c 1 t)) (ix2 p q)).trans ?_
  refine (step_at V c t (k3_pay1 (F := Ideal)) p q).trans ?_
  rw [PayAt.zero3_at p q]

/-- a later point adds its term to what the point before left. -/
theorem acc_next_at (c : Dev nD) (t : Fin cfg3.N) (h0 : ¬t.val % 8 = 0) (p : Fin 1024) (q : Fin 128) :
    (Dif3.stateAt V c t.val t.isLt).2 (ix2 p q)
      = (Dif3.stateAt V c (t.val - 1) (Nat.lt_of_le_of_lt (Nat.sub_le _ _) t.isLt)).2 (ix2 p q) + term V c t.val p q := by
  have hz : t.val ≠ 0 := fun h => h0 (by rw [h])
  rw [Dif3.stateAt_eq V c t, Dif3.prevAcc_pos V c t hz]
  by_cases h1 : t.val % 8 = 7
  · rw [Dif3.step_last V c t _ h0 h1]
    dsimp only
    refine (congrFun (acc_last_eq (F := Ideal) c (grid3.coords t) (Dif3.ms_s t) (Dif3.hs_s t) (Dif3.ms_f t) (Dif3.hs_f t) (Dif3.ms_o t) (Dif3.hs_o t) Dif3.scr (Memref.isWhole_whole _) (fun h => h0 ((Dif3.first_iff t).mp h)) ((Dif3.last_iff t).mpr h1) (Dif3.blk V c 0 t) (Dif3.blk V c 1 t) (Dif3.stateAt V c (t.val - 1) (Nat.lt_of_le_of_lt (Nat.sub_le _ _) t.isLt)).2) (ix2 p q)).trans ?_
    exact step_at V c t _ p q
  · rw [Dif3.step_mid V c t _ h0 h1]
    dsimp only
    refine (congrFun (acc_mid_eq (F := Ideal) c (grid3.coords t) (Dif3.ms_s t) (Dif3.hs_s t) (Dif3.ms_f t) (Dif3.hs_f t) (Dif3.ms_o t) (Dif3.hs_o t) Dif3.scr (Memref.isWhole_whole _) (fun h => h0 ((Dif3.first_iff t).mp h)) (fun h => h1 ((Dif3.last_iff t).mp h)) (Dif3.blk V c 0 t) (Dif3.blk V c 1 t) (Dif3.stateAt V c (t.val - 1) (Nat.lt_of_le_of_lt (Nat.sub_le _ _) t.isLt)).2) (ix2 p q)).trans ?_
    exact step_at V c t _ p q

/-- THE ACCUMULATOR IN CLOSED FORM: after the point at position n = 8 i + k its element (p, q) is 0 plus the terms of
    the points 8 i, …, 8 i + k of its row block. By induction on the position. -/
theorem acc_closed (c : Dev nD) (p : Fin 1024) (q : Fin 128) : ∀ (n : ℕ) (hn : n < cfg3.N),
    (Dif3.stateAt V c n hn).2 (ix2 p q) = 0 + ∑ b ∈ Finset.range (n % 8 + 1), term V c (8 * (n / 8) + b) p q
  | 0, hn => by
    refine (acc_first_at V c ⟨0, hn⟩ rfl p q).trans ?_
    rw [Finset.sum_range_one]
  | n + 1, hn => by
    by_cases h0 : (n + 1) % 8 = 0
    · refine (acc_first_at V c ⟨n + 1, hn⟩ h0 p q).trans ?_
      rw [h0, Finset.sum_range_one]
      exact congrArg (fun m => 0 + term V c m p q) (show n + 1 = 8 * ((n + 1) / 8) + 0 by omega)
    · refine (acc_next_at V c ⟨n + 1, hn⟩ h0 p q).trans ?_
      show (Dif3.stateAt V c n _).2 (ix2 p q) + term V c (n + 1) p q = _
      rw [acc_closed c p q n (Nat.lt_of_succ_lt hn), show (n + 1) % 8 + 1 = (n % 8 + 1) + 1 by omega,
        show (n + 1) / 8 = n / 8 by omega,
        Finset.sum_range_succ (fun b => term V c (8 * (n / 8) + b) p q) (n % 8 + 1), add_assoc]
      exact congrArg (fun m => 0 + (∑ b ∈ Finset.range (n % 8 + 1), term V c (8 * (n / 8) + b) p q + term V c m p q))
        (show n + 1 = 8 * (n / 8) + (n % 8 + 1) by omega)

end Acc

/-! ## The accumulator at the end of a row block -/

section Total
variable (V : (c : Dev nD) → (b : Ref sig .tc) → Buf (Elt Ideal) ((c : Thread nD τ).loc b))

/-- At k = 7 the eight terms of the row block are the whole contraction, cut into its 8 blocks of 2048: the
    accumulator after point t holds rows [1024 (t / 8), 1024 (t / 8) + 1024) of S · feat. -/
theorem acc_total (c : Dev nD) (t : Fin cfg3.N) (h7 : t.val % 8 = 7) (p : Fin 1024) (q : Fin 128)
    (hr : 1024 * (t.val / 8) + p.val < 16384) :
    (Dif3.stateAt (F := Ideal) V c t.val t.isLt).2 (ix2 p q)
      = Cert.Spec.mat (V c main_arg1) (V c main_v2) (ix2 ⟨1024 * (t.val / 8) + p.val, hr⟩ q) := by
  rw [acc_closed V c p q t.val t.isLt, h7, zero_add]
  refine Eq.trans ?_ (Cert.Spec.mat_blocks (V c main_arg1) (V c main_v2) ⟨1024 * (t.val / 8) + p.val, hr⟩ q).symm
  refine (Finset.sum_range fun b => term V c (8 * (t.val / 8) + b) p q).trans ?_
  refine Finset.sum_congr rfl fun b _ => ?_
  unfold term
  refine Finset.sum_congr rfl fun j _ => ?_
  have hb : b.val < 8 := b.isLt
  have e1 : rowOf (8 * (t.val / 8) + b.val) p = ⟨1024 * (t.val / 8) + p.val, hr⟩ := Fin.ext (by
    show (1024 * ((8 * (t.val / 8) + b.val) / 8) + p.val) % 16384 = 1024 * (t.val / 8) + p.val
    omega)
  have e2 : colOf (8 * (t.val / 8) + b.val) j = ⟨2048 * b.val + j.val, by have := j.isLt; omega⟩ := Fin.ext (by
    show 2048 * ((8 * (t.val / 8) + b.val) % 8) + j.val = 2048 * b.val + j.val
    omega)
  rw [e1, e2]

end Total

end Cert.KernelIdeal.Dif3Acc

end
-- ==== Proof.Dif3Array.lean ====
/-
  A diffusion region's result array from its written blocks.

  The region's grid is 16 × 8; point t = 8 i + k works on row block i (1024 rows) and column block k, and the
  output block, rows [1024 i, 1024 i + 1024), is written back only at k = 7. If, at every point with k = 7, the
  output block's element (p, q) is a function G at (1024 i + p, q), then the array ends holding G: row r lies in
  the block of the point 8 (r / 1024) + 7, which writes back, so the written blocks cover the array.
-/
import proofs.«172064_j31550829756529_1_alg».proof.Proof.Dif3
import proofs.«172064_j31550829756529_1_alg».proof.Proof.Spec
import Idealize.ShloMosaic.Lib.Pipeline.Value
import Idealize.ShloMosaic.Lib.ValueIdx

noncomputable section

namespace Cert.KernelIdeal.Dif3Array

open Cert.KernelIdeal Cert.KernelIdeal.Gen Idealize.ShloMosaic Idealize.ShloMosaic.ValueIdx
open Idealize.ShloMosaic.TcCoe

/-! ## The output's printed index map, decided once over the grid -/

theorem idx_facts : ∀ t : Fin cfg3.N,
    win3_2.index t (0 : Fin 2) = t.val / 8 ∧ win3_2.index t (1 : Fin 2) = 0 :=
  (by decide +kernel : ∀ t : Fin grid3.N, _)

/-- Row p of point t's output block is a row of the array. -/
theorem row_lt (t : Fin cfg3.N) (p : Fin 1024) : 1024 * (t.val / 8) + p.val < 16384 := by
  have ht := t.isLt; have hN : cfg3.N = 128 := N_3; omega

variable (V : (c : Dev nD) → (b : Ref sig .tc) → Buf (Elt Ideal) ((c : Thread nD τ).loc b))

/-! ## What a point writes back -/

/-- A point that writes back writes block t of G. -/
theorem flushed_eq (c : Dev nD) (G : Cert.Spec.SF.Idx → EReal)
    (hout : ∀ (t : Fin cfg3.N) (h7 : t.val % 8 = 7) (p : Fin 1024) (q : Fin 128) (hr : 1024 * (t.val / 8) + p.val < 16384),
      (Dif3.stateAt (F := Ideal) V c t.val t.isLt).1 (ix2 p q) = G (ix2 ⟨1024 * (t.val / 8) + p.val, hr⟩ q))
    (t : Fin cfg3.N) (hf : (cfg3.win 2).flush t = true) :
    (Dif3.dat (F := Ideal) V c).flushed 2 t = ((cfg3.win 2).blk t).view.read (Elt Ideal) G := by
  have h7 : t.val % 8 = 7 := (flush3_2 t).mp hf
  show (cfg3.win 2).cut (grid3.coords t) ((Dif3.dat V c).after 2 t) = _
  rw [Dif3.after_o]
  obtain ⟨e0, e1⟩ := idx_facts t
  funext y
  have hy0 : (y 0).val < 1024 := (y 0).isLt
  have hy1 : (y 1).val < 128 := (y 1).isLt
  rw [View.read_apply]
  have hx : (cfg3.win 2).xinj (grid3.coords t) y = ix2 (⟨(y 0).val, hy0⟩ : Fin 1024) (⟨(y 1).val, hy1⟩ : Fin 128) :=
    funext fun a => Fin.ext (by match a with | ⟨0, _⟩ => rfl | ⟨1, _⟩ => rfl)
  have he : ((cfg3.win 2).blk t).view.emb y
      = ix2 (⟨1024 * (t.val / 8) + (y 0).val, row_lt t ⟨(y 0).val, hy0⟩⟩ : Fin 16384) (⟨(y 1).val, hy1⟩ : Fin 128) :=
    funext fun a => Fin.ext (by
      match a with
      | ⟨0, _⟩ => show win3_2.index t (0 : Fin 2) * 1024 + 1 * (y 0).val = 1024 * (t.val / 8) + (y 0).val; omega
      | ⟨1, _⟩ => show win3_2.index t (1 : Fin 2) * 128 + 1 * (y 1).val = (y 1).val; omega)
  show (Dif3.stateAt (F := Ideal) V c t.val t.isLt).1 ((cfg3.win 2).xinj (grid3.coords t) y)
    = G (((cfg3.win 2).blk t).view.emb y)
  rw [hx, he]
  exact hout t h7 ⟨(y 0).val, hy0⟩ ⟨(y 1).val, hy1⟩ (row_lt t ⟨(y 0).val, hy0⟩)

/-! ## The written blocks cover the array -/

/-- An index of the array is in point t's block iff each coordinate is in the block's range on its axis. -/
theorem mem_blk (t : Fin cfg3.N) (i : S16384x128.Idx) :
    i ∈ ((cfg3.win 2).blk t).view.set ↔ ∀ a : Fin 2, win3_2.index t a * S1024x128.size a ≤ (i a).val
      ∧ (i a).val < win3_2.index t a * S1024x128.size a + S1024x128.size a := by
  show i ∈ ((View.whole (Pipeline.arrRef spec3 2)).slice (win3_2.rect t)).set ↔ _
  rw [View.set_slice_whole, Rect.mem_set_unit]
  exact Iff.rfl

/-- Row r lies in the block of the point 8 (r / 1024) + 7, which writes its block back. -/
theorem cover (i : S16384x128.Idx) :
    ∃ t : Fin cfg3.N, (cfg3.win 2).flush t = true ∧ i ∈ ((cfg3.win 2).blk t).view.set := by
  have hi0 : (i 0).val < 16384 := (i 0).isLt
  have hi1 : (i 1).val < 128 := (i 1).isLt
  have hN : cfg3.N = 128 := N_3
  obtain ⟨t, ht⟩ : ∃ t : Fin cfg3.N, t.val = 8 * ((i 0).val / 1024) + 7 :=
    ⟨⟨8 * ((i 0).val / 1024) + 7, by omega⟩, rfl⟩
  obtain ⟨e0, e1⟩ := idx_facts t
  refine ⟨t, (flush3_2 t).mpr (by omega), ?_⟩
  rw [mem_blk]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 128 ≤ (i 1).val ∧ (i 1).val < win3_2.index t (1 : Fin 2) * 128 + 128; omega

/-! ## The array after the region -/

/-- If every written output block is its block of G, the output array ends holding G. -/
theorem array_of (c : Dev nD) (G : Cert.Spec.SF.Idx → EReal)
    (hout : ∀ (t : Fin cfg3.N) (h7 : t.val % 8 = 7) (p : Fin 1024) (q : Fin 128) (hr : 1024 * (t.val / 8) + p.val < 16384),
      (Dif3.stateAt (F := Ideal) V c t.val t.isLt).1 (ix2 p q) = G (ix2 ⟨1024 * (t.val / 8) + p.val, hr⟩ q)) :
    (Dif3.dat (F := Ideal) V c).arrAt 2 cfg3.N = G :=
  (Dif3.dat (F := Ideal) V c).arrAt_eq_of_cover 2 G (fun t hf => flushed_eq V c G hout t hf) cover

end Cert.KernelIdeal.Dif3Array

end
-- ==== Proof.Dif3Value.lean ====
/-
  The last diffusion step, read as values: what the result array of the region  out = relu (S @ feat)  ends holding.
  At k = 7 the body writes the output block with the maximum of the accumulator and 0, element by element, and the
  accumulator holds rows [1024 i, 1024 i + 1024) of S · feat; the 16 points with k = 7 cover the result array.
-/
import proofs.«172064_j31550829756529_1_alg».proof.Proof.Dif3Acc
import proofs.«172064_j31550829756529_1_alg».proof.Proof.Dif3Array

set_option maxRecDepth 16384

noncomputable section

namespace Cert.KernelIdeal.Dif3Value

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open Cert.KernelIdeal.Dif3Acc

variable {F : FTy → Type} [FloatOps F]

/-! ## The output block at k = 7 -/

/-- k = 7: the output block is relu of the accumulator read back, the accumulator being one accumulation step from
    what it held. -/
theorem out_last_eq (c : Dev nD) (i : grid3.Coords) (arg2 : Memref sig .tc .vmem S1024x2048 .f32) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (hc0 : ¬Dif3.cond_first i) (hc1 : Dif3.cond_last i)
    (x0 : Vec F S1024x2048 .f32) (x1 : Vec F S2048x128 .f32) (xs : Vec F S1024x128 .f32) :
    Dif3.out_last c i arg2 harg2 arg3 harg3 arg4 harg4 arg5 harg5 hc0 hc1 x0 x1 xs = k3_pay3 (k3_pay2 x0 x1 xs) := by
  unfold Dif3.out_last
  rw [View.read_writes_eq_canon _ _ _ (Dif3.cover_last_out c i arg2 harg2 arg3 harg3 arg4 harg4 arg5 harg5 hc0 hc1 x0 x1 xs)]
  unfold Dif3.run_last
  dsimp only
  sl_unfold_words
  rw [View.canon_unit_zero hz]
  simp only [View.readCov_unit_zero (S := S1024x128) _ hz, View.readAt_eq_ld, harg2.read_unread, harg3.read_unread, harg5.read_unread,
    View.ld_unit_zero (S := S1024x2048) hz, View.ld_unit_zero (S := S2048x128) hz, View.ld_unit_zero (S := S1024x128) hz]

section Out
variable (V : (c : Dev nD) → (b : Ref sig .tc) → Buf (Elt Ideal) ((c : Thread nD τ).loc b))

/-- At k = 7 the output block is written with the maximum of the accumulator and 0. -/
theorem out_last_at (c : Dev nD) (t : Fin cfg3.N) (h1 : t.val % 8 = 7) (p : Fin 1024) (q : Fin 128) :
    (Dif3.stateAt V c t.val t.isLt).1 (ix2 p q) = max ((Dif3.stateAt V c t.val t.isLt).2 (ix2 p q)) 0 := by
  have h0 : ¬t.val % 8 = 0 := by omega
  rw [Dif3.stateAt_eq V c t, Dif3.step_last V c t _ h0 h1]
  dsimp only
  refine (congrFun (out_last_eq (F := Ideal) c (grid3.coords t) (Dif3.ms_s t) (Dif3.hs_s t) (Dif3.ms_f t) (Dif3.hs_f t) (Dif3.ms_o t) (Dif3.hs_o t) Dif3.scr (Memref.isWhole_whole _) (fun h => h0 ((Dif3.first_iff t).mp h)) ((Dif3.last_iff t).mpr h1) (Dif3.blk V c 0 t) (Dif3.blk V c 1 t) (Dif3.prevAcc V c t)) (ix2 p q)).trans ?_
  refine (PayAt.relu3_at _ p q).trans ?_
  exact congrArg (max · 0) (congrFun (acc_last_eq (F := Ideal) c (grid3.coords t) (Dif3.ms_s t) (Dif3.hs_s t) (Dif3.ms_f t) (Dif3.hs_f t) (Dif3.ms_o t) (Dif3.hs_o t) Dif3.scr (Memref.isWhole_whole _) (fun h => h0 ((Dif3.first_iff t).mp h)) ((Dif3.last_iff t).mpr h1) (Dif3.blk V c 0 t) (Dif3.blk V c 1 t) (Dif3.prevAcc V c t)) (ix2 p q)).symm

/-- So the output block of point t is rows [1024 (t / 8), 1024 (t / 8) + 1024) of relu (S · feat). -/
theorem out_at (c : Dev nD) (t : Fin cfg3.N) (h7 : t.val % 8 = 7) (p : Fin 1024) (q : Fin 128)
    (hr : 1024 * (t.val / 8) + p.val < 16384) :
    (Dif3.stateAt (F := Ideal) V c t.val t.isLt).1 (ix2 p q)
      = Cert.Spec.relu (Cert.Spec.mat (V c main_arg1) (V c main_v2)) (ix2 ⟨1024 * (t.val / 8) + p.val, hr⟩ q) :=
  (out_last_at V c t h7 p q).trans
    ((congrArg (max · 0) (acc_total V c t h7 p q hr)).trans (Cert.Spec.relu_apply _ _).symm)

/-- THE RESULT ARRAY after the region: relu (S · feat). The 16 points with k = 7 write its 16 row blocks. -/
theorem array (c : Dev nD) :
    (Dif3.dat (F := Ideal) V c).arrAt 2 cfg3.N = Cert.Spec.relu (Cert.Spec.mat (V c main_arg1) (V c main_v2)) :=
  Dif3Array.array_of V c _ (out_at V c)

end Out

end Cert.KernelIdeal.Dif3Value

end
-- ==== Proof.Bridge.lean ====
/-
  The kernel's result as a function of the four arguments. S reaches each diffusion region as launched (no region
  writes it); the features between regions are, in turn, feat₀ = ((x ∘ mask) · c) @ W, feat₁ = S @ feat₀,
  feat₂ = S @ feat₁, and the result max(S @ feat₂, 0): each region's array after its write-backs, read at the
  contents the region was entered with.
-/
import proofs.«172064_j31550829756529_1_alg».proof.Proof.Whole
import proofs.«172064_j31550829756529_1_alg».proof.Proof.LinValue
import proofs.«172064_j31550829756529_1_alg».proof.Proof.Dif1Value
import proofs.«172064_j31550829756529_1_alg».proof.Proof.Dif2Value
import proofs.«172064_j31550829756529_1_alg».proof.Proof.Dif3Value

noncomputable section

namespace Cert.KernelIdeal.Bridge

open Cert.KernelIdeal Cert.KernelIdeal.Gen Cert.KernelIdeal.Whole
open Idealize.ShloMosaic Idealize.ShloMosaic.TcCoe Idealize.SL.Sem

variable (m : (ℓ : Loc nD τ sig) → Buf (Elt Ideal) ℓ) (ρ : Dev nD → PrngReg)

/-- S as each diffusion region finds it. -/
theorem s_at1 (c : Dev nD) : V1 m ρ c main_arg1 = (m ((c : Thread nD τ).loc main_arg1)) := W1_of_ne m ρ c main_arg1 (by decide)
theorem s_at2 (c : Dev nD) : V2 m ρ c main_arg1 = (m ((c : Thread nD τ).loc main_arg1)) :=
  ((W2_arr m ρ c 0).trans (((Dif1.dat (V1 m ρ) c).arrAt_in 0 rfl _).trans (Dif1.A_eq (V1 m ρ) c 0))).trans (s_at1 m ρ c)
theorem s_at3 (c : Dev nD) : V3 m ρ c main_arg1 = (m ((c : Thread nD τ).loc main_arg1)) :=
  ((W3_arr m ρ c 0).trans (((Dif2.dat (V2 m ρ) c).arrAt_in 0 rfl _).trans (Dif2.A_eq (V2 m ρ) c 0))).trans (s_at2 m ρ c)

/-- feat₀, as the first diffusion region finds it. -/
theorem feat0 (c : Dev nD) :
    V1 m ρ c main_v0 = Cert.Spec.lin (m ((c : Thread nD τ).loc main_arg0)) (m ((c : Thread nD τ).loc main_arg3)) (m ((c : Thread nD τ).loc main_arg2)) :=
  (W1_arr m ρ c 3).trans (LinValue.array (V0 m ρ) c)
/-- feat₁ = S @ feat₀. -/
theorem feat1 (c : Dev nD) :
    V2 m ρ c main_v1 = Cert.Spec.mat (m ((c : Thread nD τ).loc main_arg1)) (Cert.Spec.lin (m ((c : Thread nD τ).loc main_arg0)) (m ((c : Thread nD τ).loc main_arg3)) (m ((c : Thread nD τ).loc main_arg2))) :=
  (W2_arr m ρ c 2).trans ((Dif1Value.array (V1 m ρ) c).trans (by rw [s_at1, feat0]))
/-- feat₂ = S @ feat₁. -/
theorem feat2 (c : Dev nD) :
    V3 m ρ c main_v2 = Cert.Spec.mat (m ((c : Thread nD τ).loc main_arg1)) (Cert.Spec.mat (m ((c : Thread nD τ).loc main_arg1)) (Cert.Spec.lin (m ((c : Thread nD τ).loc main_arg0)) (m ((c : Thread nD τ).loc main_arg3)) (m ((c : Thread nD τ).loc main_arg2)))) :=
  (W3_arr m ρ c 2).trans ((Dif2Value.array (V2 m ρ) c).trans (by rw [s_at2, feat1]))

/-- What the last region's write-backs leave in the result buffer. -/
theorem value (c : Dev nD) :
    (Dif3.dat (F := Ideal) (V3 m ρ) c).arrAt 2 cfg3.N
      = Cert.Spec.result (m ((c : Thread nD τ).loc main_arg0)) (m ((c : Thread nD τ).loc main_arg3)) (m ((c : Thread nD τ).loc main_arg1)) (m ((c : Thread nD τ).loc main_arg2)) :=
  (Dif3Value.array (V3 m ρ) c).trans (by rw [s_at3, feat2]; rfl)

end Cert.KernelIdeal.Bridge

end
-- ==== Proof.RefIsSpec.lean ====
/-
  The reference program's result is the specification.

  The reference computes, on the host, (x ∘ mask) · c, its product with W, three products with S on the left,
  and the maximum with a broadcast zero. Read one operation at a time at an output index (p, q), each product is
  the sum over its contracted coordinate k of the left operand at (p, k) times the right operand at (k, q),
  and the pointwise operations act on the elements: these are the specification's lin, mat and relu, term by term.
-/
import proofs.«172064_j31550829756529_1_alg».proof.Proof.Gen.ReferenceIdeal.Read
import proofs.«172064_j31550829756529_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-! ## Where the contractions read their operands

At the output index (p, q) and contraction coordinate k, the left operand is read at (p, k) and the right
operand at (k, q). -/

theorem lidx_lin (p : Fin 16384) (q : Fin 128) (k : Fin 512) : lidx_main_v3 (ix2 p q) k = ix2 p k :=
  funext fun a => Fin.ext (by match a with | ⟨0, _⟩ => rfl | ⟨1, _⟩ => rfl)
theorem ridx_lin (p : Fin 16384) (q : Fin 128) (k : Fin 512) : ridx_main_v3 (ix2 p q) k = ix2 k q :=
  funext fun a => Fin.ext (by match a with | ⟨0, _⟩ => rfl | ⟨1, _⟩ => rfl)
theorem lidx_mat (p : Fin 16384) (q : Fin 128) (k : Fin 16384) : lidx_main_v4 (ix2 p q) k = ix2 p k :=
  funext fun a => Fin.ext (by match a with | ⟨0, _⟩ => rfl | ⟨1, _⟩ => rfl)
theorem ridx_mat (p : Fin 16384) (q : Fin 128) (k : Fin 16384) : ridx_main_v4 (ix2 p q) k = ix2 k q :=
  funext fun a => Fin.ext (by match a with | ⟨0, _⟩ => rfl | ⟨1, _⟩ => rfl)

/-! ## The stages -/

/-- The first product, of the masked and scaled input with W, is the specification's linear layer. -/
theorem lin_eq (x mask : (⟨S16384x512, .f32⟩ : BufTy).Contents (Elt Ideal))
    (w : (⟨S512x128, .f32⟩ : BufTy).Contents (Elt Ideal)) :
    val_main_v3 (F := Ideal) x w mask = Cert.Spec.lin x mask w := by
  funext i
  obtain ⟨p, q, rfl⟩ : ∃ (p : Fin 16384) (q : Fin 128), i = ix2 p q := ⟨i 0, i 1, eq_ix2 i⟩
  refine (val_main_v3_apply x w mask (ix2 p q)).trans ?_
  refine (Finset.sum_congr rfl fun k _ => ?_).trans (Cert.Spec.lin_ix2 x mask w p q).symm
  rw [val_main_v2_apply, val_main_v0_apply, val_main_v1_apply, val_main_cst_apply, lidx_lin, ridx_lin]
  rfl

/-- A function that reads, at every index, as the sum over k of S at the left index times f at the right
    index is the specification's propagation step on f. -/
theorem mat_of_read (s : (⟨S16384x16384, .f32⟩ : BufTy).Contents (Elt Ideal))
    (f g : (⟨S16384x128, .f32⟩ : BufTy).Contents (Elt Ideal))
    (h : ∀ i : S16384x128.Idx, g i = ∑ k : Fin 16384, s (lidx_main_v4 i k) * f (ridx_main_v4 i k)) :
    g = Cert.Spec.mat s f := by
  funext i
  obtain ⟨p, q, rfl⟩ : ∃ (p : Fin 16384) (q : Fin 128), i = ix2 p q := ⟨i 0, i 1, eq_ix2 i⟩
  refine (h (ix2 p q)).trans ?_
  refine (Finset.sum_congr rfl fun k _ => ?_).trans (Cert.Spec.mat_ix2 s f p q).symm
  rw [lidx_mat, ridx_mat]

variable (x mask : (⟨S16384x512, .f32⟩ : BufTy).Contents (Elt Ideal))
  (s : (⟨S16384x16384, .f32⟩ : BufTy).Contents (Elt Ideal))
  (w : (⟨S512x128, .f32⟩ : BufTy).Contents (Elt Ideal))

theorem mat1_eq : val_main_v4 (F := Ideal) x s w mask = Cert.Spec.mat s (val_main_v3 (F := Ideal) x w mask) :=
  mat_of_read s _ _ (val_main_v4_apply x s w mask)
theorem mat2_eq : val_main_v5 (F := Ideal) x s w mask = Cert.Spec.mat s (val_main_v4 (F := Ideal) x s w mask) :=
  mat_of_read s _ _ (val_main_v5_apply x s w mask)
theorem mat3_eq : val_main_v6 (F := Ideal) x s w mask = Cert.Spec.mat s (val_main_v5 (F := Ideal) x s w mask) :=
  mat_of_read s _ _ (val_main_v6_apply x s w mask)

/-- The reference's result, as a function of its four arguments, is the specification. -/
theorem ref_eq : val_main_v7 (F := Ideal) x s w mask = Cert.Spec.result x mask s w := by
  funext i
  rw [val_main_v7_apply, val_main_call0_v0_apply, val_main_call0_cst_apply,
    mat3_eq, mat2_eq, mat1_eq, lin_eq]
  exact Cert.Spec.max_zeroWord _ i

end Cert.ReferenceIdeal.RefValue

end
-- ==== Proof.lean ====
/-
  Both programs compute relu(S @ (S @ (S @ (((x ∘ mask) · c) @ W)))) over the extended reals, c the same f32 word on
  both sides. The kernel does it in four regions: the scaled, masked product with W one block of 2048 rows at a
  time, then three times S @ feat with S tiled in blocks of 1024 × 2048, the products of a row of blocks summed in
  a scratch accumulator that starts from zero and is written out (through max(·, 0) the last time) after the eighth
  block. The reference is four whole products and a maximum. The two agree index by index because a sum over 16384
  terms is the sum of its eight consecutive blocks of 2048 and 0 + a = a: laws of addition alone, so finiteness of
  the inputs is never used. Each program's frame: the kernel's two programs run through their four regions leaving
  the arguments as launched; the reference's frame is its run with the result dropped. The kernel's idealization
  rewrote nothing.
-/
import proofs.«172064_j31550829756529_1_alg».proof.Defs
import proofs.«172064_j31550829756529_1_alg».proof.Proof.Gen.Kernel
import proofs.«172064_j31550829756529_1_alg».proof.Proof.Gen.KernelIdeal
import proofs.«172064_j31550829756529_1_alg».proof.Proof.Gen.ReferenceIdeal
import proofs.«172064_j31550829756529_1_alg».proof.Proof.Gen.Pre_finite_inputs
import proofs.«172064_j31550829756529_1_alg».proof.Proof.Gen.ReferenceIdeal.Run
import proofs.«172064_j31550829756529_1_alg».proof.Proof.KWhole
import proofs.«172064_j31550829756529_1_alg».proof.Proof.Whole
import proofs.«172064_j31550829756529_1_alg».proof.Proof.Bridge
import proofs.«172064_j31550829756529_1_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Whole.frame m ρ
theorem frame_ki : Cert.frame_KernelIdeal := fun m ρ _ => Cert.KernelIdeal.Whole.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result buffer at the same function of them. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Bridge.value m ρ c), (h c).2⟩)
      (Cert.KernelIdeal.Whole.result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.ReferenceIdeal.RefValue.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
